-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v120)) (v1 : (c : Dev Cert.KernelIdeal.nD) → Buf (Elt Ideal) ((c.tc : Thread Cert.KernelIdeal.nD Cert.KernelIdeal.τ).loc Cert.KernelIdeal.main_v123)) (v2 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v120) = v0 c
          ∧ r.2.mem ((c.tc : Thread Cert.KernelIdeal.nD Cert.KernelIdeal.τ).loc Cert.KernelIdeal.main_v123) = v1 c
          ∧ r.2.mem ((c.tc : Thread Cert.KernelIdeal.nD Cert.KernelIdeal.τ).loc Cert.KernelIdeal.main_arg1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_v143) = v1 c
          ∧ r.2.mem ((c.tc : Thread Cert.ReferenceIdeal.nD Cert.ReferenceIdeal.τ).loc Cert.ReferenceIdeal.main_arg1) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x17 : Shape := ⟨2, ![100000, 17]⟩
abbrev S100000x2 : Shape := ⟨2, ![100000, 2]⟩
abbrev S4x128 : Shape := ⟨2, ![4, 128]⟩
abbrev S4x256 : Shape := ⟨2, ![4, 256]⟩
abbrev S17x128 : Shape := ⟨2, ![17, 128]⟩
abbrev S128 : Shape := ⟨1, ![128]⟩
abbrev S3x256x256 : Shape := ⟨3, ![3, 256, 256]⟩
abbrev S3x256 : Shape := ⟨2, ![3, 256]⟩
abbrev S256x256 : Shape := ⟨2, ![256, 256]⟩
abbrev S256 : Shape := ⟨1, ![256]⟩
abbrev S256x1 : Shape := ⟨2, ![256, 1]⟩
abbrev S1 : Shape := ⟨1, ![1]⟩
abbrev S100000 : Shape := ⟨1, ![100000]⟩
abbrev S320000 : Shape := ⟨1, ![320000]⟩
abbrev S2x320000 : Shape := ⟨2, ![2, 320000]⟩
abbrev S_ : Shape := ⟨0, ![]⟩

class Facts : Prop where
  bcast_S_S100000x17 : S_.BroadcastsInDim S100000x17 (![] : Fin 0 → Fin S100000x17.rank)
  reducesTo_S100000x17_S_d0_1 : S100000x17.ReducesTo [0, 1] S_
  h_S_ : 0 < S_.numel
  bcast_S_S100000x2 : S_.BroadcastsInDim S100000x2 (![] : Fin 0 → Fin S100000x2.rank)
  reducesTo_S100000x2_S_d0_1 : S100000x2.ReducesTo [0, 1] S_
  bcast_S_S4x128 : S_.BroadcastsInDim S4x128 (![] : Fin 0 → Fin S4x128.rank)
  reducesTo_S4x128_S_d0_1 : S4x128.ReducesTo [0, 1] S_
  bcast_S_S4x256 : S_.BroadcastsInDim S4x256 (![] : Fin 0 → Fin S4x256.rank)
  reducesTo_S4x256_S_d0_1 : S4x256.ReducesTo [0, 1] S_
  bcast_S_S17x128 : S_.BroadcastsInDim S17x128 (![] : Fin 0 → Fin S17x128.rank)
  reducesTo_S17x128_S_d0_1 : S17x128.ReducesTo [0, 1] S_
  bcast_S_S128 : S_.BroadcastsInDim S128 (![] : Fin 0 → Fin S128.rank)
  reducesTo_S128_S_d0 : S128.ReducesTo [0] S_
  bcast_S_S3x256x256 : S_.BroadcastsInDim S3x256x256 (![] : Fin 0 → Fin S3x256x256.rank)
  reducesTo_S3x256x256_S_d0_1_2 : S3x256x256.ReducesTo [0, 1, 2] S_
  bcast_S_S3x256 : S_.BroadcastsInDim S3x256 (![] : Fin 0 → Fin S3x256.rank)
  reducesTo_S3x256_S_d0_1 : S3x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg14 : FVec F S256x1 .f32) (main_arg15 : FVec F S1 .f32) (main_v63 : IVec S_ 1) (main_v67 : IVec S_ 1) : IVec S_ 1 :=
  let main_v68 : IVec S_ 1 := andi main_v63 main_v67
  let main_v69 : FVec F S256x1 .f32 := Host.absf main_arg14
  let main_cst_26 : FVec F S_ .f32 := constant S_ .f32 0x7F800000#32
  let main_v70 : FVec F S256x1 .f32 := broadcastInDim S256x1 ![] bcast_S_S256x1 main_cst_26
  let main_v71 : IVec S256x1 1 := cmpf .olt main_v69 main_v70
  let main_c_27 : IVec S_ 1 := constantI S_ 1 1#1
  let main_v72 : IVec S_ 1 := (fun x v => Host.reduce IntOp.andi x v reducesTo_S256x1_S_d0_1 h_S_) main_v71 main_c_27
  let main_v73 : IVec S_ 1 := andi main_v68 main_v72
  let main_v74 : FVec F S1 .f32 := Host.absf main_arg15
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg11 : FVec F S3x256x256 .f32) (main_arg12 : FVec F S256x256 .f32) (main_arg13 : FVec F S256 .f32) (main_arg14 : FVec F S256x1 .f32) (main_arg15 : FVec F S1 .f32) (main_v48 : IVec S_ 1) (main_v49 : FVec F S3x256 .f32) (main_v50 : FVec F S3x256 .f32) : IVec S_ 1 :=
  let main_v51 : IVec S3x256 1 := cmpf .olt main_v49 main_v50
  let main_c_19 : IVec S_ 1 := constantI S_ 1 1#1
  let main_v52 : IVec S_ 1 := (fun x v => Host.reduce IntOp.andi x v reducesTo_S3x256_S_d0_1 h_S_) main_v51 main_c_19
  let main_v53 : IVec S_ 1 := andi main_v48 main_v52
  let main_v54 : FVec F S3x256x256 .f32 := Host.absf main_arg11
  let main_cst_20 : FVec F S_ .f32 := constant S_ .f32 0x7F800000#32
  let main_v55 : FVec F S3x256x256 .f32 := broadcastInDim S3x256x256 ![] bcast_S_S3x256x256 main_cst_20
  let main_v56 : IVec S3x256x256 1 := cmpf .olt main_v54 main_v55
  let main_c_21 : IVec S_ 1 := constantI S_ 1 1#1
  let main_v57 : IVec S_ 1 := (fun x v => Host.reduce IntOp.andi x v reducesTo_S3x256x256_S_d0_1_2 h_S_) main_v56 main_c_21
  let main_v58 : IVec S_ 1 := andi main_v53 main_v57
  let main_v59 : FVec F S256x256 .f32 := Host.absf main_arg12
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg14 main_arg15 main_v63 main_v67

def fn_part2 {F : FTy → Type} [FloatOps F] (main_arg7 : FVec F S128 .f32) (main_arg8 : FVec F S17x128 .f32) (main_arg9 : FVec F S3x256x256 .f32) (main_arg10 : FVec F S3x256 .f32) (main_arg11 : FVec F S3x256x256 .f32) (main_arg12 : FVec F S256x256 .f32) (main_arg13 : FVec F S256 .f32) (main_arg14 : FVec F S256x1 .f32) (main_arg15 : FVec F S1 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S17x128 .f32 := Host.absf main_arg8
  let main_cst_14 : FVec F S_ .f32 := constant S_ .f32 0x7F800000#32
  let main_v40 : FVec F S17x128 .f32 := broadcastInDim S17x128 ![] bcast_S_S17x128 main_cst_14
  let main_v41 : IVec S17x128 1 := cmpf .olt main_v39 main_v40
  let main_c_15 : IVec S_ 1 := constantI S_ 1 1#1
  let main_v42 : IVec S_ 1 := (fun x v => Host.reduce IntOp.andi x v reducesTo_S17x128_S_d0_1 h_S_) main_v41 main_c_15
  let main_v43 : IVec S_ 1 := andi main_v38 main_v42
  let main_v44 : FVec F S3x256x256 .f32 := Host.absf main_arg9
  let main_cst_16 : FVec F S_ .f32 := constant S_ .f32 0x7F800000#32
  let main_v45 : FVec F S3x256x256 .f32 := broadcastInDim S3x256x256 ![] bcast_S_S3x256x256 main_cst_16
  let main_v46 : IVec S3x256x256 1 := cmpf .olt main_v44 main_v45
  let main_c_17 : IVec S_ 1 := constantI S_ 1 1#1
  let main_v47 : IVec S_ 1 := (fun x v => Host.reduce IntOp.andi x v reducesTo_S3x256x256_S_d0_1_2 h_S_) main_v46 main_c_17
  let main_v48 : IVec S_ 1 := andi main_v43 main_v47
  let main_v49 : FVec F S3x256 .f32 := Host.absf main_arg10
  let main_cst_18 : FVec F S_ .f32 := constant S_ .f32 0x7F800000#32
  let main_v50 : FVec F S3x256 .f32 := broadcastInDim S3x256 ![] bcast_S_S3x256 main_cst_18
  fn_part3 (F := F) main_arg11 main_arg12 main_arg13 main_arg14 main_arg15 main_v48 main_v49 main_v50

def fn_part1 {F : FTy → Type} [FloatOps F] (main_arg4 : FVec F S17x128 .f32) (main_arg5 : FVec F S128 .f32) (main_arg6 : FVec F S17x128 .f32) (main_arg7 : FVec F S128 .f32) (main_arg8 : FVec F S17x128 .f32) (main_arg9 : FVec F S3x256x256 .f32) (main_arg10 : FVec F S3x256 .f32) (main_arg11 : FVec F S3x256x256 .f32) (main_arg12 : FVec F S256x256 .f32) (main_arg13 : FVec F S256 .f32) (main_arg14 : FVec F S256x1 .f32) (main_arg15 : FVec F S1 .f32) (main_v13 : IVec S_ 1) (main_v16 : IVec S4x256 1) : IVec S_ 1 :=
  let main_c_5 : IVec S_ 1 := constantI S_ 1 1#1
  let main_v17 : IVec S_ 1 := (fun x v => Host.reduce IntOp.andi x v reducesTo_S4x256_S_d0_1 h_S_) main_v16 main_c_5
  let main_v18 : IVec S_ 1 := andi main_v13 main_v17
  let main_v19 : FVec F S17x128 .f32 := Host.absf main_arg4
  let main_cst_6 : FVec F S_ .f32 := constant S_ .f32 0x7F800000#32
  let main_v20 : FVec F S17x128 .f32 := broadcastInDim S17x128 ![] bcast_S_S17x128 main_cst_6
  let main_v21 : IVec S17x128 1 := cmpf .olt main_v19 main_v20
  let main_c_7 : IVec S_ 1 := constantI S_ 1 1#1
  let main_v22 : IVec S_ 1 := (fun x v => Host.reduce IntOp.andi x v reducesTo_S17x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S17x128 .f32 := Host.absf main_arg6
  let main_cst_10 : FVec F S_ .f32 := constant S_ .f32 0x7F800000#32
  let main_v30 : FVec F S17x128 .f32 := broadcastInDim S17x128 ![] bcast_S_S17x128 main_cst_10
  let main_v31 : IVec S17x128 1 := cmpf .olt main_v29 main_v30
  let main_c_11 : IVec S_ 1 := constantI S_ 1 1#1
  let main_v32 : IVec S_ 1 := (fun x v => Host.reduce IntOp.andi x v reducesTo_S17x128_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S100000x17 .f32) (main_arg1 : FVec F S100000x2 .f32) (main_arg2 : FVec F S4x128 .f32) (main_arg3 : FVec F S4x256 .f32) (main_arg4 : FVec F S17x128 .f32) (main_arg5 : FVec F S128 .f32) (main_arg6 : FVec F S17x128 .f32) (main_arg7 : FVec F S128 .f32) (main_arg8 : FVec F S17x128 .f32) (main_arg9 : FVec F S3x256x256 .f32) (main_arg10 : FVec F S3x256 .f32) (main_arg11 : FVec F S3x256x256 .f32) (main_arg12 : FVec F S256x256 .f32) (main_arg13 : FVec F S256 .f32) (main_arg14 : FVec F S256x1 .f32) (main_arg15 : FVec F S1 .f32) (main_arg16 : IVec S100000 32) (main_arg17 : IVec S320000 32) (main_arg18 : IVec S2x320000 32) : IVec S_ 1 :=
  let main_v0 : FVec F S100000x17 .f32 := Host.absf main_arg0
  let main_cst : FVec F S_ .f32 := constant S_ .f32 0x7F800000#32
  let main_v1 : FVec F S100000x17 .f32 := broadcastInDim S100000x17 ![] bcast_S_S100000x17 main_cst
  let main_v2 : IVec S100000x17 1 := cmpf .olt main_v0 main_v1
  let main_c : IVec S_ 1 := constantI S_ 1 1#1
  let main_v3 : IVec S_ 1 := (fun x v => Host.reduce IntOp.andi x v reducesTo_S100000x17_S_d0_1 h_S_) main_v2 main_c
  let main_v4 : FVec F S100000x2 .f32 := Host.absf main_arg1
  let main_cst_0 : FVec F S_ .f32 := constant S_ .f32 0x7F800000#32
  let main_v5 : FVec F S100000x2 .f32 := broadcastInDim S100000x2 ![] bcast_S_S100000x2 main_cst_0
  let main_v6 : IVec S100000x2 1 := cmpf .olt main_v4 main_v5
  let main_c_1 : IVec S_ 1 := constantI S_ 1 1#1
  let main_v7 : IVec S_ 1 := (fun x v => Host.reduce IntOp.andi x v reducesTo_S100000x2_S_d0_1 h_S_) main_v6 main_c_1
  let main_v8 : IVec S_ 1 := andi main_v3 main_v7
  let main_v9 : FVec F S4x128 .f32 := Host.absf main_arg2
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  let main_c_3 : IVec S_ 1 := constantI S_ 1 1#1
  let main_v12 : IVec S_ 1 := (fun x v => Host.reduce IntOp.andi x v reducesTo_S4x128_S_d0_1 h_S_) main_v11 main_c_3
  let main_v13 : IVec S_ 1 := andi main_v8 main_v12
  let main_v14 : FVec F S4x256 .f32 := Host.absf main_arg3
  let main_cst_4 : FVec F S_ .f32 := constant S_ .f32 0x7F800000#32
  let main_v15 : FVec F S4x256 .f32 := broadcastInDim S4x256 ![] bcast_S_S4x256 main_cst_4
  let main_v16 : IVec S4x256 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S100000x17 : Shape := ⟨2, ![100000, 17]⟩
abbrev S100000x2 : Shape := ⟨2, ![100000, 2]⟩
abbrev S4x128 : Shape := ⟨2, ![4, 128]⟩
abbrev S4x256 : Shape := ⟨2, ![4, 256]⟩
abbrev S17x128 : Shape := ⟨2, ![17, 128]⟩
abbrev S128 : Shape := ⟨1, ![128]⟩
abbrev S3x256x256 : Shape := ⟨3, ![3, 256, 256]⟩
abbrev S3x256 : Shape := ⟨2, ![3, 256]⟩
abbrev S256x256 : Shape := ⟨2, ![256, 256]⟩
abbrev S256 : Shape := ⟨1, ![256]⟩
abbrev S256x1 : Shape := ⟨2, ![256, 1]⟩
abbrev S1 : Shape := ⟨1, ![1]⟩
abbrev S100000 : Shape := ⟨1, ![100000]⟩
abbrev S320000 : Shape := ⟨1, ![320000]⟩
abbrev S2x320000 : Shape := ⟨2, ![2, 320000]⟩
abbrev S_ : Shape := ⟨0, ![]⟩
abbrev S100000x1 : Shape := ⟨2, ![100000, 1]⟩
abbrev S100000x128 : Shape := ⟨2, ![100000, 128]⟩
abbrev S1x128 : Shape := ⟨2, ![1, 128]⟩
abbrev S100000x256 : Shape := ⟨2, ![100000, 256]⟩
abbrev S1x320000 : Shape := ⟨2, ![1, 320000]⟩
abbrev S320000x1 : Shape := ⟨2, ![320000, 1]⟩
abbrev S320000x256 : Shape := ⟨2, ![320000, 256]⟩
abbrev S1x256 : Shape := ⟨2, ![1, 256]⟩
abbrev S1x256x256 : Shape := ⟨3, ![1, 256, 256]⟩
abbrev S2000x256 : Shape := ⟨2, ![2000, 256]⟩
abbrev S1x1 : Shape := ⟨2, ![1, 1]⟩
abbrev S2000x1 : Shape := ⟨2, ![2000, 1]⟩

abbrev nBuf : Space → Nat
  | .hbm => 166
  | .vmem => 35
  | .smem => 0
  | _ => 0

abbrev hbmTy0_0 (i : Nat) : BufTy := match i % 128 with
  | 0 => ⟨S100000x17, .f32⟩
  | 1 => ⟨S100000x2, .f32⟩
  | 2 => ⟨S4x128, .f32⟩
  | 3 => ⟨S4x256, .f32⟩
  | 4 => ⟨S17x128, .f32⟩
  | 5 => ⟨S128, .f32⟩
  | 6 => ⟨S17x128, .f32⟩
  | 7 => ⟨S128, .f32⟩
  | 8 => ⟨S17x128, .f32⟩
  | 9 => ⟨S3x256x256, .f32⟩
  | 10 => ⟨S3x256, .f32⟩
  | 11 => ⟨S3x256x256, .f32⟩
  | 12 => ⟨S256x256, .f32⟩
  | 13 => ⟨S256, .f32⟩
  | 14 => ⟨S256x1, .f32⟩
  | 15 => ⟨S1, .f32⟩
  | 16 => ⟨S100000, .i32⟩
  | 17 => ⟨S320000, .i32⟩
  | 18 => ⟨S2x320000, .i32⟩
  | 19 => ⟨S_, .i32⟩
  | 20 => ⟨S100000, .i32⟩
  | 21 => ⟨S100000, .i1⟩
  | 22 => ⟨S_, .i32⟩
  | 23 => ⟨S100000, .i32⟩
  | 24 => ⟨S100000, .i32⟩
  | 25 => ⟨S100000, .i32⟩
  | 26 => ⟨S100000x1, .i32⟩
  | 27 => ⟨S100000x128, .f32⟩
  | 28 => ⟨S_, .i32⟩
  | 29 => ⟨S100000, .i32⟩
  | 30 => ⟨S100000, .i1⟩
  | 31 => ⟨S_, .i32⟩
  | 32 => ⟨S100000, .i32⟩
  | 33 => ⟨S100000, .i1⟩
  | 34 => ⟨S_, .i32⟩
  | 35 => ⟨S100000, .i32⟩
  | 36 => ⟨S100000, .i1⟩
  | 37 => ⟨S100000x128, .f32⟩
  | 38 => ⟨S1x128, .f32⟩
  | 39 => ⟨S100000x128, .f32⟩
  | 40 => ⟨S100000x128, .f32⟩
  | 41 => ⟨S100000x128, .f32⟩
  | 42 => ⟨S1x128, .f32⟩
  | 43 => ⟨S100000x128, .f32⟩
  | 44 => ⟨S100000x128, .f32⟩
  | 45 => ⟨S100000x1, .f32⟩
  | 46 => ⟨S100000, .f32⟩
  | 47 => ⟨S100000, .i32⟩
  | 48 => ⟨S_, .i32⟩
  | 49 => ⟨S100000, .i32⟩
  | 50 => ⟨S100000, .i1⟩
  | 51 => ⟨S_, .i32⟩
  | 52 => ⟨S100000, .i32⟩
  | 53 => ⟨S100000, .i32⟩
  | 54 => ⟨S100000, .i32⟩
  | 55 => ⟨S100000x1, .i32⟩
  | 56 => ⟨S100000x128, .f32⟩
  | 57 => ⟨S100000x1, .i1⟩
  | 58 => ⟨S100000x1, .i1⟩
  | 59 => ⟨S100000x1, .i1⟩
  | 60 => ⟨S_, .f32⟩
  | 61 => ⟨S100000x128, .f32⟩
  | 62 => ⟨S100000x128, .i1⟩
  | 63 => ⟨S100000x128, .f32⟩
  | 64 => ⟨S100000x128, .i1⟩
  | 65 => ⟨S100000x128, .f32⟩
  | 66 => ⟨S100000x128, .i1⟩
  | 67 => ⟨S100000x128, .f32⟩
  | 68 => ⟨S100000x256, .f32⟩
  | 69 => ⟨S100000x256, .bf16⟩
  | 70 => ⟨S1x320000, .i32⟩
  | 71 => ⟨S320000, .i32⟩
  | 72 => ⟨S1x320000, .i32⟩
  | 73 => ⟨S320000, .i32⟩
  | 74 => ⟨S_, .f32⟩
  | 75 => ⟨S320000, .f32⟩
  | 76 => ⟨S_, .f32⟩
  | 77 => ⟨S100000, .f32⟩
  | 78 => ⟨S320000x1, .i32⟩
  | 79 => ⟨S100000, .f32⟩
  | 80 => ⟨S_, .f32⟩
  | 81 => ⟨S100000, .f32⟩
  | 82 => ⟨S100000, .f32⟩
  | 83 => ⟨S100000x1, .f32⟩
  | 84 => ⟨S3x256x256, .bf16⟩
  | 85 => ⟨S3x256x256, .bf16⟩
  | 86 => ⟨S_, .i32⟩
  | 87 => ⟨S320000, .i32⟩
  | 88 => ⟨S320000, .i1⟩
  | 89 => ⟨S_, .i32⟩
  | 90 => ⟨S320000, .i32⟩
  | 91 => ⟨S320000, .i32⟩
  | 92 => ⟨S320000, .i32⟩
  | 93 => ⟨S320000x1, .i32⟩
  | 94 => ⟨S320000x256, .bf16⟩
  | 95 => ⟨S320000x256, .f32⟩
  | 96 => ⟨S_, .f32⟩
  | 97 => ⟨S100000x256, .f32⟩
  | 98 => ⟨S320000x1, .i32⟩
  | 99 => ⟨S100000x256, .f32⟩
  | 100 => ⟨S100000x256, .f32⟩
  | 101 => ⟨S100000x256, .f32⟩
  | 102 => ⟨S1x256, .f32⟩
  | 103 => ⟨S256, .f32⟩
  | 104 => ⟨S1x256, .f32⟩
  | 105 => ⟨S1x256x256, .bf16⟩
  | 106 => ⟨S256x256, .bf16⟩
  | 107 => ⟨S1x256x256, .bf16⟩
  | 108 => ⟨S256x256, .bf16⟩
  | 109 => ⟨S100000x256, .bf16⟩
  | 110 => ⟨S_, .i32⟩
  | 111 => ⟨S320000, .i32⟩
  | 112 => ⟨S320000, .i1⟩
  | 113 => ⟨S_, .i32⟩
  | 114 => ⟨S320000, .i32⟩
  | 115 => ⟨S320000, .i32⟩
  | 116 => ⟨S320000, .i32⟩
  | 117 => ⟨S320000x1, .i32⟩
  | 118 => ⟨S320000x256, .bf16⟩
  | 119 => ⟨S320000x256, .f32⟩
  | 120 => ⟨S_, .f32⟩
  | 121 => ⟨S100000x256, .f32⟩
  | 122 => ⟨S320000x1, .i32⟩
  | 123 => ⟨S100000x256, .f32⟩
  | 124 => ⟨S100000x256, .f32⟩
  | 125 => ⟨S100000x256, .f32⟩
  | 126 => ⟨S1x256, .f32⟩
  | 127 => ⟨S256, .f32⟩
  | _ => ⟨S100000x17, .f32⟩

abbrev hbmTy0_1 (i : Nat) : BufTy := match i % 128 with
  | 0 => ⟨S1x256, .f32⟩
  | 1 => ⟨S1x256x256, .bf16⟩
  | 2 => ⟨S256x256, .bf16⟩
  | 3 => ⟨S1x256x256, .bf16⟩
  | 4 => ⟨S256x256, .bf16⟩
  | 5 => ⟨S100000x256, .bf16⟩
  | 6 => ⟨S_, .i32⟩
  | 7 => ⟨S320000, .i32⟩
  | 8 => ⟨S320000, .i1⟩
  | 9 => ⟨S_, .i32⟩
  | 10 => ⟨S320000, .i32⟩
  | 11 => ⟨S320000, .i32⟩
  | 12 => ⟨S320000, .i32⟩
  | 13 => ⟨S320000x1, .i32⟩
  | 14 => ⟨S320000x256, .bf16⟩
  | 15 => ⟨S320000x256, .f32⟩
  | 16 => ⟨S_, .f32⟩
  | 17 => ⟨S100000x256, .f32⟩
  | 18 => ⟨S320000x1, .i32⟩
  | 19 => ⟨S100000x256, .f32⟩
  | 20 => ⟨S100000x256, .f32⟩
  | 21 => ⟨S100000x256, .f32⟩
  | 22 => ⟨S1x256, .f32⟩
  | 23 => ⟨S256, .f32⟩
  | 24 => ⟨S1x256, .f32⟩
  | 25 => ⟨S1x256x256, .bf16⟩
  | 26 => ⟨S256x256, .bf16⟩
  | 27 => ⟨S1x256x256, .bf16⟩
  | 28 => ⟨S256x256, .bf16⟩
  | 29 => ⟨S100000x256, .bf16⟩
  | 30 => ⟨S256x256, .bf16⟩
  | 31 => ⟨S256x1, .bf16⟩
  | 32 => ⟨S1x256, .f32⟩
  | 33 => ⟨S1x1, .f32⟩
  | 34 => ⟨S100000x1, .f32⟩
  | 35 => ⟨S100000x1, .f32⟩
  | 36 => ⟨S100000, .f32⟩
  | 37 => ⟨S100000, .i32⟩
  | _ => ⟨S100000x17, .f32⟩

abbrev hbmTy (i : Nat) : BufTy := match i / 128 with
  | 0 => hbmTy0_0 i
  | 1 => hbmTy0_1 i
  | _ => ⟨S100000x17, .f32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S2000x256, .bf16⟩
  | .local _ .vmem, ⟨3, _⟩ => ⟨S2000x256, .bf16⟩
  | .local _ .vmem, ⟨4, _⟩ => ⟨S256x256, .bf16⟩
  | .local _ .vmem, ⟨5, _⟩ => ⟨S256x256, .bf16⟩
  | .local _ .vmem, ⟨6, _⟩ => ⟨S1x256, .f32⟩
  | .local _ .vmem, ⟨7, _⟩ => ⟨S2000x256, .bf16⟩
  | .local _ .vmem, ⟨8, _⟩ => ⟨S2000x256, .bf16⟩
  | .local _ .vmem, ⟨9, _⟩ => ⟨S2000x256, .f32⟩
  | .local _ .vmem, ⟨10, _⟩ => ⟨S2000x256, .f32⟩
  | .local _ .vmem, ⟨11, _⟩ => ⟨S2000x256, .bf16⟩
  | .local _ .vmem, ⟨12, _⟩ => ⟨S2000x256, .bf16⟩
  | .local _ .vmem, ⟨13, _⟩ => ⟨S256x256, .bf16⟩
  | .local _ .vmem, ⟨14, _⟩ => ⟨S256x256, .bf16⟩
  | .local _ .vmem, ⟨15, _⟩ => ⟨S1x256, .f32⟩
  | .local _ .vmem, ⟨16, _⟩ => ⟨S2000x256, .bf16⟩
  | .local _ .vmem, ⟨17, _⟩ => ⟨S2000x256, .bf16⟩
  | .local _ .vmem, ⟨18, _⟩ => ⟨S2000x256, .f32⟩
  | .local _ .vmem, ⟨19, _⟩ => ⟨S2000x256, .f32⟩
  | .local _ .vmem, ⟨20, _⟩ => ⟨S2000x256, .bf16⟩
  | .local _ .vmem, ⟨21, _⟩ => ⟨S2000x256, .bf16⟩
  | .local _ .vmem, ⟨22, _⟩ => ⟨S256x256, .bf16⟩
  | .local _ .vmem, ⟨23, _⟩ => ⟨S256x256, .bf16⟩
  | .local _ .vmem, ⟨24, _⟩ => ⟨S1x256, .f32⟩
  | .local _ .vmem, ⟨25, _⟩ => ⟨S2000x256, .bf16⟩
  | .local _ .vmem, ⟨26, _⟩ => ⟨S2000x256, .bf16⟩
  | .local _ .vmem, ⟨27, _⟩ => ⟨S2000x256, .bf16⟩
  | .local _ .vmem, ⟨28, _⟩ => ⟨S2000x256, .bf16⟩
  | .local _ .vmem, ⟨29, _⟩ => ⟨S256x256, .bf16⟩
  | .local _ .vmem, ⟨30, _⟩ => ⟨S1x256, .f32⟩
  | .local _ .vmem, ⟨31, _⟩ => ⟨S256x1, .bf16⟩
  | .local _ .vmem, ⟨32, _⟩ => ⟨S1x1, .f32⟩
  | .local _ .vmem, ⟨33, _⟩ => ⟨S2000x1, .f32⟩
  | .local _ .vmem, ⟨34, _⟩ => ⟨S2000x1, .f32⟩
  | _, _ => ⟨S100000x17, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_v0 : Ref sig .tc := ⟨.hbm, 20, rfl⟩
abbrev main_v1 : Ref sig .tc := ⟨.hbm, 21, rfl⟩
abbrev main_c_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_c_1 : Ref sig .tc := ⟨.hbm, 28, rfl⟩
abbrev main_v7 : Ref sig .tc := ⟨.hbm, 29, rfl⟩
abbrev main_v8 : Ref sig .tc := ⟨.hbm, 30, rfl⟩
abbrev main_c_2 : Ref sig .tc := ⟨.hbm, 31, rfl⟩
abbrev main_v9 : Ref sig .tc := ⟨.hbm, 32, rfl⟩
abbrev main_v10 : Ref sig .tc := ⟨.hbm, 33, rfl⟩
abbrev main_c_3 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_c_4 : Ref sig .tc := ⟨.hbm, 48, rfl⟩
abbrev main_v24 : Ref sig .tc := ⟨.hbm, 49, rfl⟩
abbrev main_v25 : Ref sig .tc := ⟨.hbm, 50, rfl⟩
abbrev main_c_5 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst : Ref sig .tc := ⟨.hbm, 60, rfl⟩
abbrev main_v34 : Ref sig .tc := ⟨.hbm, 61, rfl⟩
abbrev main_call0_v0 : Ref sig .tc := ⟨.hbm, 62, rfl⟩
abbrev main_v35 : Ref sig .tc := ⟨.hbm, 63, rfl⟩
abbrev main_call1_v0 : Ref sig .tc := ⟨.hbm, 64, rfl⟩
abbrev main_v36 : Ref sig .tc := ⟨.hbm, 65, rfl⟩
abbrev main_call2_v0 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_6 : Ref sig .tc := ⟨.hbm, 74, rfl⟩
abbrev main_v44 : Ref sig .tc := ⟨.hbm, 75, rfl⟩
abbrev main_cst_7 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_cst_8 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_c_9 : Ref sig .tc := ⟨.hbm, 86, rfl⟩
abbrev main_v53 : Ref sig .tc := ⟨.hbm, 87, rfl⟩
abbrev main_v54 : Ref sig .tc := ⟨.hbm, 88, rfl⟩
abbrev main_c_10 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_cst_11 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_c_12 : Ref sig .tc := ⟨.hbm, 110, rfl⟩
abbrev main_v74 : Ref sig .tc := ⟨.hbm, 111, rfl⟩
abbrev main_v75 : Ref sig .tc := ⟨.hbm, 112, rfl⟩
abbrev main_c_13 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_cst_14 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_c_15 : Ref sig .tc := ⟨.hbm, 134, rfl⟩
abbrev main_v95 : Ref sig .tc := ⟨.hbm, 135, rfl⟩
abbrev main_v96 : Ref sig .tc := ⟨.hbm, 136, rfl⟩
abbrev main_c_16 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_cst_17 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg5_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem5_1 : DmaSem sig := 34

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x256 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x256 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x1 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x1 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S100000x17_S100000x1_0_0 : S100000x17.Slices ![0, 0] S100000x1
  shapeCasts_S100000x1_S100000 : S100000x1.ShapeCasts S100000
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  concatenates_S100000x128_S100000x128_S100000x256_d1 : Shape.Concatenates [S100000x128, S100000x128] S100000x256 1
  bitsLt_bf16_f32 : FTy.bits .bf16 < FTy.bits .f32
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S_S100000x256 : S_.BroadcastsInDim S100000x256 (![] : Fin 0 → Fin S100000x256.rank)
  bcast_S100000x1_S100000x256_0_1 : S100000x1.BroadcastsInDim S100000x256 (![0, 1] : Fin 2 → Fin S100000x256.rank)
  slices_S3x256_S1x256_0_0 : S3x256.Slices ![0, 0] S1x256
  shapeCasts_S1x256_S256 : S1x256.ShapeCasts S256
  shapeCasts_S256_S1x256 : S256.ShapeCasts S1x256
  slices_S3x256x256_S1x256x256_0_0_0 : S3x256x256.Slices ![0, 0, 0] S1x256x256
  shapeCasts_S1x256x256_S256x256 : S1x256x256.ShapeCasts S256x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  packedbf16_S2000x256_S2000x256_0_0 : (Rect.unit (s := S2000x256) ![0, 0] S2000x256.size inb_S2000x256_S2000x256_0_0).PackedRows (EltTy.packing .bf16)
  slices_S3x256_S1x256_1_0 : S3x256.Slices ![1, 0] S1x256
  slices_S3x256x256_S1x256x256_1_0_0 : S3x256x256.Slices ![1, 0, 0] S1x256x256
  slices_S3x256_S1x256_2_0 : S3x256.Slices ![2, 0] S1x256
  slices_S3x256x256_S1x256x256_2_0_0 : S3x256x256.Slices ![2, 0, 0] S1x256x256
  shapeCasts_S1_S1x1 : S1.ShapeCasts S1x1
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  slices_S100000x2_S100000x1_0_1 : S100000x2.Slices ![0, 1] S100000x1
  gather_S4x128_S100000x1_S100000x128_1_0_n_n_0_1_1128_wf : GatherDims.WF S4x128 S100000x1 S100000x128 [1] [0] [] [0] [] 1 ![1, 128]
  dot_S100000x17_S17x128_S100000x128_1_0_0_1_n_n_wf : DotDims.WF S100000x17 S17x128 S100000x128 [1] [0] [0] [1] [] []
  gather_S17x128_S100000x1_S100000x128_1_0_n_n_0_1_1128_wf : GatherDims.WF S17x128 S100000x1 S100000x128 [1] [0] [] [0] [] 1 ![1, 128]
  scatter_S100000_S320000x1_S320000_n_0_0_1_wf : ScatterDims.WF S100000 S320000x1 S320000 [] [0] [0] 1
  gather_S100000x256_S320000x1_S320000x256_1_0_n_n_0_1_1256_wf : GatherDims.WF S100000x256 S320000x1 S320000x256 [1] [0] [] [0] [] 1 ![1, 256]
  scatter_S100000x256_S320000x1_S320000x256_1_0_0_1_wf : ScatterDims.WF S100000x256 S320000x1 S320000x256 [1] [0] [0] 1
  dot_S2000x256_S256x256_S2000x256_1_0_0_1_n_n_wf : DotDims.WF S2000x256 S256x256 S2000x256 [1] [0] [0] [1] [] []
  dot_S2000x256_S256x1_S2000x1_1_0_0_1_n_n_wf : DotDims.WF S2000x256 S256x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S100000x256.size a
  hwx0_1 : ∀ i : grid0.Coords, EltTy.bits .bf16 = 32 ∨ (Rect.block (s := S100000x256) S2000x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S100000x256.size a
  hwx0_5 : ∀ i : grid0.Coords, EltTy.bits .bf16 = 32 ∨ (Rect.block (s := S100000x256) S2000x256.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S100000x256.size a
  hwx1_0 : ∀ i : grid1.Coords, EltTy.bits .f32 = 32 ∨ (Rect.block (s := S100000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S100000x256.size a
  hwx1_1 : ∀ i : grid1.Coords, EltTy.bits .bf16 = 32 ∨ (Rect.block (s := S100000x256) S2000x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .bf16 = 32 ∨ (Rect.block (s := S256x256) S256x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .bf16 = 32 ∨ (Rect.block (s := S256x256) S256x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S100000x256.size a
  hwx1_5 : ∀ i : grid1.Coords, EltTy.bits .bf16 = 32 ∨ (Rect.block (s := S100000x256) S2000x256.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S100000x256.size a
  hwx2_0 : ∀ i : grid2.Coords, EltTy.bits .f32 = 32 ∨ (Rect.block (s := S100000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S100000x256.size a
  hwx2_1 : ∀ i : grid2.Coords, EltTy.bits .bf16 = 32 ∨ (Rect.block (s := S100000x256) S2000x256.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .bf16 = 32 ∨ (Rect.block (s := S256x256) S256x256.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .bf16 = 32 ∨ (Rect.block (s := S256x256) S256x256.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x256.size a ≤ S100000x256.size a
  hwx2_5 : ∀ i : grid2.Coords, EltTy.bits .bf16 = 32 ∨ (Rect.block (s := S100000x256) S2000x256.size (cc2_transform_5 i) (hinb2_5 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S100000x256.size a
  hwx3_0 : ∀ i : grid3.Coords, EltTy.bits .bf16 = 32 ∨ (Rect.block (s := S100000x256) S2000x256.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .bf16 = 32 ∨ (Rect.block (s := S256x256) S256x256.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x1.size a ≤ S256x1.size a
  hwx3_3 : ∀ i : grid3.Coords, EltTy.bits .bf16 = 32 ∨ (Rect.block (s := S256x1) S256x1.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1.size a ≤ S1x1.size a
  hwx3_4 : ∀ i : grid3.Coords, EltTy.bits .f32 = 32 ∨ (Rect.block (s := S1x1) S1x1.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x1.size a ≤ S100000x1.size a
  hwx3_5 : ∀ i : grid3.Coords, EltTy.bits .f32 = 32 ∨ (Rect.block (s := S100000x1) S2000x1.size (cc3_transform_5 i) (hinb3_5 i)).WholeWords (EltTy.packing .f32)

variable [Facts₀]

def gather_S4x128_S100000x1_S100000x128_1_0_n_n_0_1_1128 : GatherDims S4x128 S100000x1 S100000x128 where
  offsetDims := [1]
  collapsedSliceDims := [0]
  operandBatchingDims := []
  startIndicesBatchingDims := []
  startIndexMap := [0]
  indexVectorDim := 1
  sliceSizes := ![1, 128]
  wf := gather_S4x128_S100000x1_S100000x128_1_0_n_n_0_1_1128_wf
def dot_S100000x17_S17x128_S100000x128_1_0_0_1_n_n : DotDims S100000x17 S17x128 S100000x128 where
  lhsContracting := [1]
  rhsContracting := [0]
  lhsNonContracting := [0]
  rhsNonContracting := [1]
  lhsBatch := []
  rhsBatch := []
  wf := dot_S100000x17_S17x128_S100000x128_1_0_0_1_n_n_wf
def gather_S17x128_S100000x1_S100000x128_1_0_n_n_0_1_1128 : GatherDims S17x128 S100000x1 S100000x128 where
  offsetDims := [1]
  collapsedSliceDims := [0]
  operandBatchingDims := []
  startIndicesBatchingDims := []
  startIndexMap := [0]
  indexVectorDim := 1
  sliceSizes := ![1, 128]
  wf := gather_S17x128_S100000x1_S100000x128_1_0_n_n_0_1_1128_wf
def scatter_S100000_S320000x1_S320000_n_0_0_1 : ScatterDims S100000 S320000x1 S320000 where
  updateWindowDims := []
  insertedWindowDims := [0]
  scatterDimsToOperandDims := [0]
  indexVectorDim := 1
  wf := scatter_S100000_S320000x1_S320000_n_0_0_1_wf
def gather_S100000x256_S320000x1_S320000x256_1_0_n_n_0_1_1256 : GatherDims S100000x256 S320000x1 S320000x256 where
  offsetDims := [1]
  collapsedSliceDims := [0]
  operandBatchingDims := []
  startIndicesBatchingDims := []
  startIndexMap := [0]
  indexVectorDim := 1
  sliceSizes := ![1, 256]
  wf := gather_S100000x256_S320000x1_S320000x256_1_0_n_n_0_1_1256_wf
def scatter_S100000x256_S320000x1_S320000x256_1_0_0_1 : ScatterDims S100000x256 S320000x1 S320000x256 where
  updateWindowDims := [1]
  insertedWindowDims := [0]
  scatterDimsToOperandDims := [0]
  indexVectorDim := 1
  wf := scatter_S100000x256_S320000x1_S320000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x1_S2000x1_1_0_0_1_n_n : DotDims S2000x256 S256x1 S2000x1 where
  lhsContracting := [1]
  rhsContracting := [0]
  lhsNonContracting := [0]
  rhsNonContracting := [1]
  lhsBatch := []
  rhsBatch := []
  wf := dot_S2000x256_S256x1_S2000x1_1_0_0_1_n_n_wf

abbrev win0_0 : Pipeline.Window sig grid0 :=
  Pipeline.Window.ofSpec (Memref.whole main_v65) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v39) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v70) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v72) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v68) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v73) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v86) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v73) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v91) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v93) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v89) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v94) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v107) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v94) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v112) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v114) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v110) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v115) S2000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v115) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v116) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v118) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v117) S256x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v119) S1x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v120) S2000x1.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x17 : Shape := ⟨2, ![100000, 17]⟩
abbrev S100000x2 : Shape := ⟨2, ![100000, 2]⟩
abbrev S4x128 : Shape := ⟨2, ![4, 128]⟩
abbrev S4x256 : Shape := ⟨2, ![4, 256]⟩
abbrev S17x128 : Shape := ⟨2, ![17, 128]⟩
abbrev S128 : Shape := ⟨1, ![128]⟩
abbrev S3x256x256 : Shape := ⟨3, ![3, 256, 256]⟩
abbrev S3x256 : Shape := ⟨2, ![3, 256]⟩
abbrev S256x256 : Shape := ⟨2, ![256, 256]⟩
abbrev S256 : Shape := ⟨1, ![256]⟩
abbrev S256x1 : Shape := ⟨2, ![256, 1]⟩
abbrev S1 : Shape := ⟨1, ![1]⟩
abbrev S100000 : Shape := ⟨1, ![100000]⟩
abbrev S320000 : Shape := ⟨1, ![320000]⟩
abbrev S2x320000 : Shape := ⟨2, ![2, 320000]⟩
abbrev S_ : Shape := ⟨0, ![]⟩
abbrev S100000x1 : Shape := ⟨2, ![100000, 1]⟩
abbrev S100000x128 : Shape := ⟨2, ![100000, 128]⟩
abbrev S320000x1 : Shape := ⟨2, ![320000, 1]⟩
abbrev S320000x256 : Shape := ⟨2, ![320000, 256]⟩
abbrev S1x128 : Shape := ⟨2, ![1, 128]⟩
abbrev S100000x256 : Shape := ⟨2, ![100000, 256]⟩
abbrev S1x320000 : Shape := ⟨2, ![1, 320000]⟩
abbrev S1x256x256 : Shape := ⟨3, ![1, 256, 256]⟩
abbrev S1x256 : Shape := ⟨2, ![1, 256]⟩
abbrev S1x1 : Shape := ⟨2, ![1, 1]⟩

abbrev nBuf : Space → Nat
  | .hbm => 196
  | .vmem => 0
  | .smem => 0
  | _ => 0

abbrev hbmTy0_0 (i : Nat) : BufTy := match i % 128 with
  | 0 => ⟨S100000x17, .f32⟩
  | 1 => ⟨S100000x2, .f32⟩
  | 2 => ⟨S4x128, .f32⟩
  | 3 => ⟨S4x256, .f32⟩
  | 4 => ⟨S17x128, .f32⟩
  | 5 => ⟨S128, .f32⟩
  | 6 => ⟨S17x128, .f32⟩
  | 7 => ⟨S128, .f32⟩
  | 8 => ⟨S17x128, .f32⟩
  | 9 => ⟨S3x256x256, .f32⟩
  | 10 => ⟨S3x256, .f32⟩
  | 11 => ⟨S3x256x256, .f32⟩
  | 12 => ⟨S256x256, .f32⟩
  | 13 => ⟨S256, .f32⟩
  | 14 => ⟨S256x1, .f32⟩
  | 15 => ⟨S1, .f32⟩
  | 16 => ⟨S100000, .i32⟩
  | 17 => ⟨S320000, .i32⟩
  | 18 => ⟨S2x320000, .i32⟩
  | 19 => ⟨S_, .i32⟩
  | 20 => ⟨S100000, .i32⟩
  | 21 => ⟨S100000, .i1⟩
  | 22 => ⟨S_, .i32⟩
  | 23 => ⟨S100000, .i32⟩
  | 24 => ⟨S100000, .i32⟩
  | 25 => ⟨S100000, .i32⟩
  | 26 => ⟨S100000x1, .i32⟩
  | 27 => ⟨S100000x128, .f32⟩
  | 28 => ⟨S_, .i32⟩
  | 29 => ⟨S320000, .i32⟩
  | 30 => ⟨S320000, .i1⟩
  | 31 => ⟨S_, .i32⟩
  | 32 => ⟨S320000, .i32⟩
  | 33 => ⟨S320000, .i32⟩
  | 34 => ⟨S320000, .i32⟩
  | 35 => ⟨S320000x1, .i32⟩
  | 36 => ⟨S320000x256, .f32⟩
  | 37 => ⟨S_, .i32⟩
  | 38 => ⟨S100000, .i32⟩
  | 39 => ⟨S100000, .i1⟩
  | 40 => ⟨S_, .i32⟩
  | 41 => ⟨S100000, .i32⟩
  | 42 => ⟨S100000, .i1⟩
  | 43 => ⟨S_, .i32⟩
  | 44 => ⟨S100000, .i32⟩
  | 45 => ⟨S100000, .i1⟩
  | 46 => ⟨S100000x128, .f32⟩
  | 47 => ⟨S1x128, .f32⟩
  | 48 => ⟨S100000x128, .f32⟩
  | 49 => ⟨S100000x128, .f32⟩
  | 50 => ⟨S100000x128, .f32⟩
  | 51 => ⟨S1x128, .f32⟩
  | 52 => ⟨S100000x128, .f32⟩
  | 53 => ⟨S100000x128, .f32⟩
  | 54 => ⟨S100000x1, .f32⟩
  | 55 => ⟨S100000, .f32⟩
  | 56 => ⟨S100000, .i32⟩
  | 57 => ⟨S_, .i32⟩
  | 58 => ⟨S100000, .i32⟩
  | 59 => ⟨S100000, .i1⟩
  | 60 => ⟨S_, .i32⟩
  | 61 => ⟨S100000, .i32⟩
  | 62 => ⟨S100000, .i32⟩
  | 63 => ⟨S100000, .i32⟩
  | 64 => ⟨S100000x1, .i32⟩
  | 65 => ⟨S100000x128, .f32⟩
  | 66 => ⟨S100000x1, .i1⟩
  | 67 => ⟨S100000x1, .i1⟩
  | 68 => ⟨S100000x1, .i1⟩
  | 69 => ⟨S_, .f32⟩
  | 70 => ⟨S100000x128, .f32⟩
  | 71 => ⟨S100000x128, .i1⟩
  | 72 => ⟨S100000x128, .f32⟩
  | 73 => ⟨S100000x128, .i1⟩
  | 74 => ⟨S100000x128, .f32⟩
  | 75 => ⟨S100000x128, .i1⟩
  | 76 => ⟨S100000x128, .f32⟩
  | 77 => ⟨S100000x256, .f32⟩
  | 78 => ⟨S1x320000, .i32⟩
  | 79 => ⟨S320000, .i32⟩
  | 80 => ⟨S1x320000, .i32⟩
  | 81 => ⟨S320000, .i32⟩
  | 82 => ⟨S_, .f32⟩
  | 83 => ⟨S320000, .f32⟩
  | 84 => ⟨S_, .f32⟩
  | 85 => ⟨S100000, .f32⟩
  | 86 => ⟨S320000x1, .i32⟩
  | 87 => ⟨S100000, .f32⟩
  | 88 => ⟨S_, .f32⟩
  | 89 => ⟨S100000, .f32⟩
  | 90 => ⟨S100000, .f32⟩
  | 91 => ⟨S100000x1, .f32⟩
  | 92 => ⟨S_, .i32⟩
  | 93 => ⟨S320000, .i32⟩
  | 94 => ⟨S320000, .i1⟩
  | 95 => ⟨S_, .i32⟩
  | 96 => ⟨S320000, .i32⟩
  | 97 => ⟨S320000, .i32⟩
  | 98 => ⟨S320000, .i32⟩
  | 99 => ⟨S320000x1, .i32⟩
  | 100 => ⟨S320000x256, .f32⟩
  | 101 => ⟨S_, .f32⟩
  | 102 => ⟨S100000x256, .f32⟩
  | 103 => ⟨S320000x1, .i32⟩
  | 104 => ⟨S100000x256, .f32⟩
  | 105 => ⟨S100000x256, .f32⟩
  | 106 => ⟨S100000x256, .f32⟩
  | 107 => ⟨S1x256x256, .f32⟩
  | 108 => ⟨S256x256, .f32⟩
  | 109 => ⟨S100000x256, .f32⟩
  | 110 => ⟨S1x256, .f32⟩
  | 111 => ⟨S256, .f32⟩
  | 112 => ⟨S1x256, .f32⟩
  | 113 => ⟨S100000x256, .f32⟩
  | 114 => ⟨S100000x256, .f32⟩
  | 115 => ⟨S1x256x256, .f32⟩
  | 116 => ⟨S256x256, .f32⟩
  | 117 => ⟨S100000x256, .f32⟩
  | 118 => ⟨S100000x256, .f32⟩
  | 119 => ⟨S_, .f32⟩
  | 120 => ⟨S100000x256, .f32⟩
  | 121 => ⟨S100000x256, .f32⟩
  | 122 => ⟨S_, .i32⟩
  | 123 => ⟨S320000, .i32⟩
  | 124 => ⟨S320000, .i1⟩
  | 125 => ⟨S_, .i32⟩
  | 126 => ⟨S320000, .i32⟩
  | 127 => ⟨S320000, .i32⟩
  | _ => ⟨S100000x17, .f32⟩

abbrev hbmTy0_1 (i : Nat) : BufTy := match i % 128 with
  | 0 => ⟨S320000, .i32⟩
  | 1 => ⟨S320000x1, .i32⟩
  | 2 => ⟨S320000x256, .f32⟩
  | 3 => ⟨S_, .f32⟩
  | 4 => ⟨S100000x256, .f32⟩
  | 5 => ⟨S320000x1, .i32⟩
  | 6 => ⟨S100000x256, .f32⟩
  | 7 => ⟨S100000x256, .f32⟩
  | 8 => ⟨S100000x256, .f32⟩
  | 9 => ⟨S1x256x256, .f32⟩
  | 10 => ⟨S256x256, .f32⟩
  | 11 => ⟨S100000x256, .f32⟩
  | 12 => ⟨S1x256, .f32⟩
  | 13 => ⟨S256, .f32⟩
  | 14 => ⟨S1x256, .f32⟩
  | 15 => ⟨S100000x256, .f32⟩
  | 16 => ⟨S100000x256, .f32⟩
  | 17 => ⟨S1x256x256, .f32⟩
  | 18 => ⟨S256x256, .f32⟩
  | 19 => ⟨S100000x256, .f32⟩
  | 20 => ⟨S100000x256, .f32⟩
  | 21 => ⟨S_, .f32⟩
  | 22 => ⟨S100000x256, .f32⟩
  | 23 => ⟨S100000x256, .f32⟩
  | 24 => ⟨S_, .i32⟩
  | 25 => ⟨S320000, .i32⟩
  | 26 => ⟨S320000, .i1⟩
  | 27 => ⟨S_, .i32⟩
  | 28 => ⟨S320000, .i32⟩
  | 29 => ⟨S320000, .i32⟩
  | 30 => ⟨S320000, .i32⟩
  | 31 => ⟨S320000x1, .i32⟩
  | 32 => ⟨S320000x256, .f32⟩
  | 33 => ⟨S_, .f32⟩
  | 34 => ⟨S100000x256, .f32⟩
  | 35 => ⟨S320000x1, .i32⟩
  | 36 => ⟨S100000x256, .f32⟩
  | 37 => ⟨S100000x256, .f32⟩
  | 38 => ⟨S100000x256, .f32⟩
  | 39 => ⟨S1x256x256, .f32⟩
  | 40 => ⟨S256x256, .f32⟩
  | 41 => ⟨S100000x256, .f32⟩
  | 42 => ⟨S1x256, .f32⟩
  | 43 => ⟨S256, .f32⟩
  | 44 => ⟨S1x256, .f32⟩
  | 45 => ⟨S100000x256, .f32⟩
  | 46 => ⟨S100000x256, .f32⟩
  | 47 => ⟨S1x256x256, .f32⟩
  | 48 => ⟨S256x256, .f32⟩
  | 49 => ⟨S100000x256, .f32⟩
  | 50 => ⟨S100000x256, .f32⟩
  | 51 => ⟨S_, .f32⟩
  | 52 => ⟨S100000x256, .f32⟩
  | 53 => ⟨S100000x256, .f32⟩
  | 54 => ⟨S100000x256, .f32⟩
  | 55 => ⟨S1x256, .f32⟩
  | 56 => ⟨S100000x256, .f32⟩
  | 57 => ⟨S100000x256, .f32⟩
  | 58 => ⟨S_, .f32⟩
  | 59 => ⟨S100000x256, .f32⟩
  | 60 => ⟨S100000x256, .f32⟩
  | 61 => ⟨S100000x1, .f32⟩
  | 62 => ⟨S1x1, .f32⟩
  | 63 => ⟨S100000x1, .f32⟩
  | 64 => ⟨S100000x1, .f32⟩
  | 65 => ⟨S100000x1, .f32⟩
  | 66 => ⟨S100000, .f32⟩
  | 67 => ⟨S100000, .i32⟩
  | _ => ⟨S100000x17, .f32⟩

abbrev hbmTy (i : Nat) : BufTy := match i / 128 with
  | 0 => hbmTy0_0 i
  | 1 => hbmTy0_1 i
  | _ => ⟨S100000x17, .f32⟩

abbrev bufTy : (tb : Table) → Fin (tcTables nBuf tb) → BufTy
  | .hbm, ⟨i, _⟩ => hbmTy i
  | _, _ => ⟨S100000x17, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_v0 : Ref sig .tc := ⟨.hbm, 20, rfl⟩
abbrev main_v1 : Ref sig .tc := ⟨.hbm, 21, rfl⟩
abbrev main_c_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_c_1 : Ref sig .tc := ⟨.hbm, 28, rfl⟩
abbrev main_v7 : Ref sig .tc := ⟨.hbm, 29, rfl⟩
abbrev main_v8 : Ref sig .tc := ⟨.hbm, 30, rfl⟩
abbrev main_c_2 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_c_3 : Ref sig .tc := ⟨.hbm, 37, rfl⟩
abbrev main_v14 : Ref sig .tc := ⟨.hbm, 38, rfl⟩
abbrev main_v15 : Ref sig .tc := ⟨.hbm, 39, rfl⟩
abbrev main_c_4 : Ref sig .tc := ⟨.hbm, 40, rfl⟩
abbrev main_v16 : Ref sig .tc := ⟨.hbm, 41, rfl⟩
abbrev main_v17 : Ref sig .tc := ⟨.hbm, 42, rfl⟩
abbrev main_c_5 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_c_6 : Ref sig .tc := ⟨.hbm, 57, rfl⟩
abbrev main_v31 : Ref sig .tc := ⟨.hbm, 58, rfl⟩
abbrev main_v32 : Ref sig .tc := ⟨.hbm, 59, rfl⟩
abbrev main_c_7 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst : Ref sig .tc := ⟨.hbm, 69, rfl⟩
abbrev main_v41 : Ref sig .tc := ⟨.hbm, 70, rfl⟩
abbrev main_call0_v0 : Ref sig .tc := ⟨.hbm, 71, rfl⟩
abbrev main_v42 : Ref sig .tc := ⟨.hbm, 72, rfl⟩
abbrev main_call1_v0 : Ref sig .tc := ⟨.hbm, 73, rfl⟩
abbrev main_v43 : Ref sig .tc := ⟨.hbm, 74, rfl⟩
abbrev main_call2_v0 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_cst_8 : Ref sig .tc := ⟨.hbm, 82, rfl⟩
abbrev main_v50 : Ref sig .tc := ⟨.hbm, 83, rfl⟩
abbrev main_cst_9 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_cst_10 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_c_11 : Ref sig .tc := ⟨.hbm, 92, rfl⟩
abbrev main_v57 : Ref sig .tc := ⟨.hbm, 93, rfl⟩
abbrev main_v58 : Ref sig .tc := ⟨.hbm, 94, rfl⟩
abbrev main_c_12 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_cst_13 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_call3_cst : Ref sig .tc := ⟨.hbm, 119, rfl⟩
abbrev main_call3_v0 : Ref sig .tc := ⟨.hbm, 120, rfl⟩
abbrev main_v81 : Ref sig .tc := ⟨.hbm, 121, rfl⟩
abbrev main_c_14 : Ref sig .tc := ⟨.hbm, 122, rfl⟩
abbrev main_v82 : Ref sig .tc := ⟨.hbm, 123, rfl⟩
abbrev main_v83 : Ref sig .tc := ⟨.hbm, 124, rfl⟩
abbrev main_c_15 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_cst_16 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_call4_cst : Ref sig .tc := ⟨.hbm, 149, rfl⟩
abbrev main_call4_v0 : Ref sig .tc := ⟨.hbm, 150, rfl⟩
abbrev main_v106 : Ref sig .tc := ⟨.hbm, 151, rfl⟩
abbrev main_c_17 : Ref sig .tc := ⟨.hbm, 152, rfl⟩
abbrev main_v107 : Ref sig .tc := ⟨.hbm, 153, rfl⟩
abbrev main_v108 : Ref sig .tc := ⟨.hbm, 154, rfl⟩
abbrev main_c_18 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_cst_19 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_call5_cst : Ref sig .tc := ⟨.hbm, 179, rfl⟩
abbrev main_call5_v0 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_call6_cst : Ref sig .tc := ⟨.hbm, 186, rfl⟩
abbrev main_call6_v0 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S_S320000 : S_.BroadcastsInDim S320000 (![] : Fin 0 → Fin S320000.rank)
  bcast_S320000_S320000x1_0 : S320000.BroadcastsInDim S320000x1 (![0] : Fin 1 → Fin S320000x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S100000x17_S100000x1_0_0 : S100000x17.Slices ![0, 0] S100000x1
  shapeCasts_S100000x1_S100000 : S100000x1.ShapeCasts S100000
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  concatenates_S100000x128_S100000x128_S100000x256_d1 : Shape.Concatenates [S100000x128, S100000x128] S100000x256 1
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S100000x256 : S_.BroadcastsInDim S100000x256 (![] : Fin 0 → Fin S100000x256.rank)
  bcast_S100000x1_S100000x256_0_1 : S100000x1.BroadcastsInDim S100000x256 (![0, 1] : Fin 2 → Fin S100000x256.rank)
  slices_S3x256x256_S1x256x256_0_0_0 : S3x256x256.Slices ![0, 0, 0] S1x256x256
  shapeCasts_S1x256x256_S256x256 : S1x256x256.ShapeCasts S256x256
  slices_S3x256_S1x256_0_0 : S3x256.Slices ![0, 0] S1x256
  shapeCasts_S1x256_S256 : S1x256.ShapeCasts S256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  slices_S3x256x256_S1x256x256_1_0_0 : S3x256x256.Slices ![1, 0, 0] S1x256x256
  slices_S3x256_S1x256_1_0 : S3x256.Slices ![1, 0] S1x256
  slices_S3x256x256_S1x256x256_2_0_0 : S3x256x256.Slices ![2, 0, 0] S1x256x256
  slices_S3x256_S1x256_2_0 : S3x256.Slices ![2, 0] S1x256
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  slices_S100000x2_S100000x1_0_1 : S100000x2.Slices ![0, 1] S100000x1
  gather_S4x128_S100000x1_S100000x128_1_0_n_n_0_1_1128_wf : GatherDims.WF S4x128 S100000x1 S100000x128 [1] [0] [] [0] [] 1 ![1, 128]
  gather_S4x256_S320000x1_S320000x256_1_0_n_n_0_1_1256_wf : GatherDims.WF S4x256 S320000x1 S320000x256 [1] [0] [] [0] [] 1 ![1, 256]
  dot_S100000x17_S17x128_S100000x128_1_0_0_1_n_n_wf : DotDims.WF S100000x17 S17x128 S100000x128 [1] [0] [0] [1] [] []
  gather_S17x128_S100000x1_S100000x128_1_0_n_n_0_1_1128_wf : GatherDims.WF S17x128 S100000x1 S100000x128 [1] [0] [] [0] [] 1 ![1, 128]
  scatter_S100000_S320000x1_S320000_n_0_0_1_wf : ScatterDims.WF S100000 S320000x1 S320000 [] [0] [0] 1
  gather_S100000x256_S320000x1_S320000x256_1_0_n_n_0_1_1256_wf : GatherDims.WF S100000x256 S320000x1 S320000x256 [1] [0] [] [0] [] 1 ![1, 256]
  scatter_S100000x256_S320000x1_S320000x256_1_0_0_1_wf : ScatterDims.WF S100000x256 S320000x1 S320000x256 [1] [0] [0] 1
  dot_S100000x256_S256x256_S100000x256_1_0_0_1_n_n_wf : DotDims.WF S100000x256 S256x256 S100000x256 [1] [0] [0] [1] [] []
  dot_S100000x256_S256x1_S100000x1_1_0_0_1_n_n_wf : DotDims.WF S100000x256 S256x1 S100000x1 [1] [0] [0] [1] [] []

variable [Facts₀]

def gather_S4x128_S100000x1_S100000x128_1_0_n_n_0_1_1128 : GatherDims S4x128 S100000x1 S100000x128 where
  offsetDims := [1]
  collapsedSliceDims := [0]
  operandBatchingDims := []
  startIndicesBatchingDims := []
  startIndexMap := [0]
  indexVectorDim := 1
  sliceSizes := ![1, 128]
  wf := gather_S4x128_S100000x1_S100000x128_1_0_n_n_0_1_1128_wf
def gather_S4x256_S320000x1_S320000x256_1_0_n_n_0_1_1256 : GatherDims S4x256 S320000x1 S320000x256 where
  offsetDims := [1]
  collapsedSliceDims := [0]
  operandBatchingDims := []
  startIndicesBatchingDims := []
  startIndexMap := [0]
  indexVectorDim := 1
  sliceSizes := ![1, 256]
  wf := gather_S4x256_S320000x1_S320000x256_1_0_n_n_0_1_1256_wf
def dot_S100000x17_S17x128_S100000x128_1_0_0_1_n_n : DotDims S100000x17 S17x128 S100000x128 where
  lhsContracting := [1]
  rhsContracting := [0]
  lhsNonContracting := [0]
  rhsNonContracting := [1]
  lhsBatch := []
  rhsBatch := []
  wf := dot_S100000x17_S17x128_S100000x128_1_0_0_1_n_n_wf
def gather_S17x128_S100000x1_S100000x128_1_0_n_n_0_1_1128 : GatherDims S17x128 S100000x1 S100000x128 where
  offsetDims := [1]
  collapsedSliceDims := [0]
  operandBatchingDims := []
  startIndicesBatchingDims := []
  startIndexMap := [0]
  indexVectorDim := 1
  sliceSizes := ![1, 128]
  wf := gather_S17x128_S100000x1_S100000x128_1_0_n_n_0_1_1128_wf
def scatter_S100000_S320000x1_S320000_n_0_0_1 : ScatterDims S100000 S320000x1 S320000 where
  updateWindowDims := []
  insertedWindowDims := [0]
  scatterDimsToOperandDims := [0]
  indexVectorDim := 1
  wf := scatter_S100000_S320000x1_S320000_n_0_0_1_wf
def gather_S100000x256_S320000x1_S320000x256_1_0_n_n_0_1_1256 : GatherDims S100000x256 S320000x1 S320000x256 where
  offsetDims := [1]
  collapsedSliceDims := [0]
  operandBatchingDims := []
  startIndicesBatchingDims := []
  startIndexMap := [0]
  indexVectorDim := 1
  sliceSizes := ![1, 256]
  wf := gather_S100000x256_S320000x1_S320000x256_1_0_n_n_0_1_1256_wf
def scatter_S100000x256_S320000x1_S320000x256_1_0_0_1 : ScatterDims S100000x256 S320000x1 S320000x256 where
  updateWindowDims := [1]
  insertedWindowDims := [0]
  scatterDimsToOperandDims := [0]
  indexVectorDim := 1
  wf := scatter_S100000x256_S320000x1_S320000x256_1_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def dot_S100000x256_S256x1_S100000x1_1_0_0_1_n_n : DotDims S100000x256 S256x1 S100000x1 where
  lhsContracting := [1]
  rhsContracting := [0]
  lhsNonContracting := [0]
  rhsNonContracting := [1]
  lhsBatch := []
  rhsBatch := []
  wf := dot_S100000x256_S256x1_S100000x1_1_0_0_1_n_n_wf

class Facts : Prop extends Facts₀ where

variable [Facts]
-- ==== Proof.BridgeDefs.lean ====
/- The vocabulary of the bridge. Both programs run the same host computation around the layers, so every array the
   kernel's program holds at a boundary of @main is one of the reference's intermediate arrays, as a function of the
   launch arrays. This module names the launch arrays of a memory at their literal types and, over them, the
   reference's intermediates the bridge speaks of: the two embeddings and the node features built from them, the
   edges' endpoints and the in-degree column, and per layer the neighbour mean, the two weight matrices and the
   layer's output; last the prediction and the class column. At the ideal values an array of bf16 entries and one of
   f32 entries over the same index set are the same kind of function, so the kernel's bf16 arrays are compared with
   the reference's f32 arrays directly. -/
import proofs.«415851_j69784628626298_1_alg».proof.Proof.Gen.KernelIdeal
import proofs.«415851_j69784628626298_1_alg».proof.Proof.Gen.ReferenceIdeal.Read

noncomputable section

namespace Cert.Bridge

open Idealize.ShloMosaic Idealize.ShloMosaic.TcCoe Idealize.SL.Sem Cert.KernelIdeal

variable (m : (ℓ : Loc nD τ sig) → Buf (Elt Ideal) ℓ) (c : Dev nD)

/-! ## The launch arrays -/

/-- launch array 0 of @main, at its literal type -/
abbrev a0 : (⟨S100000x17, .f32⟩ : BufTy).Contents (Elt Ideal) := m ((c.tc : Thread nD τ).loc main_arg0)
/-- launch array 1 of @main, at its literal type -/
abbrev a1 : (⟨S100000x2, .f32⟩ : BufTy).Contents (Elt Ideal) := m ((c.tc : Thread nD τ).loc main_arg1)
/-- launch array 2 of @main, at its literal type -/
abbrev a2 : (⟨S4x128, .f32⟩ : BufTy).Contents (Elt Ideal) := m ((c.tc : Thread nD τ).loc main_arg2)
/-- launch array 4 of @main, at its literal type -/
abbrev a4 : (⟨S17x128, .f32⟩ : BufTy).Contents (Elt Ideal) := m ((c.tc : Thread nD τ).loc main_arg4)
/-- launch array 5 of @main, at its literal type -/
abbrev a5 : (⟨S128, .f32⟩ : BufTy).Contents (Elt Ideal) := m ((c.tc : Thread nD τ).loc main_arg5)
/-- launch array 6 of @main, at its literal type -/
abbrev a6 : (⟨S17x128, .f32⟩ : BufTy).Contents (Elt Ideal) := m ((c.tc : Thread nD τ).loc main_arg6)
/-- launch array 7 of @main, at its literal type -/
abbrev a7 : (⟨S128, .f32⟩ : BufTy).Contents (Elt Ideal) := m ((c.tc : Thread nD τ).loc main_arg7)
/-- launch array 8 of @main, at its literal type -/
abbrev a8 : (⟨S17x128, .f32⟩ : BufTy).Contents (Elt Ideal) := m ((c.tc : Thread nD τ).loc main_arg8)
/-- launch array 9 of @main, at its literal type -/
abbrev a9 : (⟨S3x256x256, .f32⟩ : BufTy).Contents (Elt Ideal) := m ((c.tc : Thread nD τ).loc main_arg9)
/-- launch array 10 of @main, at its literal type -/
abbrev a10 : (⟨S3x256, .f32⟩ : BufTy).Contents (Elt Ideal) := m ((c.tc : Thread nD τ).loc main_arg10)
/-- launch array 11 of @main, at its literal type -/
abbrev a11 : (⟨S3x256x256, .f32⟩ : BufTy).Contents (Elt Ideal) := m ((c.tc : Thread nD τ).loc main_arg11)
/-- launch array 12 of @main, at its literal type -/
abbrev a12 : (⟨S256x256, .f32⟩ : BufTy).Contents (Elt Ideal) := m ((c.tc : Thread nD τ).loc main_arg12)
/-- launch array 13 of @main, at its literal type -/
abbrev a13 : (⟨S256, .f32⟩ : BufTy).Contents (Elt Ideal) := m ((c.tc : Thread nD τ).loc main_arg13)
/-- launch array 14 of @main, at its literal type -/
abbrev a14 : (⟨S256x1, .f32⟩ : BufTy).Contents (Elt Ideal) := m ((c.tc : Thread nD τ).loc main_arg14)
/-- launch array 15 of @main, at its literal type -/
abbrev a15 : (⟨S1, .f32⟩ : BufTy).Contents (Elt Ideal) := m ((c.tc : Thread nD τ).loc main_arg15)
/-- launch array 16 of @main, at its literal type -/
abbrev a16 : (⟨S100000, .i32⟩ : BufTy).Contents (Elt Ideal) := m ((c.tc : Thread nD τ).loc main_arg16)
/-- launch array 18 of @main, at its literal type -/
abbrev a18 : (⟨S2x320000, .i32⟩ : BufTy).Contents (Elt Ideal) := m ((c.tc : Thread nD τ).loc main_arg18)

/-! ## The reference's intermediates, of these launch arrays -/

/-- each node's type embedding: row node_type[r] of the type table (the reference's stage, of this memory's launch arrays) -/
abbrev RtypeEmb : (⟨S100000x128, .f32⟩ : BufTy).Contents (Elt Ideal) :=
  Cert.ReferenceIdeal.Read.val_main_v6 (F := Ideal) (a2 m c) (a16 m c)
/-- each node's attribute embedding, chosen by its type among the net, device and pin encodings (the reference's stage, of this memory's launch arrays) -/
abbrev RattrEmb : (⟨S100000x128, .f32⟩ : BufTy).Contents (Elt Ideal) :=
  Cert.ReferenceIdeal.Read.val_main_v44 (F := Ideal) (a0 m c) (a4 m c) (a5 m c) (a6 m c) (a7 m c) (a8 m c) (a16 m c)
/-- the node features entering the first layer: the type embedding beside the attribute embedding (the reference's stage, of this memory's launch arrays) -/
abbrev Rx0 : (⟨S100000x256, .f32⟩ : BufTy).Contents (Elt Ideal) :=
  Cert.ReferenceIdeal.Read.val_main_v45 (F := Ideal) (a0 m c) (a2 m c) (a4 m c) (a5 m c) (a6 m c) (a7 m c) (a8 m c) (a16 m c)
/-- the edges' source nodes (the reference's stage, of this memory's launch arrays) -/
abbrev Rsrc : (⟨S320000, .i32⟩ : BufTy).Contents (Elt Ideal) :=
  Cert.ReferenceIdeal.Read.val_main_v47 (F := Ideal) (a18 m c)
/-- the edges' destination nodes (the reference's stage, of this memory's launch arrays) -/
abbrev Rdst : (⟨S320000, .i32⟩ : BufTy).Contents (Elt Ideal) :=
  Cert.ReferenceIdeal.Read.val_main_v49 (F := Ideal) (a18 m c)
/-- each node's in-degree, at least one, as a column (the reference's stage, of this memory's launch arrays) -/
abbrev Rden : (⟨S100000x1, .f32⟩ : BufTy).Contents (Elt Ideal) :=
  Cert.ReferenceIdeal.Read.val_main_v56 (F := Ideal) (a18 m c)
/-- the first layer's mean of the in-neighbours' features (the reference's stage, of this memory's launch arrays) -/
abbrev Ragg0 : (⟨S100000x256, .f32⟩ : BufTy).Contents (Elt Ideal) :=
  Cert.ReferenceIdeal.Read.val_main_v68 (F := Ideal) (a0 m c) (a2 m c) (a4 m c) (a5 m c) (a6 m c) (a7 m c) (a8 m c) (a16 m c) (a18 m c)
/-- the first layer's left weights (the reference's stage, of this memory's launch arrays) -/
abbrev Rwl0 : (⟨S256x256, .f32⟩ : BufTy).Contents (Elt Ideal) :=
  Cert.ReferenceIdeal.Read.val_main_v70 (F := Ideal) (a9 m c)
/-- the first layer's right weights (the reference's stage, of this memory's launch arrays) -/
abbrev Rwr0 : (⟨S256x256, .f32⟩ : BufTy).Contents (Elt Ideal) :=
  Cert.ReferenceIdeal.Read.val_main_v78 (F := Ideal) (a11 m c)
/-- the first layer's output (the reference's stage, of this memory's launch arrays) -/
abbrev Rx1 : (⟨S100000x256, .f32⟩ : BufTy).Contents (Elt Ideal) :=
  Cert.ReferenceIdeal.Read.val_main_v81 (F := Ideal) (a0 m c) (a2 m c) (a4 m c) (a5 m c) (a6 m c) (a7 m c) (a8 m c) (a9 m c) (a10 m c) (a11 m c) (a16 m c) (a18 m c)
/-- the second layer's mean of the in-neighbours' features (the reference's stage, of this memory's launch arrays) -/
abbrev Ragg1 : (⟨S100000x256, .f32⟩ : BufTy).Contents (Elt Ideal) :=
  Cert.ReferenceIdeal.Read.val_main_v93 (F := Ideal) (a0 m c) (a2 m c) (a4 m c) (a5 m c) (a6 m c) (a7 m c) (a8 m c) (a9 m c) (a10 m c) (a11 m c) (a16 m c) (a18 m c)
/-- the second layer's left weights (the reference's stage, of this memory's launch arrays) -/
abbrev Rwl1 : (⟨S256x256, .f32⟩ : BufTy).Contents (Elt Ideal) :=
  Cert.ReferenceIdeal.Read.val_main_v95 (F := Ideal) (a9 m c)
/-- the second layer's right weights (the reference's stage, of this memory's launch arrays) -/
abbrev Rwr1 : (⟨S256x256, .f32⟩ : BufTy).Contents (Elt Ideal) :=
  Cert.ReferenceIdeal.Read.val_main_v103 (F := Ideal) (a11 m c)
/-- the second layer's output (the reference's stage, of this memory's launch arrays) -/
abbrev Rx2 : (⟨S100000x256, .f32⟩ : BufTy).Contents (Elt Ideal) :=
  Cert.ReferenceIdeal.Read.val_main_v106 (F := Ideal) (a0 m c) (a2 m c) (a4 m c) (a5 m c) (a6 m c) (a7 m c) (a8 m c) (a9 m c) (a10 m c) (a11 m c) (a16 m c) (a18 m c)
/-- the third layer's mean of the in-neighbours' features (the reference's stage, of this memory's launch arrays) -/
abbrev Ragg2 : (⟨S100000x256, .f32⟩ : BufTy).Contents (Elt Ideal) :=
  Cert.ReferenceIdeal.Read.val_main_v118 (F := Ideal) (a0 m c) (a2 m c) (a4 m c) (a5 m c) (a6 m c) (a7 m c) (a8 m c) (a9 m c) (a10 m c) (a11 m c) (a16 m c) (a18 m c)
/-- the third layer's left weights (the reference's stage, of this memory's launch arrays) -/
abbrev Rwl2 : (⟨S256x256, .f32⟩ : BufTy).Contents (Elt Ideal) :=
  Cert.ReferenceIdeal.Read.val_main_v120 (F := Ideal) (a9 m c)
/-- the third layer's right weights (the reference's stage, of this memory's launch arrays) -/
abbrev Rwr2 : (⟨S256x256, .f32⟩ : BufTy).Contents (Elt Ideal) :=
  Cert.ReferenceIdeal.Read.val_main_v128 (F := Ideal) (a11 m c)
/-- the third layer's output (the reference's stage, of this memory's launch arrays) -/
abbrev Rx3 : (⟨S100000x256, .f32⟩ : BufTy).Contents (Elt Ideal) :=
  Cert.ReferenceIdeal.Read.val_main_v131 (F := Ideal) (a0 m c) (a2 m c) (a4 m c) (a5 m c) (a6 m c) (a7 m c) (a8 m c) (a9 m c) (a10 m c) (a11 m c) (a16 m c) (a18 m c)
/-- the prediction (the reference's stage, of this memory's launch arrays) -/
abbrev Rpred : (⟨S100000x1, .f32⟩ : BufTy).Contents (Elt Ideal) :=
  Cert.ReferenceIdeal.Read.val_main_v140 (F := Ideal) (a0 m c) (a2 m c) (a4 m c) (a5 m c) (a6 m c) (a7 m c) (a8 m c) (a9 m c) (a10 m c) (a11 m c) (a12 m c) (a13 m c) (a14 m c) (a15 m c) (a16 m c) (a18 m c)
/-- the class column of the labels, as integers (the reference's stage, of this memory's launch arrays) -/
abbrev Rcls : (⟨S100000, .i32⟩ : BufTy).Contents (Elt Ideal) :=
  Cert.ReferenceIdeal.Read.val_main_v143 (F := Ideal) (a1 m c)

end Cert.Bridge

end
-- ==== Proof.Invariants.lean ====
/-
  The bridge's invariants, as statements. @main of the kernel's program is thirteen segments: five stretches of host
  operations, then four regions with a stretch after each. At each region's entry the arrays the region reads are the
  reference's intermediates (`Entry`); at its exit the region's output is the reference's next intermediate
  (`Exit`); and all along, the arrays that later stretches still read are carried unchanged (`Carried`): the
  edges' endpoints, the in-degree column, the two weight stacks, the bias matrix, the head's parameters and the labels.
  The bias row a region reads is built by the kernel's program with two reshapes of a slice where the reference
  broadcasts the same slice, so it is named here as the kernel builds it; what it holds at a column is compared with
  the reference's broadcast where the layer is read.
-/
import proofs.«415851_j69784628626298_1_alg».proof.Proof.Gen.KernelIdeal.Frame
import proofs.«415851_j69784628626298_1_alg».proof.Proof.BridgeDefs

noncomputable section

namespace Cert.Bridge

open Idealize.ShloMosaic Idealize.ShloMosaic.TcCoe Idealize.SL.Sem Cert.KernelIdeal Cert.KernelIdeal.Gen

/-! ## The rows and matrices the kernel's program cuts out of the parameter arrays -/

/-- Row `l` of the bias matrix as a 1 x 256 array, as the kernel's program builds it: a slice, flattened, and laid out
    as a row again. -/
def biasRow0 (x10 : (⟨S3x256, .f32⟩ : BufTy).Contents (Elt Ideal)) : (⟨S1x256, .f32⟩ : BufTy).Contents (Elt Ideal) :=
  shapeCast _ (shapeCast _ (extractStridedSlice S1x256 ![0, 0] x10 slices_S3x256_S1x256_0_0) shapeCasts_S1x256_S256) shapeCasts_S256_S1x256
def biasRow1 (x10 : (⟨S3x256, .f32⟩ : BufTy).Contents (Elt Ideal)) : (⟨S1x256, .f32⟩ : BufTy).Contents (Elt Ideal) :=
  shapeCast _ (shapeCast _ (extractStridedSlice S1x256 ![1, 0] x10 slices_S3x256_S1x256_1_0) shapeCasts_S1x256_S256) shapeCasts_S256_S1x256
def biasRow2 (x10 : (⟨S3x256, .f32⟩ : BufTy).Contents (Elt Ideal)) : (⟨S1x256, .f32⟩ : BufTy).Contents (Elt Ideal) :=
  shapeCast _ (shapeCast _ (extractStridedSlice S1x256 ![2, 0] x10 slices_S3x256_S1x256_2_0) shapeCasts_S1x256_S256) shapeCasts_S256_S1x256
/-- The head's hidden bias as a 1 x 256 row and its output bias as a 1 x 1 array: the vectors reshaped. -/
def headBias0 (x13 : (⟨S256, .f32⟩ : BufTy).Contents (Elt Ideal)) : (⟨S1x256, .f32⟩ : BufTy).Contents (Elt Ideal) :=
  shapeCast _ x13 shapeCasts_S256_S1x256
def headBias1 (x15 : (⟨S1, .f32⟩ : BufTy).Contents (Elt Ideal)) : (⟨S1x1, .f32⟩ : BufTy).Contents (Elt Ideal) :=
  shapeCast _ x15 shapeCasts_S1_S1x1

variable (m : (ℓ : Loc nD τ sig) → Buf (Elt Ideal) ℓ) (c : Dev nD)

/-! ## What is carried from boundary to boundary -/

/-- The arrays later stretches still read, at a boundary's contents `W`: as the prelude left them. -/
structure Carried (W : Valuation τ sig (Elt Ideal)) : Prop where
  src : W (Proc.devRef .tc main_v41) = Rsrc m c
  dst : W (Proc.devRef .tc main_v43) = Rdst m c
  den : W (Proc.devRef .tc main_v50) = Rden m c
  wlAll : W (Proc.devRef .tc main_v51) = a9 m c
  wrAll : W (Proc.devRef .tc main_v52) = a11 m c
  bias : W (Proc.devRef .tc main_arg10) = a10 m c
  w0 : W (Proc.devRef .tc main_arg12) = a12 m c
  b0 : W (Proc.devRef .tc main_arg13) = a13 m c
  w1 : W (Proc.devRef .tc main_arg14) = a14 m c
  b1 : W (Proc.devRef .tc main_arg15) = a15 m c
  y : W (Proc.devRef .tc main_arg1) = a1 m c

/-! ## Inside the prelude -/

/-- After the two embeddings are built and before the last prelude stretch joins them: the embeddings are the
    reference's, and the launch arrays that stretch still reads are as launched. -/
structure Pre4 (W : Valuation τ sig (Elt Ideal)) : Prop where
  typeEmb : W (Proc.devRef .tc main_v6) = RtypeEmb m c
  attrEmb : W (Proc.devRef .tc main_v37) = RattrEmb m c
  edges : W (Proc.devRef .tc main_arg18) = a18 m c
  wlAll : W (Proc.devRef .tc main_arg9) = a9 m c
  wrAll : W (Proc.devRef .tc main_arg11) = a11 m c
  bias : W (Proc.devRef .tc main_arg10) = a10 m c
  w0 : W (Proc.devRef .tc main_arg12) = a12 m c
  b0 : W (Proc.devRef .tc main_arg13) = a13 m c
  w1 : W (Proc.devRef .tc main_arg14) = a14 m c
  b1 : W (Proc.devRef .tc main_arg15) = a15 m c
  y : W (Proc.devRef .tc main_arg1) = a1 m c

/-! ## The layers' regions -/

/-- What the first layer's region finds. -/
structure Entry0 (W : Valuation τ sig (Elt Ideal)) : Prop where
  agg : W (Proc.devRef .tc main_v65) = Ragg0 m c
  x : W (Proc.devRef .tc main_v39) = Rx0 m c
  wl : W (Proc.devRef .tc main_v70) = Rwl0 m c
  wr : W (Proc.devRef .tc main_v72) = Rwr0 m c
  bl : W (Proc.devRef .tc main_v68) = biasRow0 (a10 m c)
  carried : Carried m c W
/-- What it leaves. -/
structure Exit0 (W : Valuation τ sig (Elt Ideal)) : Prop where
  x : W (Proc.devRef .tc main_v73) = Rx1 m c
  carried : Carried m c W

/-- What the second layer's region finds. -/
structure Entry1 (W : Valuation τ sig (Elt Ideal)) : Prop where
  agg : W (Proc.devRef .tc main_v86) = Ragg1 m c
  x : W (Proc.devRef .tc main_v73) = Rx1 m c
  wl : W (Proc.devRef .tc main_v91) = Rwl1 m c
  wr : W (Proc.devRef .tc main_v93) = Rwr1 m c
  bl : W (Proc.devRef .tc main_v89) = biasRow1 (a10 m c)
  carried : Carried m c W
structure Exit1 (W : Valuation τ sig (Elt Ideal)) : Prop where
  x : W (Proc.devRef .tc main_v94) = Rx2 m c
  carried : Carried m c W

/-- What the third layer's region finds. -/
structure Entry2 (W : Valuation τ sig (Elt Ideal)) : Prop where
  agg : W (Proc.devRef .tc main_v107) = Ragg2 m c
  x : W (Proc.devRef .tc main_v94) = Rx2 m c
  wl : W (Proc.devRef .tc main_v112) = Rwl2 m c
  wr : W (Proc.devRef .tc main_v114) = Rwr2 m c
  bl : W (Proc.devRef .tc main_v110) = biasRow2 (a10 m c)
  carried : Carried m c W
structure Exit2 (W : Valuation τ sig (Elt Ideal)) : Prop where
  x : W (Proc.devRef .tc main_v115) = Rx3 m c
  carried : Carried m c W

/-! ## The head's region -/

/-- What the head's region finds: the last layer's output and the head's parameters, the matrices in the format the
    region reads them in, the biases as a row and as a 1 x 1 array. -/
structure Entry3 (W : Valuation τ sig (Elt Ideal)) : Prop where
  x : W (Proc.devRef .tc main_v115) = Rx3 m c
  w0 : W (Proc.devRef .tc main_v116) = a12 m c
  b0 : W (Proc.devRef .tc main_v118) = headBias0 (a13 m c)
  w1 : W (Proc.devRef .tc main_v117) = a14 m c
  b1 : W (Proc.devRef .tc main_v119) = headBias1 (a15 m c)
  y : W (Proc.devRef .tc main_arg1) = a1 m c
/-- What it leaves: the prediction, and the labels still as launched. -/
structure Exit3 (W : Valuation τ sig (Elt Ideal)) : Prop where
  pred : W (Proc.devRef .tc main_v120) = Rpred m c
  y : W (Proc.devRef .tc main_arg1) = a1 m c

/-- The three results at the end of @main. -/
structure Final (W : Valuation τ sig (Elt Ideal)) : Prop where
  pred : W (Proc.devRef .tc main_v120) = Rpred m c
  cls : W (Proc.devRef .tc main_v123) = Rcls m c
  y : W (Proc.devRef .tc main_arg1) = a1 m c

end Cert.Bridge

end
-- ==== Proof.Assemble.lean ====
/-
  The five claims. The two kernel frames are the generated frame certificates; the reference's frame is its generated
  run with the results dropped; the idealization rewrote nothing, so there is nothing to preserve. For the equivalence
  over the reals: the kernel's program ends with its three results at the last boundary's contents, which the chain
  of invariants identifies with the reference's prediction and class column of the kernel's own launch arrays and with
  the labels as launched; the reference ends with the same functions of ITS launch arrays, which agree with the
  kernel's. Both runs therefore end at the same three arrays. No finiteness of any input is used.
-/
import proofs.«415851_j69784628626298_1_alg».proof.Defs
import proofs.«415851_j69784628626298_1_alg».proof.Proof.Gen.Kernel.Frame
import proofs.«415851_j69784628626298_1_alg».proof.Proof.Gen.KernelIdeal.Frame
import proofs.«415851_j69784628626298_1_alg».proof.Proof.Gen.ReferenceIdeal.Run
import proofs.«415851_j69784628626298_1_alg».proof.Proof.Gen.ReferenceIdeal.Read
import proofs.«415851_j69784628626298_1_alg».proof.Proof.Gen.Pre_finite_inputs
import proofs.«415851_j69784628626298_1_alg».proof.Proof.KernelIdealRun
import proofs.«415851_j69784628626298_1_alg».proof.Proof.Invariants

noncomputable section

namespace Cert.Proof.Claims

open Idealize.ShloMosaic Idealize.ShloMosaic.TcCoe Idealize.SL.Sem Cert.Bridge

theorem frame_k : Cert.frame_Kernel := fun m ρ _ => Cert.Kernel.Gen.frame m ρ
theorem frame_ki : Cert.frame_KernelIdeal := fun m ρ _ => Cert.KernelIdeal.Gen.frame m ρ
/-- The reference has no kernel: its frame is its run, the three results dropped. -/
theorem frame_ri : Cert.frame_ReferenceIdeal := fun m ρ _ =>
  (θ_run Cert.ReferenceIdeal.defs _ _).mono (fun _ h c => (h c).2.2.2) (Cert.ReferenceIdeal.Value.run (F := Ideal) m ρ)
/-- The idealization rewrote no operation. -/
theorem preserves : Cert.preserves_Kernel_KernelIdeal := trivial

/-- The equivalence over the reals, from the chain's conclusion: at the end of @main the kernel's three results are
    the reference's prediction and class column of the kernel's launch arrays, and the labels as launched. -/
theorem algebraic_of_results
    (hres : ∀ (m : (ℓ : Loc Cert.KernelIdeal.nD Cert.KernelIdeal.τ Cert.KernelIdeal.sig) → Buf (Elt Ideal) ℓ)
      (ρ : Dev Cert.KernelIdeal.nD → PrngReg) (c : Dev Cert.KernelIdeal.nD),
      Final m c (Cert.KernelIdeal.Gen.W13 (F := Ideal) m ρ c)) :
    Cert.algebraic_KernelIdeal_ReferenceIdeal := by
  intro m ρ m' ρ' _ hagree
  refine ⟨fun c => Rpred m c, fun c => Rcls m c, fun c => a1 m c, ?_, ?_⟩
  · -- the kernel's program: its run ends at the last boundary's contents, which are the reference's functions
    refine (θ_run Cert.KernelIdeal.defs _ _).mono (fun r h c => ?_) (Cert.KernelIdeal.Run.run_results (F := Ideal) m ρ)
    exact ⟨(h c).1.trans (hres m ρ c).pred, (h c).2.1.trans (hres m ρ c).cls, (h c).2.2.1.trans (hres m ρ c).y, (h c).2.2.2⟩
  · -- the reference: the same functions of its own launch arrays, which agree with the kernel's
    refine (θ_run Cert.ReferenceIdeal.defs _ _).mono (fun r h c => ?_) (Cert.ReferenceIdeal.Value.run (F := Ideal) m' ρ')
    obtain ⟨g0, g1, g2, g3, g4, g5, g6, g7, g8, g9, g10, g11, g12, g13, g14, g15, g16, g17, g18⟩ := hagree c
    refine ⟨(h c).1.trans ?_, (h c).2.1.trans ?_, (h c).2.2.1.trans g1, (h c).2.2.2⟩
    · rw [Cert.ReferenceIdeal.Read.val_main_v140_eq, g0, g2, g4, g5, g6, g7, g8, g9, g10, g11, g12, g13, g14, g15, g16, g18]
    · rw [g1]
      exact Cert.ReferenceIdeal.Read.val_main_v143_eq (F := Ideal) _

end Cert.Proof.Claims

end
-- ==== Proof.Prelude4.lean ====
/-
  The two embeddings. The first four stretches of @main build, from the launch arrays alone, each node's type
  embedding (a row of the type table chosen by the node's type) and its attribute embedding (the net, device or pin
  encoding of its attributes, chosen by its type, zero for the fourth type). They are the same host operations as the
  reference's, on the same arrays, so each is the reference's intermediate; and no launch array is written.
-/
import proofs.«415851_j69784628626298_1_alg».proof.Proof.Invariants
import Idealize.ShloMosaic.Lib.StableHlo.Run

noncomputable section

namespace Cert.Bridge

open Idealize.ShloMosaic Idealize.ShloMosaic.TcCoe Idealize.SL.Sem Idealize.ShloMosaic.StableHlo Cert.KernelIdeal Cert.KernelIdeal.Gen

variable (m : (ℓ : Loc nD τ sig) → Buf (Elt Ideal) ℓ) (ρ : Dev nD → PrngReg) (c : Dev nD)

namespace Prelude4

/-! ## Buffers a stretch does not write -/

/-- No operation of the list writes the buffer: each operation writes one buffer, and it is another one. -/
local macro "nw" ops:ident : tactic => `(tactic| (
  refine List.forall_iff_forall_mem.mp ?_
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-- A buffer the second stretch does not write holds after it what it held before. -/
theorem W2_eq_W1 (b : Ref sig .tc)
    (h : ∀ op ∈ (hostOps0_1 : List (HloOp τ sig (Elt Ideal))), (Proc.devRef .tc b : DevRef τ sig) ∉ op.writes) :
    W2 (F := Ideal) m ρ c (Proc.devRef .tc b) = W1 (F := Ideal) m ρ c (Proc.devRef .tc b) :=
  StableHlo.after_of_forall_not_mem _ _ h
/-- The same for the third stretch. -/
theorem W3_eq_W2 (b : Ref sig .tc)
    (h : ∀ op ∈ (hostOps0_2 : List (HloOp τ sig (Elt Ideal))), (Proc.devRef .tc b : DevRef τ sig) ∉ op.writes) :
    W3 (F := Ideal) m ρ c (Proc.devRef .tc b) = W2 (F := Ideal) m ρ c (Proc.devRef .tc b) :=
  StableHlo.after_of_forall_not_mem _ _ h
/-- The same for the fourth stretch. -/
theorem W4_eq_W3 (b : Ref sig .tc)
    (h : ∀ op ∈ (hostOps0_3 : List (HloOp τ sig (Elt Ideal))), (Proc.devRef .tc b : DevRef τ sig) ∉ op.writes) :
    W4 (F := Ideal) m ρ c (Proc.devRef .tc b) = W3 (F := Ideal) m ρ c (Proc.devRef .tc b) :=
  StableHlo.after_of_forall_not_mem _ _ h
/-- A buffer none of the four stretches writes holds after them what the launch put there. -/
theorem W4_eq_W0 (b : Ref sig .tc)
    (h3 : ∀ op ∈ (hostOps0_3 : List (HloOp τ sig (Elt Ideal))), (Proc.devRef .tc b : DevRef τ sig) ∉ op.writes)
    (h2 : ∀ op ∈ (hostOps0_2 : List (HloOp τ sig (Elt Ideal))), (Proc.devRef .tc b : DevRef τ sig) ∉ op.writes)
    (h1 : ∀ op ∈ (hostOps0_1 : List (HloOp τ sig (Elt Ideal))), (Proc.devRef .tc b : DevRef τ sig) ∉ op.writes)
    (h0 : ∀ op ∈ (hostOps0 : List (HloOp τ sig (Elt Ideal))), (Proc.devRef .tc b : DevRef τ sig) ∉ op.writes) :
    W4 (F := Ideal) m ρ c (Proc.devRef .tc b) = W0 (F := Ideal) m ρ c (Proc.devRef .tc b) :=
  (W4_eq_W3 m ρ c b h3).trans ((W3_eq_W2 m ρ c b h2).trans ((W2_eq_W1 m ρ c b h1).trans
    (StableHlo.after_of_forall_not_mem _ _ h0)))

/-! ## The launch arrays the later stretches read: none of the four stretches writes them -/

theorem arg18 : W4 (F := Ideal) m ρ c (Proc.devRef .tc main_arg18) = a18 m c :=
  (W4_eq_W0 m ρ c main_arg18 (by nw hostOps0_3) (by nw hostOps0_2) (by nw hostOps0_1) (by nw hostOps0)).trans rfl
theorem arg9 : W4 (F := Ideal) m ρ c (Proc.devRef .tc main_arg9) = a9 m c :=
  (W4_eq_W0 m ρ c main_arg9 (by nw hostOps0_3) (by nw hostOps0_2) (by nw hostOps0_1) (by nw hostOps0)).trans rfl
theorem arg11 : W4 (F := Ideal) m ρ c (Proc.devRef .tc main_arg11) = a11 m c :=
  (W4_eq_W0 m ρ c main_arg11 (by nw hostOps0_3) (by nw hostOps0_2) (by nw hostOps0_1) (by nw hostOps0)).trans rfl
theorem arg10 : W4 (F := Ideal) m ρ c (Proc.devRef .tc main_arg10) = a10 m c :=
  (W4_eq_W0 m ρ c main_arg10 (by nw hostOps0_3) (by nw hostOps0_2) (by nw hostOps0_1) (by nw hostOps0)).trans rfl
theorem arg12 : W4 (F := Ideal) m ρ c (Proc.devRef .tc main_arg12) = a12 m c :=
  (W4_eq_W0 m ρ c main_arg12 (by nw hostOps0_3) (by nw hostOps0_2) (by nw hostOps0_1) (by nw hostOps0)).trans rfl
theorem arg13 : W4 (F := Ideal) m ρ c (Proc.devRef .tc main_arg13) = a13 m c :=
  (W4_eq_W0 m ρ c main_arg13 (by nw hostOps0_3) (by nw hostOps0_2) (by nw hostOps0_1) (by nw hostOps0)).trans rfl
theorem arg14 : W4 (F := Ideal) m ρ c (Proc.devRef .tc main_arg14) = a14 m c :=
  (W4_eq_W0 m ρ c main_arg14 (by nw hostOps0_3) (by nw hostOps0_2) (by nw hostOps0_1) (by nw hostOps0)).trans rfl
theorem arg15 : W4 (F := Ideal) m ρ c (Proc.devRef .tc main_arg15) = a15 m c :=
  (W4_eq_W0 m ρ c main_arg15 (by nw hostOps0_3) (by nw hostOps0_2) (by nw hostOps0_1) (by nw hostOps0)).trans rfl
theorem arg1 : W4 (F := Ideal) m ρ c (Proc.devRef .tc main_arg1) = a1 m c :=
  (W4_eq_W0 m ρ c main_arg1 (by nw hostOps0_3) (by nw hostOps0_2) (by nw hostOps0_1) (by nw hostOps0)).trans rfl

/-! ## The first stretch, read at the buffers the embeddings are made of

Each of these buffers is written by the first stretch from launch arrays alone, by the operations the reference
applies to the same arrays in the same order; so its contents are the reference's stage of the launch arrays. -/

/-- The type embedding: the row of the type table at each node's type, a negative type counted from the table's end. -/
theorem W1_v6 : W1 (F := Ideal) m ρ c (Proc.devRef .tc main_v6) = Cert.ReferenceIdeal.Read.val_main_v6 (F := Ideal) (a2 m c) (a16 m c) := by
  have e : W1 (F := Ideal) m ρ c (Proc.devRef .tc main_v6) = Cert.ReferenceIdeal.Read.val_main_v6 (F := Ideal) (W0 (F := Ideal) m ρ c (Proc.devRef .tc main_arg2)) (W0 (F := Ideal) m ρ c (Proc.devRef .tc main_arg16)) := by
    unfold W1
    generalize W0 (F := Ideal) m ρ c = W
    dsimp only [hostOps0]
    after_results_simp <;> rfl
  exact e.trans rfl

/-- The net encoding: the attributes times the net weights, plus the net bias in every row. -/
theorem W1_v16 : W1 (F := Ideal) m ρ c (Proc.devRef .tc main_v16) = Cert.ReferenceIdeal.Read.val_main_v23 (F := Ideal) (a0 m c) (a4 m c) (a5 m c) := by
  have e : W1 (F := Ideal) m ρ c (Proc.devRef .tc main_v16) = Cert.ReferenceIdeal.Read.val_main_v23 (F := Ideal) (W0 (F := Ideal) m ρ c (Proc.devRef .tc main_arg0)) (W0 (F := Ideal) m ρ c (Proc.devRef .tc main_arg4)) (W0 (F := Ideal) m ρ c (Proc.devRef .tc main_arg5)) := by
    unfold W1
    generalize W0 (F := Ideal) m ρ c = W
    dsimp only [hostOps0]
    after_results_simp <;> rfl
  exact e.trans rfl

/-- The device encoding: the attributes times the device weights, plus the device bias in every row. -/
theorem W1_v20 : W1 (F := Ideal) m ρ c (Proc.devRef .tc main_v20) = Cert.ReferenceIdeal.Read.val_main_v27 (F := Ideal) (a0 m c) (a6 m c) (a7 m c) := by
  have e : W1 (F := Ideal) m ρ c (Proc.devRef .tc main_v20) = Cert.ReferenceIdeal.Read.val_main_v27 (F := Ideal) (W0 (F := Ideal) m ρ c (Proc.devRef .tc main_arg0)) (W0 (F := Ideal) m ρ c (Proc.devRef .tc main_arg6)) (W0 (F := Ideal) m ρ c (Proc.devRef .tc main_arg7)) := by
    unfold W1
    generalize W0 (F := Ideal) m ρ c = W
    dsimp only [hostOps0]
    after_results_simp <;> rfl
  exact e.trans rfl

/-- The pin encoding: the row of the pin table at the integer part of each node's first attribute, a negative one counted from the table's end. -/
theorem W1_v30 : W1 (F := Ideal) m ρ c (Proc.devRef .tc main_v30) = Cert.ReferenceIdeal.Read.val_main_v37 (F := Ideal) (a0 m c) (a8 m c) := by
  have e : W1 (F := Ideal) m ρ c (Proc.devRef .tc main_v30) = Cert.ReferenceIdeal.Read.val_main_v37 (F := Ideal) (W0 (F := Ideal) m ρ c (Proc.devRef .tc main_arg0)) (W0 (F := Ideal) m ρ c (Proc.devRef .tc main_arg8)) := by
    unfold W1
    generalize W0 (F := Ideal) m ρ c = W
    dsimp only [hostOps0]
    after_results_simp <;> rfl
  exact e.trans rfl

/-- The column that says which nodes have type 0. -/
theorem W1_v31 : W1 (F := Ideal) m ρ c (Proc.devRef .tc main_v31) = Cert.ReferenceIdeal.Read.val_main_v38 (F := Ideal) (a16 m c) := by
  have e : W1 (F := Ideal) m ρ c (Proc.devRef .tc main_v31) = Cert.ReferenceIdeal.Read.val_main_v38 (F := Ideal) (W0 (F := Ideal) m ρ c (Proc.devRef .tc main_arg16)) := by
    unfold W1
    generalize W0 (F := Ideal) m ρ c = W
    dsimp only [hostOps0]
    after_results_simp <;> rfl
  exact e.trans rfl

/-- The column that says which nodes have type 1. -/
theorem W1_v32 : W1 (F := Ideal) m ρ c (Proc.devRef .tc main_v32) = Cert.ReferenceIdeal.Read.val_main_v39 (F := Ideal) (a16 m c) := by
  have e : W1 (F := Ideal) m ρ c (Proc.devRef .tc main_v32) = Cert.ReferenceIdeal.Read.val_main_v39 (F := Ideal) (W0 (F := Ideal) m ρ c (Proc.devRef .tc main_arg16)) := by
    unfold W1
    generalize W0 (F := Ideal) m ρ c = W
    dsimp only [hostOps0]
    after_results_simp <;> rfl
  exact e.trans rfl

/-- The column that says which nodes have type 2. -/
theorem W1_v33 : W1 (F := Ideal) m ρ c (Proc.devRef .tc main_v33) = Cert.ReferenceIdeal.Read.val_main_v40 (F := Ideal) (a16 m c) := by
  have e : W1 (F := Ideal) m ρ c (Proc.devRef .tc main_v33) = Cert.ReferenceIdeal.Read.val_main_v40 (F := Ideal) (W0 (F := Ideal) m ρ c (Proc.devRef .tc main_arg16)) := by
    unfold W1
    generalize W0 (F := Ideal) m ρ c = W
    dsimp only [hostOps0]
    after_results_simp <;> rfl
  exact e.trans rfl

/-- The zero matrix, the attribute embedding of a node of none of the three types. -/
theorem W1_v34 : W1 (F := Ideal) m ρ c (Proc.devRef .tc main_v34) = Cert.ReferenceIdeal.Read.val_main_v41 (F := Ideal) := by
  have e : W1 (F := Ideal) m ρ c (Proc.devRef .tc main_v34) = Cert.ReferenceIdeal.Read.val_main_v41 (F := Ideal) := by
    unfold W1
    generalize W0 (F := Ideal) m ρ c = W
    dsimp only [hostOps0]
    after_results_simp <;> rfl
  exact e.trans rfl

/-! ## The three choices by type

Each of the next three stretches chooses, row by row, between an encoding and what the previous choice left: where
the type column holds, the encoding's row, elsewhere the other row. -/

/-- The choice between two matrices row by row: the column is spread along each row, and where it holds the entry
    is the first matrix's, elsewhere the second's. -/
def whereRows (mask : (⟨S100000x1, .i1⟩ : BufTy).Contents (Elt Ideal))
    (a b : (⟨S100000x128, .f32⟩ : BufTy).Contents (Elt Ideal)) : (⟨S100000x128, .f32⟩ : BufTy).Contents (Elt Ideal) :=
  select (broadcastInDim S100000x128 ![0, 1] bcast_S100000x1_S100000x128_0_1 mask) a b

/-- The type-1 column and the device encoding are not written by the first choice's stretch, nor the type-0
    column and the net encoding by the first two: each is still what the first stretch wrote. -/
theorem W2_v32 : W2 (F := Ideal) m ρ c (Proc.devRef .tc main_v32) = Cert.ReferenceIdeal.Read.val_main_v39 (F := Ideal) (a16 m c) :=
  (W2_eq_W1 m ρ c main_v32 (by nw hostOps0_1)).trans (W1_v32 m ρ c)
theorem W2_v20 : W2 (F := Ideal) m ρ c (Proc.devRef .tc main_v20) = Cert.ReferenceIdeal.Read.val_main_v27 (F := Ideal) (a0 m c) (a6 m c) (a7 m c) :=
  (W2_eq_W1 m ρ c main_v20 (by nw hostOps0_1)).trans (W1_v20 m ρ c)
theorem W3_v31 : W3 (F := Ideal) m ρ c (Proc.devRef .tc main_v31) = Cert.ReferenceIdeal.Read.val_main_v38 (F := Ideal) (a16 m c) :=
  (W3_eq_W2 m ρ c main_v31 (by nw hostOps0_2)).trans ((W2_eq_W1 m ρ c main_v31 (by nw hostOps0_1)).trans (W1_v31 m ρ c))
theorem W3_v16 : W3 (F := Ideal) m ρ c (Proc.devRef .tc main_v16) = Cert.ReferenceIdeal.Read.val_main_v23 (F := Ideal) (a0 m c) (a4 m c) (a5 m c) :=
  (W3_eq_W2 m ρ c main_v16 (by nw hostOps0_2)).trans ((W2_eq_W1 m ρ c main_v16 (by nw hostOps0_1)).trans (W1_v16 m ρ c))

/-- After the first choice: the pin encoding in the rows of type 2, zero elsewhere. -/
theorem W2_v35 : W2 (F := Ideal) m ρ c (Proc.devRef .tc main_v35) = Cert.ReferenceIdeal.Read.val_main_v42 (F := Ideal) (a0 m c) (a8 m c) (a16 m c) := by
  have e : W2 (F := Ideal) m ρ c (Proc.devRef .tc main_v35)
      = whereRows (W1 (F := Ideal) m ρ c (Proc.devRef .tc main_v33)) (W1 (F := Ideal) m ρ c (Proc.devRef .tc main_v30)) (W1 (F := Ideal) m ρ c (Proc.devRef .tc main_v34)) := by
    unfold W2
    generalize W1 (F := Ideal) m ρ c = W
    dsimp only [hostOps0_1]
    after_results_simp <;> rfl
  rw [e, W1_v33, W1_v30, W1_v34]
  rfl
/-- After the second choice: the device encoding in the rows of type 1, the first choice elsewhere. -/
theorem W3_v36 : W3 (F := Ideal) m ρ c (Proc.devRef .tc main_v36) = Cert.ReferenceIdeal.Read.val_main_v43 (F := Ideal) (a0 m c) (a6 m c) (a7 m c) (a8 m c) (a16 m c) := by
  have e : W3 (F := Ideal) m ρ c (Proc.devRef .tc main_v36)
      = whereRows (W2 (F := Ideal) m ρ c (Proc.devRef .tc main_v32)) (W2 (F := Ideal) m ρ c (Proc.devRef .tc main_v20)) (W2 (F := Ideal) m ρ c (Proc.devRef .tc main_v35)) := by
    unfold W3
    generalize W2 (F := Ideal) m ρ c = W
    dsimp only [hostOps0_2]
    after_results_simp <;> rfl
  rw [e, W2_v32, W2_v20, W2_v35]
  rfl
/-- After the third choice: the net encoding in the rows of type 0, the second choice elsewhere; this is the
    attribute embedding. -/
theorem W4_v37 : W4 (F := Ideal) m ρ c (Proc.devRef .tc main_v37) = RattrEmb m c := by
  have e : W4 (F := Ideal) m ρ c (Proc.devRef .tc main_v37)
      = whereRows (W3 (F := Ideal) m ρ c (Proc.devRef .tc main_v31)) (W3 (F := Ideal) m ρ c (Proc.devRef .tc main_v16)) (W3 (F := Ideal) m ρ c (Proc.devRef .tc main_v36)) := by
    unfold W4
    generalize W3 (F := Ideal) m ρ c = W
    dsimp only [hostOps0_3]
    after_results_simp <;> rfl
  rw [e, W3_v31, W3_v16, W3_v36]
  rfl
/-- The type embedding is not written after the first stretch. -/
theorem W4_v6 : W4 (F := Ideal) m ρ c (Proc.devRef .tc main_v6) = RtypeEmb m c :=
  (W4_eq_W3 m ρ c main_v6 (by nw hostOps0_3)).trans ((W3_eq_W2 m ρ c main_v6 (by nw hostOps0_2)).trans
    ((W2_eq_W1 m ρ c main_v6 (by nw hostOps0_1)).trans (W1_v6 m ρ c)))

end Prelude4

/-- The first four prelude stretches: the two embeddings are the reference's, the launch arrays are as launched. -/
theorem pre4 : Pre4 m c (W4 (F := Ideal) m ρ c) :=
  ⟨Prelude4.W4_v6 m ρ c, Prelude4.W4_v37 m ρ c, Prelude4.arg18 m ρ c, Prelude4.arg9 m ρ c, Prelude4.arg11 m ρ c,
    Prelude4.arg10 m ρ c, Prelude4.arg12 m ρ c, Prelude4.arg13 m ρ c, Prelude4.arg14 m ρ c, Prelude4.arg15 m ρ c,
    Prelude4.arg1 m ρ c⟩

end Cert.Bridge

end
-- ==== Proof.Prelude5.lean ====
/-
  What the first region finds. The last prelude stretch joins the two embeddings into the node features, reads the
  edges' endpoints off the edge array, counts each node's in-edges (at least one), forms the first layer's mean of the
  in-neighbours' features, and cuts the first layer's weights and bias row out of the parameter arrays. They are the
  same host operations as the reference's, so each array is the reference's intermediate; the changes of float
  format the kernel's program adds are the identity at the ideal values.
-/
import proofs.«415851_j69784628626298_1_alg».proof.Proof.Invariants
import Idealize.ShloMosaic.Lib.StableHlo.Run

noncomputable section

namespace Cert.Bridge

open Idealize.ShloMosaic Idealize.ShloMosaic.TcCoe Idealize.SL.Sem Idealize.ShloMosaic.StableHlo Cert.KernelIdeal Cert.KernelIdeal.Gen

variable (m : (ℓ : Loc nD τ sig) → Buf (Elt Ideal) ℓ) (ρ : Dev nD → PrngReg) (c : Dev nD)

namespace Prelude5

/-! ## The stretch's arrays as functions of what the stretch reads -/

/-- The node features: the type embedding beside the attribute embedding, then the change of float format. -/
def x0Of (a b : (⟨S100000x128, .f32⟩ : BufTy).Contents (Elt Ideal)) : (⟨S100000x256, .bf16⟩ : BufTy).Contents (Elt Ideal) :=
  truncf (F := Ideal) .bf16 (concatenate S100000x256 1 [⟨S100000x128, a⟩, ⟨S100000x128, b⟩] concatenates_S100000x128_S100000x128_S100000x256_d1) bitsLt_bf16_f32

/-- The edges' sources: row 0 of the edge array, as a vector. -/
def srcOf (e : (⟨S2x320000, .i32⟩ : BufTy).Contents (Elt Ideal)) : (⟨S320000, .i32⟩ : BufTy).Contents (Elt Ideal) :=
  shapeCast _ (extractStridedSlice S1x320000 ![0, 0] e slices_S2x320000_S1x320000_0_0) shapeCasts_S1x320000_S320000

/-- The edges' destinations: row 1 of the edge array, as a vector. -/
def dstOf (e : (⟨S2x320000, .i32⟩ : BufTy).Contents (Elt Ideal)) : (⟨S320000, .i32⟩ : BufTy).Contents (Elt Ideal) :=
  shapeCast _ (extractStridedSlice S1x320000 ![1, 0] e slices_S2x320000_S1x320000_1_0) shapeCasts_S1x320000_S320000

/-- The in-degree column of a destination vector: a one added at each edge's destination, starting from zero, then the
    maximum with one, laid out as a column. -/
def denOf (d : (⟨S320000, .i32⟩ : BufTy).Contents (Elt Ideal)) : (⟨S100000x1, .f32⟩ : BufTy).Contents (Elt Ideal) :=
  broadcastInDim S100000x1 ![0] bcast_S100000_S100000x1_0
    (maximumf (F := Ideal)
      (Host.scatterAdd (F := Ideal) scatter_S100000_S320000x1_S320000_n_0_0_1
        (broadcastInDim S100000 ![] bcast_S_S100000 (constant (F := Ideal) S_ .f32 0x00000000#32))
        (broadcastInDim S320000x1 ![0] bcast_S320000_S320000x1_0 d)
        (broadcastInDim S320000 ![] bcast_S_S320000 (constant (F := Ideal) S_ .f32 0x3F800000#32)))
      (broadcastInDim S100000 ![] bcast_S_S100000 (constant (F := Ideal) S_ .f32 0x3F800000#32)))

/-- A weight stack in the format the regions read it in: the same entries. -/
def stackOf (w : (⟨S3x256x256, .f32⟩ : BufTy).Contents (Elt Ideal)) : (⟨S3x256x256, .bf16⟩ : BufTy).Contents (Elt Ideal) :=
  truncf (F := Ideal) .bf16 w bitsLt_bf16_f32

/-- Layer 0's matrix of a weight stack, in the format the region reads it in: the stack's first slab as a matrix. -/
def mat0Of (w : (⟨S3x256x256, .f32⟩ : BufTy).Contents (Elt Ideal)) : (⟨S256x256, .bf16⟩ : BufTy).Contents (Elt Ideal) :=
  shapeCast _ (extractStridedSlice S1x256x256 ![0, 0, 0] (stackOf w) slices_S3x256x256_S1x256x256_0_0_0) shapeCasts_S1x256x256_S256x256

/-- The source column the features are gathered by: a negative source is counted from the end. -/
def srcColOf (s : (⟨S320000, .i32⟩ : BufTy).Contents (Elt Ideal)) : (⟨S320000x1, .i32⟩ : BufTy).Contents (Elt Ideal) :=
  broadcastInDim S320000x1 ![0] bcast_S320000_S320000x1_0
    (select (cmpi .slt s (broadcastInDim S320000 ![] bcast_S_S320000 (constantI S_ 32 0#32)))
      (addi s (broadcastInDim S320000 ![] bcast_S_S320000 (constantI S_ 32 100000#32))) s)

/-- Each edge's row of features: the features at the edge's source. -/
def msgOf (x : (⟨S100000x256, .bf16⟩ : BufTy).Contents (Elt Ideal)) (s : (⟨S320000, .i32⟩ : BufTy).Contents (Elt Ideal)) :
    (⟨S320000x256, .f32⟩ : BufTy).Contents (Elt Ideal) :=
  extf (F := Ideal) .f32 (Host.gather gather_S100000x256_S320000x1_S320000x256_1_0_n_n_0_1_1256 x (srcColOf s)) bitsLt_bf16_f32

/-- Each node's sum of its in-edges' rows, starting from zero. -/
def sumOf (d : (⟨S320000, .i32⟩ : BufTy).Contents (Elt Ideal)) (u : (⟨S320000x256, .f32⟩ : BufTy).Contents (Elt Ideal)) :
    (⟨S100000x256, .f32⟩ : BufTy).Contents (Elt Ideal) :=
  Host.scatterAdd (F := Ideal) scatter_S100000x256_S320000x1_S320000x256_1_0_0_1
    (broadcastInDim S100000x256 ![] bcast_S_S100000x256 (constant (F := Ideal) S_ .f32 0x00000000#32))
    (broadcastInDim S320000x1 ![0] bcast_S320000_S320000x1_0 d) u

/-- The mean of the in-neighbours' features: the sum over the in-degree column, along each row. -/
def aggOf (x : (⟨S100000x256, .bf16⟩ : BufTy).Contents (Elt Ideal)) (s d : (⟨S320000, .i32⟩ : BufTy).Contents (Elt Ideal))
    (n : (⟨S100000x1, .f32⟩ : BufTy).Contents (Elt Ideal)) : (⟨S100000x256, .f32⟩ : BufTy).Contents (Elt Ideal) :=
  Host.divf (F := Ideal) (φ := .f32) (sumOf d (msgOf x s)) (broadcastInDim S100000x256 ![0, 1] bcast_S100000x1_S100000x256_0_1 n)

/-! ## Each is the reference's intermediate, of the reference's inputs

The reference builds the same arrays by the same operations, one stage over the previous ones, so each equation holds by
unfolding the stages: the only differences are the changes of float format, which keep every entry at the ideal values
(and so a gather of bf16 rows widened afterwards is the gather of the same rows). -/

theorem x0Of_ref : x0Of (RtypeEmb m c) (RattrEmb m c) = Rx0 m c := rfl
theorem srcOf_ref : srcOf (a18 m c) = Rsrc m c := rfl
theorem dstOf_ref : dstOf (a18 m c) = Rdst m c := rfl
theorem denOf_ref : denOf (Rdst m c) = Rden m c := rfl
theorem stackOf_eq (w : (⟨S3x256x256, .f32⟩ : BufTy).Contents (Elt Ideal)) : stackOf w = w := rfl

theorem mat0Of_wl : mat0Of (a9 m c) = Rwl0 m c := rfl
theorem mat0Of_wr : mat0Of (a11 m c) = Rwr0 m c := rfl
theorem aggOf_ref : aggOf (Rx0 m c) (Rsrc m c) (Rdst m c) (Rden m c) = Ragg0 m c := rfl

/-! ## What the stretch leaves in each array

Over any contents `W` the stretch starts from: the array is the function above of `W` at the arrays the stretch reads
(an array the stretch itself writes is read through to those). -/

theorem read_v39 (W : Valuation τ sig (Elt Ideal)) :
    StableHlo.after (hostOps0_4 (F := Ideal)) W (Proc.devRef .tc main_v39)
      = x0Of (W (Proc.devRef .tc main_v6)) (W (Proc.devRef .tc main_v37)) := by
  dsimp only [hostOps0_4]
  after_results_simp <;> rfl

theorem read_v41 (W : Valuation τ sig (Elt Ideal)) :
    StableHlo.after (hostOps0_4 (F := Ideal)) W (Proc.devRef .tc main_v41) = srcOf (W (Proc.devRef .tc main_arg18)) := by
  dsimp only [hostOps0_4]
  after_results_simp <;> rfl

theorem read_v43 (W : Valuation τ sig (Elt Ideal)) :
    StableHlo.after (hostOps0_4 (F := Ideal)) W (Proc.devRef .tc main_v43) = dstOf (W (Proc.devRef .tc main_arg18)) := by
  dsimp only [hostOps0_4]
  after_results_simp <;> rfl

theorem read_v50 (W : Valuation τ sig (Elt Ideal)) :
    StableHlo.after (hostOps0_4 (F := Ideal)) W (Proc.devRef .tc main_v50) = denOf (dstOf (W (Proc.devRef .tc main_arg18))) := by
  dsimp only [hostOps0_4]
  after_results_simp <;> rfl

theorem read_v51 (W : Valuation τ sig (Elt Ideal)) :
    StableHlo.after (hostOps0_4 (F := Ideal)) W (Proc.devRef .tc main_v51) = stackOf (W (Proc.devRef .tc main_arg9)) := by
  dsimp only [hostOps0_4]
  after_results_simp <;> rfl

theorem read_v52 (W : Valuation τ sig (Elt Ideal)) :
    StableHlo.after (hostOps0_4 (F := Ideal)) W (Proc.devRef .tc main_v52) = stackOf (W (Proc.devRef .tc main_arg11)) := by
  dsimp only [hostOps0_4]
  after_results_simp <;> rfl

theorem read_v70 (W : Valuation τ sig (Elt Ideal)) :
    StableHlo.after (hostOps0_4 (F := Ideal)) W (Proc.devRef .tc main_v70) = mat0Of (W (Proc.devRef .tc main_arg9)) := by
  dsimp only [hostOps0_4]
  after_results_simp <;> rfl

theorem read_v72 (W : Valuation τ sig (Elt Ideal)) :
    StableHlo.after (hostOps0_4 (F := Ideal)) W (Proc.devRef .tc main_v72) = mat0Of (W (Proc.devRef .tc main_arg11)) := by
  dsimp only [hostOps0_4]
  after_results_simp <;> rfl

theorem read_v68 (W : Valuation τ sig (Elt Ideal)) :
    StableHlo.after (hostOps0_4 (F := Ideal)) W (Proc.devRef .tc main_v68) = biasRow0 (W (Proc.devRef .tc main_arg10)) := by
  dsimp only [hostOps0_4]
  after_results_simp <;> rfl

theorem read_v65 (W : Valuation τ sig (Elt Ideal)) :
    StableHlo.after (hostOps0_4 (F := Ideal)) W (Proc.devRef .tc main_v65)
      = aggOf (x0Of (W (Proc.devRef .tc main_v6)) (W (Proc.devRef .tc main_v37))) (srcOf (W (Proc.devRef .tc main_arg18)))
          (dstOf (W (Proc.devRef .tc main_arg18))) (denOf (dstOf (W (Proc.devRef .tc main_arg18)))) := by
  dsimp only [hostOps0_4]
  after_results_simp <;> rfl

/-! ## The arrays the stretch does not write -/

/-- An array that is no operation's result is as the stretch found it. -/
local macro "stretch_keeps" : tactic =>
  `(tactic| exact StableHlo.after_of_forall_not_mem _ _ (List.forall_iff_forall_mem.mp (by
      simp only [hostOps0_4, List.Forall, StableHlo.nullary_writes, StableHlo.unary_writes, StableHlo.binary_writes,
        StableHlo.ternary_writes, StableHlo.reshape_writes, Finset.mem_singleton]
      repeat' apply And.intro
      all_goals exact StableHlo.devRef_ne_of_ne (by decide))))

theorem keep_arg10 (W : Valuation τ sig (Elt Ideal)) :
    StableHlo.after (hostOps0_4 (F := Ideal)) W (Proc.devRef .tc main_arg10) = W (Proc.devRef .tc main_arg10) := by stretch_keeps
theorem keep_arg12 (W : Valuation τ sig (Elt Ideal)) :
    StableHlo.after (hostOps0_4 (F := Ideal)) W (Proc.devRef .tc main_arg12) = W (Proc.devRef .tc main_arg12) := by stretch_keeps
theorem keep_arg13 (W : Valuation τ sig (Elt Ideal)) :
    StableHlo.after (hostOps0_4 (F := Ideal)) W (Proc.devRef .tc main_arg13) = W (Proc.devRef .tc main_arg13) := by stretch_keeps
theorem keep_arg14 (W : Valuation τ sig (Elt Ideal)) :
    StableHlo.after (hostOps0_4 (F := Ideal)) W (Proc.devRef .tc main_arg14) = W (Proc.devRef .tc main_arg14) := by stretch_keeps
theorem keep_arg15 (W : Valuation τ sig (Elt Ideal)) :
    StableHlo.after (hostOps0_4 (F := Ideal)) W (Proc.devRef .tc main_arg15) = W (Proc.devRef .tc main_arg15) := by stretch_keeps
theorem keep_arg1 (W : Valuation τ sig (Elt Ideal)) :
    StableHlo.after (hostOps0_4 (F := Ideal)) W (Proc.devRef .tc main_arg1) = W (Proc.devRef .tc main_arg1) := by stretch_keeps

/-! ## The fields

Each is the reading above at the contents the previous stretch left, where the embeddings are the reference's and the
launch arrays are as launched, followed by the equation with the reference's stage. The neighbour mean is taken last:
its features, endpoints and in-degree column are first replaced by the reference's, so that only its own three
operations (gather, sum by destination, division by the in-degree) are compared. -/

theorem field_x (h : Pre4 m c (W4 (F := Ideal) m ρ c)) : W5 (F := Ideal) m ρ c (Proc.devRef .tc main_v39) = Rx0 m c := by
  refine (read_v39 (W4 (F := Ideal) m ρ c)).trans ?_
  rw [h.typeEmb, h.attrEmb]
  exact x0Of_ref m c

theorem field_src (h : Pre4 m c (W4 (F := Ideal) m ρ c)) : W5 (F := Ideal) m ρ c (Proc.devRef .tc main_v41) = Rsrc m c := by
  refine (read_v41 (W4 (F := Ideal) m ρ c)).trans ?_
  rw [h.edges]
  exact srcOf_ref m c

theorem field_dst (h : Pre4 m c (W4 (F := Ideal) m ρ c)) : W5 (F := Ideal) m ρ c (Proc.devRef .tc main_v43) = Rdst m c := by
  refine (read_v43 (W4 (F := Ideal) m ρ c)).trans ?_
  rw [h.edges]
  exact dstOf_ref m c

theorem field_den (h : Pre4 m c (W4 (F := Ideal) m ρ c)) : W5 (F := Ideal) m ρ c (Proc.devRef .tc main_v50) = Rden m c := by
  refine (read_v50 (W4 (F := Ideal) m ρ c)).trans ?_
  rw [h.edges, dstOf_ref m c]
  exact denOf_ref m c

theorem field_wlAll (h : Pre4 m c (W4 (F := Ideal) m ρ c)) : W5 (F := Ideal) m ρ c (Proc.devRef .tc main_v51) = a9 m c := by
  refine (read_v51 (W4 (F := Ideal) m ρ c)).trans ?_
  rw [h.wlAll]
  exact stackOf_eq (a9 m c)

theorem field_wrAll (h : Pre4 m c (W4 (F := Ideal) m ρ c)) : W5 (F := Ideal) m ρ c (Proc.devRef .tc main_v52) = a11 m c := by
  refine (read_v52 (W4 (F := Ideal) m ρ c)).trans ?_
  rw [h.wrAll]
  exact stackOf_eq (a11 m c)

theorem field_wl (h : Pre4 m c (W4 (F := Ideal) m ρ c)) : W5 (F := Ideal) m ρ c (Proc.devRef .tc main_v70) = Rwl0 m c := by
  refine (read_v70 (W4 (F := Ideal) m ρ c)).trans ?_
  rw [h.wlAll]
  exact mat0Of_wl m c

theorem field_wr (h : Pre4 m c (W4 (F := Ideal) m ρ c)) : W5 (F := Ideal) m ρ c (Proc.devRef .tc main_v72) = Rwr0 m c := by
  refine (read_v72 (W4 (F := Ideal) m ρ c)).trans ?_
  rw [h.wrAll]
  exact mat0Of_wr m c

theorem field_bl (h : Pre4 m c (W4 (F := Ideal) m ρ c)) :
    W5 (F := Ideal) m ρ c (Proc.devRef .tc main_v68) = biasRow0 (a10 m c) := by
  refine (read_v68 (W4 (F := Ideal) m ρ c)).trans ?_
  rw [h.bias]

theorem field_agg (h : Pre4 m c (W4 (F := Ideal) m ρ c)) : W5 (F := Ideal) m ρ c (Proc.devRef .tc main_v65) = Ragg0 m c := by
  refine (read_v65 (W4 (F := Ideal) m ρ c)).trans ?_
  rw [h.typeEmb, h.attrEmb, h.edges, x0Of_ref m c, srcOf_ref m c, dstOf_ref m c, denOf_ref m c]
  exact aggOf_ref m c

theorem carried (h : Pre4 m c (W4 (F := Ideal) m ρ c)) : Carried m c (W5 (F := Ideal) m ρ c) where
  src := field_src m ρ c h
  dst := field_dst m ρ c h
  den := field_den m ρ c h
  wlAll := field_wlAll m ρ c h
  wrAll := field_wrAll m ρ c h
  bias := (keep_arg10 (W4 (F := Ideal) m ρ c)).trans h.bias
  w0 := (keep_arg12 (W4 (F := Ideal) m ρ c)).trans h.w0
  b0 := (keep_arg13 (W4 (F := Ideal) m ρ c)).trans h.b0
  w1 := (keep_arg14 (W4 (F := Ideal) m ρ c)).trans h.w1
  b1 := (keep_arg15 (W4 (F := Ideal) m ρ c)).trans h.b1
  y := (keep_arg1 (W4 (F := Ideal) m ρ c)).trans h.y

end Prelude5

/-- The last prelude stretch: what the first region finds. -/
theorem entry0 (h : Pre4 m c (W4 (F := Ideal) m ρ c)) : Entry0 m c (W5 (F := Ideal) m ρ c) where
  agg := Prelude5.field_agg m ρ c h
  x := Prelude5.field_x m ρ c h
  wl := Prelude5.field_wl m ρ c h
  wr := Prelude5.field_wr m ρ c h
  bl := Prelude5.field_bl m ρ c h
  carried := Prelude5.carried m ρ c h

end Cert.Bridge

end
-- ==== Proof.SageBlock.lean ====
/-
  What one block of a SAGE layer's output holds. The layer's body loads a 2000-row block of the aggregated
  neighbour features and of the node features, the two 256 x 256 weight matrices and the bias row, and stores

      max ((agg_block · Wl + x_block · Wr) + bias, 0)

  over the whole block. Read at entry (p, q) that is the rectified sum of: row p of the aggregated block against
  column q of the left weights, row p of the feature block against column q of the right weights, and the bias at
  column q. At the ideal values the changes of float format inside the body are the identity, a product into a
  zero accumulator is the plain sum over the contracted axis, and the zero the rectifier compares with is the real 0.
  The three layers' bodies are one text, so this one reading serves all three.
-/
import proofs.«415851_j69784628626298_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.SageValue

open Idealize.ShloMosaic Cert.KernelIdeal Cert.KernelIdeal.Gen ValueIdx

/-- Entry (p, q) of a layer's output from the rows and columns it depends on: `a` the aggregated features, `x` the
    node features, `wl` / `wr` the left / right weights, `b` the bias row. Stated over any number of rows `n`, so
    that one block (2000 rows) and the whole array (100000 rows) are the same function. -/
def entry {n : ℕ} (a x : Fin n → Fin 256 → EReal) (wl wr : Fin 256 → Fin 256 → EReal) (b : Fin 256 → EReal)
    (p : Fin n) (q : Fin 256) : EReal :=
  max (((∑ k : Fin 256, a p k * wl k q) + (∑ k : Fin 256, x p k * wr k q)) + b q) 0

/-! ### The contraction of a 2000 x 256 block with a 256 x 256 matrix

The layer's two products contract the block's second axis with the matrix's first. At output entry i and
contraction index k the left operand is read at (row of i, k) and the right operand at (k, column of i).
The four facts below say this coordinate by coordinate. -/

/-- The left operand's row is the output's row. -/
theorem left_row (i : S2000x256.Idx) (k : dot_S2000x256_S256x256_S2000x256_1_0_0_1_n_n.contr.Idx) :
    (dot_S2000x256_S256x256_S2000x256_1_0_0_1_n_n.lhsIdx i k 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl

/-- The left operand's column is the contraction index. -/
theorem left_col (i : S2000x256.Idx) (k : dot_S2000x256_S256x256_S2000x256_1_0_0_1_n_n.contr.Idx) :
    (dot_S2000x256_S256x256_S2000x256_1_0_0_1_n_n.lhsIdx i k 1).val = (k ⟨0, by decide⟩).val :=
  dot_S2000x256_S256x256_S2000x256_1_0_0_1_n_n.lhsIdx_val_of_single rfl i k

/-- The right operand's row is the contraction index. -/
theorem right_row (i : S2000x256.Idx) (k : dot_S2000x256_S256x256_S2000x256_1_0_0_1_n_n.contr.Idx) :
    (dot_S2000x256_S256x256_S2000x256_1_0_0_1_n_n.rhsIdx i k 0).val = (k ⟨0, by decide⟩).val :=
  dot_S2000x256_S256x256_S2000x256_1_0_0_1_n_n.rhsIdx_val_of_single rfl i k

/-- The right operand's column is the output's column. -/
theorem right_col (i : S2000x256.Idx) (k : dot_S2000x256_S256x256_S2000x256_1_0_0_1_n_n.contr.Idx) :
    (dot_S2000x256_S256x256_S2000x256_1_0_0_1_n_n.rhsIdx i k 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- A block times a weight matrix, accumulated into zero, at entry (p, q): row p of the block against column q of the
    matrix, summed over the 256 shared coordinates. -/
theorem product_apply (l : FVec Ideal S2000x256 .bf16) (r : FVec Ideal S256x256 .bf16) (p : Fin 2000) (q : Fin 256) :
    matmul dot_S2000x256_S256x256_S2000x256_1_0_0_1_n_n none l r (constant (F := Ideal) S2000x256 .f32 0x00000000#32) (ix2 p q)
      = ∑ k : Fin 256, l (ix2 p k) * r (ix2 k q) := by
  simp only [matmul]
  rw [Ideal.matmul_constant_zero_apply, ← Equiv.sum_comp (ValueIdx.contrEquiv1 dot_S2000x256_S256x256_S2000x256_1_0_0_1_n_n 256 rfl rfl).symm]
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx (ix2 p q) ((ValueIdx.contrEquiv1 dot_S2000x256_S256x256_S2000x256_1_0_0_1_n_n 256 rfl rfl).symm k) = ix2 p k := funext fun a => Fin.ext (by
    match a with
    | ⟨0, _⟩ => exact left_row _ _
    | ⟨1, _⟩ => exact (left_col _ _).trans hk)
  have er : dot_S2000x256_S256x256_S2000x256_1_0_0_1_n_n.rhsIdx (ix2 p q) ((ValueIdx.contrEquiv1 dot_S2000x256_S256x256_S2000x256_1_0_0_1_n_n 256 rfl rfl).symm k) = ix2 k q := funext fun a => Fin.ext (by
    match a with
    | ⟨0, _⟩ => exact (right_row _ _).trans hk
    | ⟨1, _⟩ => exact right_col _ _)
  rw [el, er]

/-- The bias row broadcast over the block's rows, at entry (p, q): the bias at column q. -/
theorem bias_apply (b : FVec Ideal S1x256 .f32) (p : Fin 2000) (q : Fin 256) :
    broadcastTo S2000x256 b broadcasts_S1x256_S2000x256 (ix2 p q) = b (ix2 0 q) :=
  broadcastTo_1b_ab_apply b broadcasts_S1x256_S2000x256 p q

/-- The body's arithmetic over any five operands, at entry (p, q): the two products summed, the bias row added, and
    the result rectified against the real 0. The additions, the maximum and the last change of format act entry by
    entry; the zero word of the rectifier is the real 0. -/
theorem rectified_apply (l1 l2 : FVec Ideal S2000x256 .bf16) (r1 r2 : FVec Ideal S256x256 .bf16)
    (c : FVec Ideal S1x256 .f32) (p : Fin 2000) (q : Fin 256) :
    truncf .bf16 (maximumf (addf (addf
        (matmul dot_S2000x256_S256x256_S2000x256_1_0_0_1_n_n none l1 r1 (constant (F := Ideal) S2000x256 .f32 0x00000000#32))
        (matmul dot_S2000x256_S256x256_S2000x256_1_0_0_1_n_n none l2 r2 (constant (F := Ideal) S2000x256 .f32 0x00000000#32)))
        (broadcastTo S2000x256 c broadcasts_S1x256_S2000x256))
        (broadcast S2000x256 (Scalar.ofBits (F := Ideal) .f32 0x00000000#32))) bitsLt_bf16_f32 (ix2 p q)
      = max (((∑ k : Fin 256, l1 (ix2 p k) * r1 (ix2 k q)) + (∑ k : Fin 256, l2 (ix2 p k) * r2 (ix2 k q)))
          + c (ix2 0 q)) 0 :=
  congrArg₂ max
    (congrArg₂ (· + ·) (congrArg₂ (· + ·) (product_apply l1 r1 p q) (product_apply l2 r2 p q)) (bias_apply c p q))
    Ideal.ofBits_zero_f32

/-- The body's stored value at entry (p, q) of the block is `entry` of the block's loads: the body is the rectified
    sum above applied to the loads after casts to their own shapes, which change nothing, and a narrowing of the
    aggregated block's format, which is the identity on the ideal values. -/
theorem pay_apply (a : Vec Ideal S2000x256 .f32) (x : Vec Ideal S2000x256 .bf16) (wl wr : Vec Ideal S256x256 .bf16)
    (b : Vec Ideal S1x256 .f32) (p : Fin 2000) (q : Fin 256) :
    k0_pay1 (F := Ideal) a x wl wr b (ix2 p q)
      = entry (fun r k => a (ix2 r k)) (fun r k => x (ix2 r k)) (fun k c => wl (ix2 k c)) (fun k c => wr (ix2 k c))
          (fun c => b (ix2 0 c)) p q := by
  unfold k0_pay1
  refine (rectified_apply _ _ _ _ _ p q).trans ?_
  unfold entry
  simp only [shapeCast_self]
  rfl

/-- One layer over whole arrays: entry (r, q) of its output from the aggregated array, the feature array, the two
    weight matrices and the bias row. The same `entry` as for one block, over all 100000 rows. -/
def layer (agg : Vec Ideal S100000x256 .f32) (x : Vec Ideal S100000x256 .bf16) (wl wr : Vec Ideal S256x256 .bf16)
    (b : Vec Ideal S1x256 .f32) : Vec Ideal S100000x256 .bf16 := fun i =>
  entry (fun r k => agg (ix2 r k)) (fun r k => x (ix2 r k)) (fun k q => wl (ix2 k q)) (fun k q => wr (ix2 k q))
    (fun q => b (ix2 0 q)) (i 0) (i 1)

/-- The second and third layers' bodies are the first's. -/
theorem pay1_eq : k1_pay1 (F := Ideal) = k0_pay1 := rfl
theorem pay2_eq : k2_pay1 (F := Ideal) = k0_pay1 := rfl

/-- The reading of the body at entry (p, q), once per layer: the three bodies are one text, so each is `pay_apply`. -/
theorem pay0_apply (a : Vec Ideal S2000x256 .f32) (x : Vec Ideal S2000x256 .bf16) (wl wr : Vec Ideal S256x256 .bf16)
    (b : Vec Ideal S1x256 .f32) (p : Fin 2000) (q : Fin 256) :
    k0_pay1 (F := Ideal) a x wl wr b (ix2 p q)
      = entry (fun r k => a (ix2 r k)) (fun r k => x (ix2 r k)) (fun k c => wl (ix2 k c)) (fun k c => wr (ix2 k c))
          (fun c => b (ix2 0 c)) p q := pay_apply a x wl wr b p q
theorem pay1_apply (a : Vec Ideal S2000x256 .f32) (x : Vec Ideal S2000x256 .bf16) (wl wr : Vec Ideal S256x256 .bf16)
    (b : Vec Ideal S1x256 .f32) (p : Fin 2000) (q : Fin 256) :
    k1_pay1 (F := Ideal) a x wl wr b (ix2 p q)
      = entry (fun r k => a (ix2 r k)) (fun r k => x (ix2 r k)) (fun k c => wl (ix2 k c)) (fun k c => wr (ix2 k c))
          (fun c => b (ix2 0 c)) p q := pay_apply a x wl wr b p q
theorem pay2_apply (a : Vec Ideal S2000x256 .f32) (x : Vec Ideal S2000x256 .bf16) (wl wr : Vec Ideal S256x256 .bf16)
    (b : Vec Ideal S1x256 .f32) (p : Fin 2000) (q : Fin 256) :
    k2_pay1 (F := Ideal) a x wl wr b (ix2 p q)
      = entry (fun r k => a (ix2 r k)) (fun r k => x (ix2 r k)) (fun k c => wl (ix2 k c)) (fun k c => wr (ix2 k c))
          (fun c => b (ix2 0 c)) p q := pay_apply a x wl wr b p q

end Cert.KernelIdeal.SageValue

end
-- ==== Proof.SageRegion0.lean ====
/-
  This layer's output array. The region runs the layer's body at 50 grid points; point t loads rows
  2000·t … 2000·t + 1999 of the aggregated array and of the feature array, the whole of both weight matrices and of
  the bias row, and writes back rows 2000·t … 2000·t + 1999 of the output. The 50 row blocks tile the 100000 rows,
  so after the region the output array is the layer's function of the five arrays the region found, at every entry.

  In order: where each window's block sits at point t (block index (t, 0) for the three row-blocked arrays, (0, 0) for
  the weights and the bias); each input block read entry by entry as rows of its array; the body's stored value at
  entry (p, q) of point t's block as the layer's value at entry (2000·t + p, q); hence what point t writes back is
  point t's block of the layer's output; row r is written by point r / 2000, so every entry is written; the array.
-/
import proofs.«415851_j69784628626298_1_alg».proof.Proof.Gen.KernelIdeal.Frame
import proofs.«415851_j69784628626298_1_alg».proof.Proof.SageBlock

set_option maxRecDepth 16384

noncomputable section

namespace Cert.KernelIdeal.SageValue

open Idealize.ShloMosaic Idealize.ShloMosaic.TcCoe Idealize.SL.Sem Cert.KernelIdeal Cert.KernelIdeal.Gen ValueIdx
open Idealize.ShloMosaic.Pipeline (Dat)

-- the TensorCore's buffer contents when the region is entered (the parameter the generated region halves take)
variable (V : (c : Dev nD) → (b : Ref sig .tc) → Buf (Elt Ideal) ((c : Thread nD τ).loc b))

namespace Region0

/-- The offsets of a rectangle that starts at the first row and the first column are zero on both axes. -/
theorem zero_offsets : (![0, 0] : Fin 2 → Nat) = fun _ => 0 := funext fun a => by fin_cases a <;> rfl

/-- Where each window's block sits at point t: the output, the aggregated array and the feature array move down
    one row block per point and never sideways (block index (t, 0)); the two weight matrices and the bias row
    stay at block (0, 0), which is all of them. Fifty points, checked one by one. -/
theorem block_index : ∀ t : Fin cfg0.N,
    win0_5.index t (0 : Fin 2) = t.val ∧ win0_5.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The body makes one store, over the whole output block, of a value computed from whole-block loads: what it
    leaves in the output block is that value of the five input blocks. -/
theorem out_block (a : Vec Ideal S2000x256 .f32) (x : Vec Ideal S2000x256 .bf16) (wl wr : Vec Ideal S256x256 .bf16)
    (b : Vec Ideal S1x256 .f32) : out0_5 (F := Ideal) a x wl wr b = k0_pay1 (F := Ideal) a x wl wr b := by
  unfold out0_5
  rw [View.canon_unit_zero zero_offsets]
  simp only [View.ld_unit_zero (S := S2000x256) zero_offsets, View.ld_unit_zero (S := S256x256) zero_offsets,
    View.ld_unit_zero (S := S1x256) zero_offsets]

/-! ### Each block as rows of its array

An entry of a block sits in the array, on each axis, at the block index times the block's extent plus the entry's own
coordinate. With the block indices above: row p of point t's block is row 2000·t + p of a row-blocked array, columns
unchanged; an entry of a weight or bias block is the same entry of the array. -/

/-- Point t's block of the aggregated array: its entry (p, k) is the array's entry (2000·t + p, k). -/
theorem agg_block (A : Vec Ideal S100000x256 .f32) (t : Fin cfg0.N) (p : Fin 2000) (k : Fin 256) (r : Fin 100000)
    (hr : r.val = 2000 * t.val + p.val) :
    ((cfg0.win 0).blk t).view.read (Elt Ideal) A (ix2 p k) = A (ix2 r k) := by
  obtain ⟨-, -, e0, e1, -⟩ := block_index t
  show A (((cfg0.win 0).blk t).view.emb (ix2 p k)) = A (ix2 r k)
  refine congrArg A (funext fun a => Fin.ext ?_)
  match a with
  | ⟨0, _⟩ => show win0_0.index t (0 : Fin 2) * 2000 + 1 * p.val = r.val; omega
  | ⟨1, _⟩ => show win0_0.index t (1 : Fin 2) * 256 + 1 * k.val = k.val; omega

/-- Point t's block of the feature array: its entry (p, k) is the array's entry (2000·t + p, k). -/
theorem feat_block (A : Vec Ideal S100000x256 .bf16) (t : Fin cfg0.N) (p : Fin 2000) (k : Fin 256) (r : Fin 100000)
    (hr : r.val = 2000 * t.val + p.val) :
    ((cfg0.win 1).blk t).view.read (Elt Ideal) A (ix2 p k) = A (ix2 r k) := by
  obtain ⟨-, -, -, -, e0, e1, -⟩ := block_index t
  show A (((cfg0.win 1).blk t).view.emb (ix2 p k)) = A (ix2 r k)
  refine congrArg A (funext fun a => Fin.ext ?_)
  match a with
  | ⟨0, _⟩ => show win0_1.index t (0 : Fin 2) * 2000 + 1 * p.val = r.val; omega
  | ⟨1, _⟩ => show win0_1.index t (1 : Fin 2) * 256 + 1 * k.val = k.val; omega

/-- Every point's block of the left weights is the whole matrix. -/
theorem wl_block (A : Vec Ideal S256x256 .bf16) (t : Fin cfg0.N) (k q : Fin 256) :
    ((cfg0.win 2).blk t).view.read (Elt Ideal) A (ix2 k q) = A (ix2 k q) := by
  obtain ⟨-, -, -, -, -, -, e0, e1, -⟩ := block_index t
  show A (((cfg0.win 2).blk t).view.emb (ix2 k q)) = A (ix2 k q)
  refine congrArg A (funext fun a => Fin.ext ?_)
  match a with
  | ⟨0, _⟩ => show win0_2.index t (0 : Fin 2) * 256 + 1 * k.val = k.val; omega
  | ⟨1, _⟩ => show win0_2.index t (1 : Fin 2) * 256 + 1 * q.val = q.val; omega

/-- Every point's block of the right weights is the whole matrix. -/
theorem wr_block (A : Vec Ideal S256x256 .bf16) (t : Fin cfg0.N) (k q : Fin 256) :
    ((cfg0.win 3).blk t).view.read (Elt Ideal) A (ix2 k q) = A (ix2 k q) := by
  obtain ⟨-, -, -, -, -, -, -, -, e0, e1, -⟩ := block_index t
  show A (((cfg0.win 3).blk t).view.emb (ix2 k q)) = A (ix2 k q)
  refine congrArg A (funext fun a => Fin.ext ?_)
  match a with
  | ⟨0, _⟩ => show win0_3.index t (0 : Fin 2) * 256 + 1 * k.val = k.val; omega
  | ⟨1, _⟩ => show win0_3.index t (1 : Fin 2) * 256 + 1 * q.val = q.val; omega

/-- Every point's block of the bias is the whole row. -/
theorem bias_block (A : Vec Ideal S1x256 .f32) (t : Fin cfg0.N) (q : Fin 256) :
    ((cfg0.win 4).blk t).view.read (Elt Ideal) A (ix2 0 q) = A (ix2 0 q) := by
  obtain ⟨-, -, -, -, -, -, -, -, -, -, e0, e1⟩ := block_index t
  show A (((cfg0.win 4).blk t).view.emb (ix2 0 q)) = A (ix2 0 q)
  refine congrArg A (funext fun a => Fin.ext ?_)
  match a with
  | ⟨0, _⟩ => show win0_4.index t (0 : Fin 2) * 1 + 1 * (0 : Fin 1).val = (0 : Fin 1).val; omega
  | ⟨1, _⟩ => show win0_4.index t (1 : Fin 2) * 256 + 1 * q.val = q.val; omega

/-- Point t's block of an array of the output's shape: its entry (p, q) is the array's entry (2000·t + p, q). -/
theorem out_rows (G : Vec Ideal S100000x256 .bf16) (t : Fin cfg0.N) (p : Fin 2000) (q : Fin 256) (r : Fin 100000)
    (hr : r.val = 2000 * t.val + p.val) :
    ((cfg0.win 5).blk t).view.read (Elt Ideal) G (ix2 p q) = G (ix2 r q) := by
  obtain ⟨e0, e1, -⟩ := block_index t
  show G (((cfg0.win 5).blk t).view.emb (ix2 p q)) = G (ix2 r q)
  refine congrArg G (funext fun a => Fin.ext ?_)
  match a with
  | ⟨0, _⟩ => show win0_5.index t (0 : Fin 2) * 2000 + 1 * p.val = r.val; omega
  | ⟨1, _⟩ => show win0_5.index t (1 : Fin 2) * 256 + 1 * q.val = q.val; omega

/-- The body's value at entry (p, q) of a block whose row p of the two row-blocked loads is row r of the
    aggregated and of the feature array, and whose weight and bias loads are the whole matrices and the whole row,
    is the layer's value at entry (r, q): both are the same rectified sum, over the same row, columns and bias. -/
theorem block_entry (agg : Vec Ideal S100000x256 .f32) (x : Vec Ideal S100000x256 .bf16)
    (wl wr : Vec Ideal S256x256 .bf16) (b : Vec Ideal S1x256 .f32) (ab : Vec Ideal S2000x256 .f32)
    (xb : Vec Ideal S2000x256 .bf16) (wlb wrb : Vec Ideal S256x256 .bf16) (bb : Vec Ideal S1x256 .f32)
    (p : Fin 2000) (q : Fin 256) (r : Fin 100000)
    (ha : ∀ k : Fin 256, ab (ix2 p k) = agg (ix2 r k)) (hx : ∀ k : Fin 256, xb (ix2 p k) = x (ix2 r k))
    (hwl : ∀ k : Fin 256, wlb (ix2 k q) = wl (ix2 k q)) (hwr : ∀ k : Fin 256, wrb (ix2 k q) = wr (ix2 k q))
    (hb : bb (ix2 0 q) = b (ix2 0 q)) :
    k0_pay1 (F := Ideal) ab xb wlb wrb bb (ix2 p q) = layer agg x wl wr b (ix2 r q) := by
  rw [pay0_apply]
  show entry _ _ _ _ _ p q = entry _ _ _ _ _ r q
  unfold entry
  simp only [ha, hx, hwl, hwr, hb]

/-- The five arrays the region finds, each at its own shape and format: the aggregated array, the feature array,
    the left and right weight matrices, the bias row. -/
abbrev aggArr (c : Dev nD) : Vec Ideal S100000x256 .f32 := V c (Pipeline.arrRef spec0 0)
abbrev featArr (c : Dev nD) : Vec Ideal S100000x256 .bf16 := V c (Pipeline.arrRef spec0 1)
abbrev wlArr (c : Dev nD) : Vec Ideal S256x256 .bf16 := V c (Pipeline.arrRef spec0 2)
abbrev wrArr (c : Dev nD) : Vec Ideal S256x256 .bf16 := V c (Pipeline.arrRef spec0 3)
abbrev biasArr (c : Dev nD) : Vec Ideal S1x256 .f32 := V c (Pipeline.arrRef spec0 4)

/-- What point t writes back is point t's block, rows 2000·t … 2000·t + 1999, of the layer of the five arrays: at
    entry (p, q) the body's value of the point's input blocks is the layer's value at (2000·t + p, q), and that is
    entry (p, q) of the block. -/
theorem written_back (c : Dev nD) (t : Fin cfg0.N) :
    (dat0 (F := Ideal) V c).flushed 5 t
      = ((cfg0.win 5).blk t).view.read (Elt Ideal)
          (layer (aggArr V c) (featArr V c) (wlArr V c) (wrArr V c) (biasArr V c)) := by
  show (cfg0.win 5).cut (grid0.coords t) ((dat0 V c).after 5 t) = _
  rw [after0_5, out_block (iblk0 V c 0 t) (iblk0 V c 1 t) (iblk0 V c 2 t) (iblk0 V c 3 t) (iblk0 V c 4 t)]
  funext j
  obtain ⟨p, q, rfl⟩ : ∃ (p : Fin 2000) (q : Fin 256), j = ix2 p q := ⟨j 0, j 1, eq_ix2 j⟩
  have ht : t.val < 50 := lt_of_lt_of_eq t.isLt N_0
  have hr : 2000 * t.val + p.val < 100000 := by have := p.isLt; omega
  refine (block_entry (aggArr V c) (featArr V c) (wlArr V c) (wrArr V c) (biasArr V c)
    (iblk0 V c 0 t) (iblk0 V c 1 t) (iblk0 V c 2 t) (iblk0 V c 3 t) (iblk0 V c 4 t) p q ⟨2000 * t.val + p.val, hr⟩
    (fun k => agg_block (aggArr V c) t p k _ rfl) (fun k => feat_block (featArr V c) t p k _ rfl)
    (fun k => wl_block (wlArr V c) t k q) (fun k => wr_block (wrArr V c) t k q) (bias_block (biasArr V c) t q)).trans ?_
  exact (out_rows (layer (aggArr V c) (featArr V c) (wlArr V c) (wrArr V c) (biasArr V c)) t p q _ rfl).symm

/-- An entry of the output array lies in point t's block exactly when, on each axis, its coordinate is one of the
    block's: from the block index times the block's extent, for that extent. -/
theorem mem_row_block (t : Fin cfg0.N) (i : S100000x256.Idx) :
    i ∈ ((cfg0.win 5).blk t).view.set ↔ ∀ a : Fin 2, win0_5.index t a * S2000x256.size a ≤ (i a).val
      ∧ (i a).val < win0_5.index t a * S2000x256.size a + S2000x256.size a := by
  show i ∈ ((View.whole main_v73).slice (win0_5.rect t)).set ↔ _
  rw [View.set_slice_whole, Rect.mem_set_unit]
  exact Iff.rfl

/-- Row r of the output is written by point r / 2000: 2000·(r / 2000) ≤ r < 2000·(r / 2000) + 2000, and
    r / 2000 < 50 because r < 100000 = 50·2000. Every column is in every block. -/
theorem row_covered (i : S100000x256.Idx) :
    ∃ t : Fin cfg0.N, (cfg0.win 5).flush t = true ∧ i ∈ ((cfg0.win 5).blk t).view.set := by
  have hi0 : (i 0).val < 100000 := (i 0).isLt
  have hi1 : (i 1).val < 256 := (i 1).isLt
  obtain ⟨t, ht⟩ : ∃ t : Fin cfg0.N, t.val = (i 0).val / 2000 :=
    ⟨⟨(i 0).val / 2000, lt_of_lt_of_eq (by omega : (i 0).val / 2000 < 50) N_0.symm⟩, rfl⟩
  obtain ⟨e0, e1, -⟩ := block_index t
  refine ⟨t, flush0_5 t, ?_⟩
  rw [mem_row_block]
  intro a
  match a with
  | ⟨0, _⟩ =>
    show win0_5.index t (0 : Fin 2) * 2000 ≤ (i 0).val ∧ (i 0).val < win0_5.index t (0 : Fin 2) * 2000 + 2000
    omega
  | ⟨1, _⟩ =>
    show win0_5.index t (1 : Fin 2) * 256 ≤ (i 1).val ∧ (i 1).val < win0_5.index t (1 : Fin 2) * 256 + 256
    omega

end Region0

open Region0 in
/-- After the region its output array holds the layer of the five arrays the region found: every point writes back
    its block of that one array-wide function, and the points' blocks cover every entry. -/
theorem arrAt0 (c : Dev nD) :
    (dat0 (F := Ideal) V c).arrAt 5 cfg0.N
      = layer (V c (Pipeline.arrRef spec0 0)) (V c (Pipeline.arrRef spec0 1)) (V c (Pipeline.arrRef spec0 2))
          (V c (Pipeline.arrRef spec0 3)) (V c (Pipeline.arrRef spec0 4)) :=
  (dat0 V c).arrAt_eq_of_cover 5 (layer (aggArr V c) (featArr V c) (wlArr V c) (wrArr V c) (biasArr V c))
    (fun t _ => written_back V c t) row_covered

end Cert.KernelIdeal.SageValue

end
-- ==== Proof.SageRegion1.lean ====
/- This layer's output array. The region runs the layer's body at 50 grid points; point t loads rows
  2000·t … 2000·t + 1999 of the aggregated array and of the feature array, the whole of both weight matrices and of
  the bias row, and writes back rows 2000·t … 2000·t + 1999 of the output. The 50 row blocks tile the 100000 rows,
  so after the region the output array is the layer's function of the five arrays the region found, at every entry.

  In order: where each window's block sits at point t (block index (t, 0) for the three row-blocked arrays, (0, 0) for
  the weights and the bias); each input block read entry by entry as rows of its array; the body's stored value at
  entry (p, q) of point t's block as the layer's value at entry (2000·t + p, q); hence what point t writes back is
  point t's block of the layer's output; row r is written by point r / 2000, so every entry is written; the array.
-/
import proofs.«415851_j69784628626298_1_alg».proof.Proof.Gen.KernelIdeal.Frame
import proofs.«415851_j69784628626298_1_alg».proof.Proof.SageBlock

set_option maxRecDepth 16384

noncomputable section

namespace Cert.KernelIdeal.SageValue

open Idealize.ShloMosaic Idealize.ShloMosaic.TcCoe Idealize.SL.Sem Cert.KernelIdeal Cert.KernelIdeal.Gen ValueIdx
open Idealize.ShloMosaic.Pipeline (Dat)

-- the TensorCore's buffer contents when the region is entered (the parameter the generated region halves take)
variable (V : (c : Dev nD) → (b : Ref sig .tc) → Buf (Elt Ideal) ((c : Thread nD τ).loc b))

namespace Region1

/-- The offsets of a rectangle that starts at the first row and the first column are zero on both axes. -/
theorem zero_offsets : (![0, 0] : Fin 2 → Nat) = fun _ => 0 := funext fun a => by fin_cases a <;> rfl

/-- Where each window's block sits at point t: the output, the aggregated array and the feature array move down
    one row block per point and never sideways (block index (t, 0)); the two weight matrices and the bias row
    stay at block (0, 0), which is all of them. Fifty points, checked one by one. -/
theorem block_index : ∀ t : Fin cfg1.N,
    win1_5.index t (0 : Fin 2) = t.val ∧ win1_5.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- The body makes one store, over the whole output block, of a value computed from whole-block loads: what it
    leaves in the output block is that value of the five input blocks. -/
theorem out_block (a : Vec Ideal S2000x256 .f32) (x : Vec Ideal S2000x256 .bf16) (wl wr : Vec Ideal S256x256 .bf16)
    (b : Vec Ideal S1x256 .f32) : out1_5 (F := Ideal) a x wl wr b = k1_pay1 (F := Ideal) a x wl wr b := by
  unfold out1_5
  rw [View.canon_unit_zero zero_offsets]
  simp only [View.ld_unit_zero (S := S2000x256) zero_offsets, View.ld_unit_zero (S := S256x256) zero_offsets,
    View.ld_unit_zero (S := S1x256) zero_offsets]

/-! ### Each block as rows of its array

An entry of a block sits in the array, on each axis, at the block index times the block's extent plus the entry's own
coordinate. With the block indices above: row p of point t's block is row 2000·t + p of a row-blocked array, columns
unchanged; an entry of a weight or bias block is the same entry of the array. -/

/-- Point t's block of the aggregated array: its entry (p, k) is the array's entry (2000·t + p, k). -/
theorem agg_block (A : Vec Ideal S100000x256 .f32) (t : Fin cfg1.N) (p : Fin 2000) (k : Fin 256) (r : Fin 100000)
    (hr : r.val = 2000 * t.val + p.val) :
    ((cfg1.win 0).blk t).view.read (Elt Ideal) A (ix2 p k) = A (ix2 r k) := by
  obtain ⟨-, -, e0, e1, -⟩ := block_index t
  show A (((cfg1.win 0).blk t).view.emb (ix2 p k)) = A (ix2 r k)
  refine congrArg A (funext fun a => Fin.ext ?_)
  match a with
  | ⟨0, _⟩ => show win1_0.index t (0 : Fin 2) * 2000 + 1 * p.val = r.val; omega
  | ⟨1, _⟩ => show win1_0.index t (1 : Fin 2) * 256 + 1 * k.val = k.val; omega

/-- Point t's block of the feature array: its entry (p, k) is the array's entry (2000·t + p, k). -/
theorem feat_block (A : Vec Ideal S100000x256 .bf16) (t : Fin cfg1.N) (p : Fin 2000) (k : Fin 256) (r : Fin 100000)
    (hr : r.val = 2000 * t.val + p.val) :
    ((cfg1.win 1).blk t).view.read (Elt Ideal) A (ix2 p k) = A (ix2 r k) := by
  obtain ⟨-, -, -, -, e0, e1, -⟩ := block_index t
  show A (((cfg1.win 1).blk t).view.emb (ix2 p k)) = A (ix2 r k)
  refine congrArg A (funext fun a => Fin.ext ?_)
  match a with
  | ⟨0, _⟩ => show win1_1.index t (0 : Fin 2) * 2000 + 1 * p.val = r.val; omega
  | ⟨1, _⟩ => show win1_1.index t (1 : Fin 2) * 256 + 1 * k.val = k.val; omega

/-- Every point's block of the left weights is the whole matrix. -/
theorem wl_block (A : Vec Ideal S256x256 .bf16) (t : Fin cfg1.N) (k q : Fin 256) :
    ((cfg1.win 2).blk t).view.read (Elt Ideal) A (ix2 k q) = A (ix2 k q) := by
  obtain ⟨-, -, -, -, -, -, e0, e1, -⟩ := block_index t
  show A (((cfg1.win 2).blk t).view.emb (ix2 k q)) = A (ix2 k q)
  refine congrArg A (funext fun a => Fin.ext ?_)
  match a with
  | ⟨0, _⟩ => show win1_2.index t (0 : Fin 2) * 256 + 1 * k.val = k.val; omega
  | ⟨1, _⟩ => show win1_2.index t (1 : Fin 2) * 256 + 1 * q.val = q.val; omega

/-- Every point's block of the right weights is the whole matrix. -/
theorem wr_block (A : Vec Ideal S256x256 .bf16) (t : Fin cfg1.N) (k q : Fin 256) :
    ((cfg1.win 3).blk t).view.read (Elt Ideal) A (ix2 k q) = A (ix2 k q) := by
  obtain ⟨-, -, -, -, -, -, -, -, e0, e1, -⟩ := block_index t
  show A (((cfg1.win 3).blk t).view.emb (ix2 k q)) = A (ix2 k q)
  refine congrArg A (funext fun a => Fin.ext ?_)
  match a with
  | ⟨0, _⟩ => show win1_3.index t (0 : Fin 2) * 256 + 1 * k.val = k.val; omega
  | ⟨1, _⟩ => show win1_3.index t (1 : Fin 2) * 256 + 1 * q.val = q.val; omega

/-- Every point's block of the bias is the whole row. -/
theorem bias_block (A : Vec Ideal S1x256 .f32) (t : Fin cfg1.N) (q : Fin 256) :
    ((cfg1.win 4).blk t).view.read (Elt Ideal) A (ix2 0 q) = A (ix2 0 q) := by
  obtain ⟨-, -, -, -, -, -, -, -, -, -, e0, e1⟩ := block_index t
  show A (((cfg1.win 4).blk t).view.emb (ix2 0 q)) = A (ix2 0 q)
  refine congrArg A (funext fun a => Fin.ext ?_)
  match a with
  | ⟨0, _⟩ => show win1_4.index t (0 : Fin 2) * 1 + 1 * (0 : Fin 1).val = (0 : Fin 1).val; omega
  | ⟨1, _⟩ => show win1_4.index t (1 : Fin 2) * 256 + 1 * q.val = q.val; omega

/-- Point t's block of an array of the output's shape: its entry (p, q) is the array's entry (2000·t + p, q). -/
theorem out_rows (G : Vec Ideal S100000x256 .bf16) (t : Fin cfg1.N) (p : Fin 2000) (q : Fin 256) (r : Fin 100000)
    (hr : r.val = 2000 * t.val + p.val) :
    ((cfg1.win 5).blk t).view.read (Elt Ideal) G (ix2 p q) = G (ix2 r q) := by
  obtain ⟨e0, e1, -⟩ := block_index t
  show G (((cfg1.win 5).blk t).view.emb (ix2 p q)) = G (ix2 r q)
  refine congrArg G (funext fun a => Fin.ext ?_)
  match a with
  | ⟨0, _⟩ => show win1_5.index t (0 : Fin 2) * 2000 + 1 * p.val = r.val; omega
  | ⟨1, _⟩ => show win1_5.index t (1 : Fin 2) * 256 + 1 * q.val = q.val; omega

/-- The body's value at entry (p, q) of a block whose row p of the two row-blocked loads is row r of the
    aggregated and of the feature array, and whose weight and bias loads are the whole matrices and the whole row,
    is the layer's value at entry (r, q): both are the same rectified sum, over the same row, columns and bias. -/
theorem block_entry (agg : Vec Ideal S100000x256 .f32) (x : Vec Ideal S100000x256 .bf16)
    (wl wr : Vec Ideal S256x256 .bf16) (b : Vec Ideal S1x256 .f32) (ab : Vec Ideal S2000x256 .f32)
    (xb : Vec Ideal S2000x256 .bf16) (wlb wrb : Vec Ideal S256x256 .bf16) (bb : Vec Ideal S1x256 .f32)
    (p : Fin 2000) (q : Fin 256) (r : Fin 100000)
    (ha : ∀ k : Fin 256, ab (ix2 p k) = agg (ix2 r k)) (hx : ∀ k : Fin 256, xb (ix2 p k) = x (ix2 r k))
    (hwl : ∀ k : Fin 256, wlb (ix2 k q) = wl (ix2 k q)) (hwr : ∀ k : Fin 256, wrb (ix2 k q) = wr (ix2 k q))
    (hb : bb (ix2 0 q) = b (ix2 0 q)) :
    k1_pay1 (F := Ideal) ab xb wlb wrb bb (ix2 p q) = layer agg x wl wr b (ix2 r q) := by
  rw [pay1_apply]
  show entry _ _ _ _ _ p q = entry _ _ _ _ _ r q
  unfold entry
  simp only [ha, hx, hwl, hwr, hb]

/-- The five arrays the region finds, each at its own shape and format: the aggregated array, the feature array,
    the left and right weight matrices, the bias row. -/
abbrev aggArr (c : Dev nD) : Vec Ideal S100000x256 .f32 := V c (Pipeline.arrRef spec1 0)
abbrev featArr (c : Dev nD) : Vec Ideal S100000x256 .bf16 := V c (Pipeline.arrRef spec1 1)
abbrev wlArr (c : Dev nD) : Vec Ideal S256x256 .bf16 := V c (Pipeline.arrRef spec1 2)
abbrev wrArr (c : Dev nD) : Vec Ideal S256x256 .bf16 := V c (Pipeline.arrRef spec1 3)
abbrev biasArr (c : Dev nD) : Vec Ideal S1x256 .f32 := V c (Pipeline.arrRef spec1 4)

/-- What point t writes back is point t's block, rows 2000·t … 2000·t + 1999, of the layer of the five arrays: at
    entry (p, q) the body's value of the point's input blocks is the layer's value at (2000·t + p, q), and that is
    entry (p, q) of the block. -/
theorem written_back (c : Dev nD) (t : Fin cfg1.N) :
    (dat1 (F := Ideal) V c).flushed 5 t
      = ((cfg1.win 5).blk t).view.read (Elt Ideal)
          (layer (aggArr V c) (featArr V c) (wlArr V c) (wrArr V c) (biasArr V c)) := by
  show (cfg1.win 5).cut (grid1.coords t) ((dat1 V c).after 5 t) = _
  rw [after1_5, out_block (iblk1 V c 0 t) (iblk1 V c 1 t) (iblk1 V c 2 t) (iblk1 V c 3 t) (iblk1 V c 4 t)]
  funext j
  obtain ⟨p, q, rfl⟩ : ∃ (p : Fin 2000) (q : Fin 256), j = ix2 p q := ⟨j 0, j 1, eq_ix2 j⟩
  have ht : t.val < 50 := lt_of_lt_of_eq t.isLt N_1
  have hr : 2000 * t.val + p.val < 100000 := by have := p.isLt; omega
  refine (block_entry (aggArr V c) (featArr V c) (wlArr V c) (wrArr V c) (biasArr V c)
    (iblk1 V c 0 t) (iblk1 V c 1 t) (iblk1 V c 2 t) (iblk1 V c 3 t) (iblk1 V c 4 t) p q ⟨2000 * t.val + p.val, hr⟩
    (fun k => agg_block (aggArr V c) t p k _ rfl) (fun k => feat_block (featArr V c) t p k _ rfl)
    (fun k => wl_block (wlArr V c) t k q) (fun k => wr_block (wrArr V c) t k q) (bias_block (biasArr V c) t q)).trans ?_
  exact (out_rows (layer (aggArr V c) (featArr V c) (wlArr V c) (wrArr V c) (biasArr V c)) t p q _ rfl).symm

/-- An entry of the output array lies in point t's block exactly when, on each axis, its coordinate is one of the
    block's: from the block index times the block's extent, for that extent. -/
theorem mem_row_block (t : Fin cfg1.N) (i : S100000x256.Idx) :
    i ∈ ((cfg1.win 5).blk t).view.set ↔ ∀ a : Fin 2, win1_5.index t a * S2000x256.size a ≤ (i a).val
      ∧ (i a).val < win1_5.index t a * S2000x256.size a + S2000x256.size a := by
  show i ∈ ((View.whole main_v94).slice (win1_5.rect t)).set ↔ _
  rw [View.set_slice_whole, Rect.mem_set_unit]
  exact Iff.rfl

/-- Row r of the output is written by point r / 2000: 2000·(r / 2000) ≤ r < 2000·(r / 2000) + 2000, and
    r / 2000 < 50 because r < 100000 = 50·2000. Every column is in every block. -/
theorem row_covered (i : S100000x256.Idx) :
    ∃ t : Fin cfg1.N, (cfg1.win 5).flush t = true ∧ i ∈ ((cfg1.win 5).blk t).view.set := by
  have hi0 : (i 0).val < 100000 := (i 0).isLt
  have hi1 : (i 1).val < 256 := (i 1).isLt
  obtain ⟨t, ht⟩ : ∃ t : Fin cfg1.N, t.val = (i 0).val / 2000 :=
    ⟨⟨(i 0).val / 2000, lt_of_lt_of_eq (by omega : (i 0).val / 2000 < 50) N_1.symm⟩, rfl⟩
  obtain ⟨e0, e1, -⟩ := block_index t
  refine ⟨t, flush1_5 t, ?_⟩
  rw [mem_row_block]
  intro a
  match a with
  | ⟨0, _⟩ =>
    show win1_5.index t (0 : Fin 2) * 2000 ≤ (i 0).val ∧ (i 0).val < win1_5.index t (0 : Fin 2) * 2000 + 2000
    omega
  | ⟨1, _⟩ =>
    show win1_5.index t (1 : Fin 2) * 256 ≤ (i 1).val ∧ (i 1).val < win1_5.index t (1 : Fin 2) * 256 + 256
    omega

end Region1

open Region1 in
/-- After the region its output array holds the layer of the five arrays the region found: every point writes back
    its block of that one array-wide function, and the points' blocks cover every entry. -/
theorem arrAt1 (c : Dev nD) :
    (dat1 (F := Ideal) V c).arrAt 5 cfg1.N
      = layer (V c (Pipeline.arrRef spec1 0)) (V c (Pipeline.arrRef spec1 1)) (V c (Pipeline.arrRef spec1 2))
          (V c (Pipeline.arrRef spec1 3)) (V c (Pipeline.arrRef spec1 4)) :=
  (dat1 V c).arrAt_eq_of_cover 5 (layer (aggArr V c) (featArr V c) (wlArr V c) (wrArr V c) (biasArr V c))
    (fun t _ => written_back V c t) row_covered

end Cert.KernelIdeal.SageValue

end
-- ==== Proof.SageRegion2.lean ====
/- This layer's output array. The region runs the layer's body at 50 grid points; point t loads rows
  2000·t … 2000·t + 1999 of the aggregated array and of the feature array, the whole of both weight matrices and of
  the bias row, and writes back rows 2000·t … 2000·t + 1999 of the output. The 50 row blocks tile the 100000 rows,
  so after the region the output array is the layer's function of the five arrays the region found, at every entry.

  In order: where each window's block sits at point t (block index (t, 0) for the three row-blocked arrays, (0, 0) for
  the weights and the bias); each input block read entry by entry as rows of its array; the body's stored value at
  entry (p, q) of point t's block as the layer's value at entry (2000·t + p, q); hence what point t writes back is
  point t's block of the layer's output; row r is written by point r / 2000, so every entry is written; the array.
-/
import proofs.«415851_j69784628626298_1_alg».proof.Proof.Gen.KernelIdeal.Frame
import proofs.«415851_j69784628626298_1_alg».proof.Proof.SageBlock

set_option maxRecDepth 16384

noncomputable section

namespace Cert.KernelIdeal.SageValue

open Idealize.ShloMosaic Idealize.ShloMosaic.TcCoe Idealize.SL.Sem Cert.KernelIdeal Cert.KernelIdeal.Gen ValueIdx
open Idealize.ShloMosaic.Pipeline (Dat)

-- the TensorCore's buffer contents when the region is entered (the parameter the generated region halves take)
variable (V : (c : Dev nD) → (b : Ref sig .tc) → Buf (Elt Ideal) ((c : Thread nD τ).loc b))

namespace Region2

/-- The offsets of a rectangle that starts at the first row and the first column are zero on both axes. -/
theorem zero_offsets : (![0, 0] : Fin 2 → Nat) = fun _ => 0 := funext fun a => by fin_cases a <;> rfl

/-- Where each window's block sits at point t: the output, the aggregated array and the feature array move down
    one row block per point and never sideways (block index (t, 0)); the two weight matrices and the bias row
    stay at block (0, 0), which is all of them. Fifty points, checked one by one. -/
theorem block_index : ∀ t : Fin cfg2.N,
    win2_5.index t (0 : Fin 2) = t.val ∧ win2_5.index t (1 : Fin 2) = 0
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- The body makes one store, over the whole output block, of a value computed from whole-block loads: what it
    leaves in the output block is that value of the five input blocks. -/
theorem out_block (a : Vec Ideal S2000x256 .f32) (x : Vec Ideal S2000x256 .bf16) (wl wr : Vec Ideal S256x256 .bf16)
    (b : Vec Ideal S1x256 .f32) : out2_5 (F := Ideal) a x wl wr b = k2_pay1 (F := Ideal) a x wl wr b := by
  unfold out2_5
  rw [View.canon_unit_zero zero_offsets]
  simp only [View.ld_unit_zero (S := S2000x256) zero_offsets, View.ld_unit_zero (S := S256x256) zero_offsets,
    View.ld_unit_zero (S := S1x256) zero_offsets]

/-! ### Each block as rows of its array

An entry of a block sits in the array, on each axis, at the block index times the block's extent plus the entry's own
coordinate. With the block indices above: row p of point t's block is row 2000·t + p of a row-blocked array, columns
unchanged; an entry of a weight or bias block is the same entry of the array. -/

/-- Point t's block of the aggregated array: its entry (p, k) is the array's entry (2000·t + p, k). -/
theorem agg_block (A : Vec Ideal S100000x256 .f32) (t : Fin cfg2.N) (p : Fin 2000) (k : Fin 256) (r : Fin 100000)
    (hr : r.val = 2000 * t.val + p.val) :
    ((cfg2.win 0).blk t).view.read (Elt Ideal) A (ix2 p k) = A (ix2 r k) := by
  obtain ⟨-, -, e0, e1, -⟩ := block_index t
  show A (((cfg2.win 0).blk t).view.emb (ix2 p k)) = A (ix2 r k)
  refine congrArg A (funext fun a => Fin.ext ?_)
  match a with
  | ⟨0, _⟩ => show win2_0.index t (0 : Fin 2) * 2000 + 1 * p.val = r.val; omega
  | ⟨1, _⟩ => show win2_0.index t (1 : Fin 2) * 256 + 1 * k.val = k.val; omega

/-- Point t's block of the feature array: its entry (p, k) is the array's entry (2000·t + p, k). -/
theorem feat_block (A : Vec Ideal S100000x256 .bf16) (t : Fin cfg2.N) (p : Fin 2000) (k : Fin 256) (r : Fin 100000)
    (hr : r.val = 2000 * t.val + p.val) :
    ((cfg2.win 1).blk t).view.read (Elt Ideal) A (ix2 p k) = A (ix2 r k) := by
  obtain ⟨-, -, -, -, e0, e1, -⟩ := block_index t
  show A (((cfg2.win 1).blk t).view.emb (ix2 p k)) = A (ix2 r k)
  refine congrArg A (funext fun a => Fin.ext ?_)
  match a with
  | ⟨0, _⟩ => show win2_1.index t (0 : Fin 2) * 2000 + 1 * p.val = r.val; omega
  | ⟨1, _⟩ => show win2_1.index t (1 : Fin 2) * 256 + 1 * k.val = k.val; omega

/-- Every point's block of the left weights is the whole matrix. -/
theorem wl_block (A : Vec Ideal S256x256 .bf16) (t : Fin cfg2.N) (k q : Fin 256) :
    ((cfg2.win 2).blk t).view.read (Elt Ideal) A (ix2 k q) = A (ix2 k q) := by
  obtain ⟨-, -, -, -, -, -, e0, e1, -⟩ := block_index t
  show A (((cfg2.win 2).blk t).view.emb (ix2 k q)) = A (ix2 k q)
  refine congrArg A (funext fun a => Fin.ext ?_)
  match a with
  | ⟨0, _⟩ => show win2_2.index t (0 : Fin 2) * 256 + 1 * k.val = k.val; omega
  | ⟨1, _⟩ => show win2_2.index t (1 : Fin 2) * 256 + 1 * q.val = q.val; omega

/-- Every point's block of the right weights is the whole matrix. -/
theorem wr_block (A : Vec Ideal S256x256 .bf16) (t : Fin cfg2.N) (k q : Fin 256) :
    ((cfg2.win 3).blk t).view.read (Elt Ideal) A (ix2 k q) = A (ix2 k q) := by
  obtain ⟨-, -, -, -, -, -, -, -, e0, e1, -⟩ := block_index t
  show A (((cfg2.win 3).blk t).view.emb (ix2 k q)) = A (ix2 k q)
  refine congrArg A (funext fun a => Fin.ext ?_)
  match a with
  | ⟨0, _⟩ => show win2_3.index t (0 : Fin 2) * 256 + 1 * k.val = k.val; omega
  | ⟨1, _⟩ => show win2_3.index t (1 : Fin 2) * 256 + 1 * q.val = q.val; omega

/-- Every point's block of the bias is the whole row. -/
theorem bias_block (A : Vec Ideal S1x256 .f32) (t : Fin cfg2.N) (q : Fin 256) :
    ((cfg2.win 4).blk t).view.read (Elt Ideal) A (ix2 0 q) = A (ix2 0 q) := by
  obtain ⟨-, -, -, -, -, -, -, -, -, -, e0, e1⟩ := block_index t
  show A (((cfg2.win 4).blk t).view.emb (ix2 0 q)) = A (ix2 0 q)
  refine congrArg A (funext fun a => Fin.ext ?_)
  match a with
  | ⟨0, _⟩ => show win2_4.index t (0 : Fin 2) * 1 + 1 * (0 : Fin 1).val = (0 : Fin 1).val; omega
  | ⟨1, _⟩ => show win2_4.index t (1 : Fin 2) * 256 + 1 * q.val = q.val; omega

/-- Point t's block of an array of the output's shape: its entry (p, q) is the array's entry (2000·t + p, q). -/
theorem out_rows (G : Vec Ideal S100000x256 .bf16) (t : Fin cfg2.N) (p : Fin 2000) (q : Fin 256) (r : Fin 100000)
    (hr : r.val = 2000 * t.val + p.val) :
    ((cfg2.win 5).blk t).view.read (Elt Ideal) G (ix2 p q) = G (ix2 r q) := by
  obtain ⟨e0, e1, -⟩ := block_index t
  show G (((cfg2.win 5).blk t).view.emb (ix2 p q)) = G (ix2 r q)
  refine congrArg G (funext fun a => Fin.ext ?_)
  match a with
  | ⟨0, _⟩ => show win2_5.index t (0 : Fin 2) * 2000 + 1 * p.val = r.val; omega
  | ⟨1, _⟩ => show win2_5.index t (1 : Fin 2) * 256 + 1 * q.val = q.val; omega

/-- The body's value at entry (p, q) of a block whose row p of the two row-blocked loads is row r of the
    aggregated and of the feature array, and whose weight and bias loads are the whole matrices and the whole row,
    is the layer's value at entry (r, q): both are the same rectified sum, over the same row, columns and bias. -/
theorem block_entry (agg : Vec Ideal S100000x256 .f32) (x : Vec Ideal S100000x256 .bf16)
    (wl wr : Vec Ideal S256x256 .bf16) (b : Vec Ideal S1x256 .f32) (ab : Vec Ideal S2000x256 .f32)
    (xb : Vec Ideal S2000x256 .bf16) (wlb wrb : Vec Ideal S256x256 .bf16) (bb : Vec Ideal S1x256 .f32)
    (p : Fin 2000) (q : Fin 256) (r : Fin 100000)
    (ha : ∀ k : Fin 256, ab (ix2 p k) = agg (ix2 r k)) (hx : ∀ k : Fin 256, xb (ix2 p k) = x (ix2 r k))
    (hwl : ∀ k : Fin 256, wlb (ix2 k q) = wl (ix2 k q)) (hwr : ∀ k : Fin 256, wrb (ix2 k q) = wr (ix2 k q))
    (hb : bb (ix2 0 q) = b (ix2 0 q)) :
    k2_pay1 (F := Ideal) ab xb wlb wrb bb (ix2 p q) = layer agg x wl wr b (ix2 r q) := by
  rw [pay2_apply]
  show entry _ _ _ _ _ p q = entry _ _ _ _ _ r q
  unfold entry
  simp only [ha, hx, hwl, hwr, hb]

/-- The five arrays the region finds, each at its own shape and format: the aggregated array, the feature array,
    the left and right weight matrices, the bias row. -/
abbrev aggArr (c : Dev nD) : Vec Ideal S100000x256 .f32 := V c (Pipeline.arrRef spec2 0)
abbrev featArr (c : Dev nD) : Vec Ideal S100000x256 .bf16 := V c (Pipeline.arrRef spec2 1)
abbrev wlArr (c : Dev nD) : Vec Ideal S256x256 .bf16 := V c (Pipeline.arrRef spec2 2)
abbrev wrArr (c : Dev nD) : Vec Ideal S256x256 .bf16 := V c (Pipeline.arrRef spec2 3)
abbrev biasArr (c : Dev nD) : Vec Ideal S1x256 .f32 := V c (Pipeline.arrRef spec2 4)

/-- What point t writes back is point t's block, rows 2000·t … 2000·t + 1999, of the layer of the five arrays: at
    entry (p, q) the body's value of the point's input blocks is the layer's value at (2000·t + p, q), and that is
    entry (p, q) of the block. -/
theorem written_back (c : Dev nD) (t : Fin cfg2.N) :
    (dat2 (F := Ideal) V c).flushed 5 t
      = ((cfg2.win 5).blk t).view.read (Elt Ideal)
          (layer (aggArr V c) (featArr V c) (wlArr V c) (wrArr V c) (biasArr V c)) := by
  show (cfg2.win 5).cut (grid2.coords t) ((dat2 V c).after 5 t) = _
  rw [after2_5, out_block (iblk2 V c 0 t) (iblk2 V c 1 t) (iblk2 V c 2 t) (iblk2 V c 3 t) (iblk2 V c 4 t)]
  funext j
  obtain ⟨p, q, rfl⟩ : ∃ (p : Fin 2000) (q : Fin 256), j = ix2 p q := ⟨j 0, j 1, eq_ix2 j⟩
  have ht : t.val < 50 := lt_of_lt_of_eq t.isLt N_2
  have hr : 2000 * t.val + p.val < 100000 := by have := p.isLt; omega
  refine (block_entry (aggArr V c) (featArr V c) (wlArr V c) (wrArr V c) (biasArr V c)
    (iblk2 V c 0 t) (iblk2 V c 1 t) (iblk2 V c 2 t) (iblk2 V c 3 t) (iblk2 V c 4 t) p q ⟨2000 * t.val + p.val, hr⟩
    (fun k => agg_block (aggArr V c) t p k _ rfl) (fun k => feat_block (featArr V c) t p k _ rfl)
    (fun k => wl_block (wlArr V c) t k q) (fun k => wr_block (wrArr V c) t k q) (bias_block (biasArr V c) t q)).trans ?_
  exact (out_rows (layer (aggArr V c) (featArr V c) (wlArr V c) (wrArr V c) (biasArr V c)) t p q _ rfl).symm

/-- An entry of the output array lies in point t's block exactly when, on each axis, its coordinate is one of the
    block's: from the block index times the block's extent, for that extent. -/
theorem mem_row_block (t : Fin cfg2.N) (i : S100000x256.Idx) :
    i ∈ ((cfg2.win 5).blk t).view.set ↔ ∀ a : Fin 2, win2_5.index t a * S2000x256.size a ≤ (i a).val
      ∧ (i a).val < win2_5.index t a * S2000x256.size a + S2000x256.size a := by
  show i ∈ ((View.whole main_v115).slice (win2_5.rect t)).set ↔ _
  rw [View.set_slice_whole, Rect.mem_set_unit]
  exact Iff.rfl

/-- Row r of the output is written by point r / 2000: 2000·(r / 2000) ≤ r < 2000·(r / 2000) + 2000, and
    r / 2000 < 50 because r < 100000 = 50·2000. Every column is in every block. -/
theorem row_covered (i : S100000x256.Idx) :
    ∃ t : Fin cfg2.N, (cfg2.win 5).flush t = true ∧ i ∈ ((cfg2.win 5).blk t).view.set := by
  have hi0 : (i 0).val < 100000 := (i 0).isLt
  have hi1 : (i 1).val < 256 := (i 1).isLt
  obtain ⟨t, ht⟩ : ∃ t : Fin cfg2.N, t.val = (i 0).val / 2000 :=
    ⟨⟨(i 0).val / 2000, lt_of_lt_of_eq (by omega : (i 0).val / 2000 < 50) N_2.symm⟩, rfl⟩
  obtain ⟨e0, e1, -⟩ := block_index t
  refine ⟨t, flush2_5 t, ?_⟩
  rw [mem_row_block]
  intro a
  match a with
  | ⟨0, _⟩ =>
    show win2_5.index t (0 : Fin 2) * 2000 ≤ (i 0).val ∧ (i 0).val < win2_5.index t (0 : Fin 2) * 2000 + 2000
    omega
  | ⟨1, _⟩ =>
    show win2_5.index t (1 : Fin 2) * 256 ≤ (i 1).val ∧ (i 1).val < win2_5.index t (1 : Fin 2) * 256 + 256
    omega

end Region2

open Region2 in
/-- After the region its output array holds the layer of the five arrays the region found: every point writes back
    its block of that one array-wide function, and the points' blocks cover every entry. -/
theorem arrAt2 (c : Dev nD) :
    (dat2 (F := Ideal) V c).arrAt 5 cfg2.N
      = layer (V c (Pipeline.arrRef spec2 0)) (V c (Pipeline.arrRef spec2 1)) (V c (Pipeline.arrRef spec2 2))
          (V c (Pipeline.arrRef spec2 3)) (V c (Pipeline.arrRef spec2 4)) :=
  (dat2 V c).arrAt_eq_of_cover 5 (layer (aggArr V c) (featArr V c) (wlArr V c) (wrArr V c) (biasArr V c))
    (fun t _ => written_back V c t) row_covered

end Cert.KernelIdeal.SageValue

end
-- ==== Proof.HeadBlock.lean ====
/-
  What one block of the prediction holds. The head's body loads a 2000-row block of the last layer's features, the
  256 x 256 first weight matrix with its bias row, and the 256 x 1 second weight column with its bias, and stores

      max (x_block · W0 + b0, 0) · W1 + b1

  over the block's single column. Read at row p that is: for each hidden unit k, the rectified sum of row p against
  column k of W0 plus b0 at k; these 256 numbers against the column W1; plus b1. At the ideal values the change of
  float format on the hidden activations is the identity and a product into a zero accumulator is the plain sum.
-/
import proofs.«415851_j69784628626298_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.HeadValue

open Idealize.ShloMosaic Cert.KernelIdeal Cert.KernelIdeal.Gen ValueIdx

/-- The prediction at row p: `x` the features, `w0` / `b0` the hidden layer's weights and bias, `w1` / `b1` the output
    unit's. Stated over any number of rows `n`, so that one block and the whole array are the same function. -/
def headEntry {n : ℕ} (x : Fin n → Fin 256 → EReal) (w0 : Fin 256 → Fin 256 → EReal) (b0 : Fin 256 → EReal)
    (w1 : Fin 256 → EReal) (b1 : EReal) (p : Fin n) : EReal :=
  (∑ k : Fin 256, max ((∑ j : Fin 256, x p j * w0 j k) + b0 k) 0 * w1 k) + b1

/-! ### The hidden layer's product: a 2000 x 256 block against the 256 x 256 matrix

The product's dimension numbers contract the left operand's axis 1 with the right operand's axis 0. At output index
(r, c) and contraction coordinate j the left operand is read at (r, j) and the right at (j, c): one fact per operand
and per axis, then the sum over the contraction index is re-indexed by its single coordinate. -/

theorem hidden_lhs_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem hidden_lhs_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
theorem hidden_rhs_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
theorem hidden_rhs_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- Into a zero accumulator the product at (r, c) is the sum over j of x (r, j) · w (j, c). -/
theorem hidden_apply (x : FVec Ideal S2000x256 .bf16) (w : FVec Ideal S256x256 .bf16) (r : Fin 2000) (c : Fin 256) :
    matmul dot_S2000x256_S256x256_S2000x256_1_0_0_1_n_n none x w (constant S2000x256 .f32 0x00000000#32) (ix2 r c)
      = ∑ j : Fin 256, x (ix2 r j) * w (ix2 j c) := by
  simp only [matmul]
  rw [Ideal.matmul_constant_zero_apply, ← Equiv.sum_comp (ValueIdx.contrEquiv1 dot_S2000x256_S256x256_S2000x256_1_0_0_1_n_n 256 rfl rfl).symm]
  refine Finset.sum_congr rfl fun j _ => ?_
  have hj := ValueIdx.contrEquiv1_symm_val dot_S2000x256_S256x256_S2000x256_1_0_0_1_n_n 256 rfl rfl j
  have el : dot_S2000x256_S256x256_S2000x256_1_0_0_1_n_n.lhsIdx (ix2 r c) ((ValueIdx.contrEquiv1 dot_S2000x256_S256x256_S2000x256_1_0_0_1_n_n 256 rfl rfl).symm j) = ix2 r j := funext fun a => Fin.ext (by
    match a with
    | ⟨0, _⟩ => exact hidden_lhs_0 _ _
    | ⟨1, _⟩ => exact (hidden_lhs_1 _ _).trans hj)
  have er : dot_S2000x256_S256x256_S2000x256_1_0_0_1_n_n.rhsIdx (ix2 r c) ((ValueIdx.contrEquiv1 dot_S2000x256_S256x256_S2000x256_1_0_0_1_n_n 256 rfl rfl).symm j) = ix2 j c := funext fun a => Fin.ext (by
    match a with
    | ⟨0, _⟩ => exact (hidden_rhs_0 _ _).trans hj
    | ⟨1, _⟩ => exact hidden_rhs_1 _ _)
  rw [el, er]

/-! ### The output unit's product: the 2000 x 256 hidden block against the 256 x 1 column

The same dimension numbers over a right operand with a single column. -/

theorem unit_lhs_0 (i : S2000x1.Idx) (q : dot_S2000x256_S256x1_S2000x1_1_0_0_1_n_n.contr.Idx) :
    (dot_S2000x256_S256x1_S2000x1_1_0_0_1_n_n.lhsIdx i q 0).val = (i 0).val := by
  unfold DotDims.lhsIdx
  rw [dif_neg (show ¬(0 : Fin S2000x256.rank) ∈ dot_S2000x256_S256x1_S2000x1_1_0_0_1_n_n.lhsBatch by decide), dif_pos (show (0 : Fin S2000x256.rank) ∈ dot_S2000x256_S256x1_S2000x1_1_0_0_1_n_n.lhsNonContracting by decide)]
  rfl
theorem unit_lhs_1 (i : S2000x1.Idx) (q : dot_S2000x256_S256x1_S2000x1_1_0_0_1_n_n.contr.Idx) :
    (dot_S2000x256_S256x1_S2000x1_1_0_0_1_n_n.lhsIdx i q 1).val = (q ⟨0, by decide⟩).val :=
  dot_S2000x256_S256x1_S2000x1_1_0_0_1_n_n.lhsIdx_val_of_single rfl i q
theorem unit_rhs_0 (i : S2000x1.Idx) (q : dot_S2000x256_S256x1_S2000x1_1_0_0_1_n_n.contr.Idx) :
    (dot_S2000x256_S256x1_S2000x1_1_0_0_1_n_n.rhsIdx i q 0).val = (q ⟨0, by decide⟩).val :=
  dot_S2000x256_S256x1_S2000x1_1_0_0_1_n_n.rhsIdx_val_of_single rfl i q
theorem unit_rhs_1 (i : S2000x1.Idx) (q : dot_S2000x256_S256x1_S2000x1_1_0_0_1_n_n.contr.Idx) :
    (dot_S2000x256_S256x1_S2000x1_1_0_0_1_n_n.rhsIdx i q 1).val = (i 1).val := by
  unfold DotDims.rhsIdx
  rw [dif_neg (show ¬(1 : Fin S256x1.rank) ∈ dot_S2000x256_S256x1_S2000x1_1_0_0_1_n_n.rhsBatch by decide), dif_pos (show (1 : Fin S256x1.rank) ∈ dot_S2000x256_S256x1_S2000x1_1_0_0_1_n_n.rhsNonContracting by decide)]
  rfl

/-- Into a zero accumulator the product at (r, c) is the sum over k of h (r, k) · w (k, c). -/
theorem unit_apply (h : FVec Ideal S2000x256 .bf16) (w : FVec Ideal S256x1 .bf16) (r : Fin 2000) (c : Fin 1) :
    matmul dot_S2000x256_S256x1_S2000x1_1_0_0_1_n_n none h w (constant S2000x1 .f32 0x00000000#32) (ix2 r c)
      = ∑ k : Fin 256, h (ix2 r k) * w (ix2 k c) := by
  simp only [matmul]
  rw [Ideal.matmul_constant_zero_apply, ← Equiv.sum_comp (ValueIdx.contrEquiv1 dot_S2000x256_S256x1_S2000x1_1_0_0_1_n_n 256 rfl rfl).symm]
  refine Finset.sum_congr rfl fun k _ => ?_
  have hk := ValueIdx.contrEquiv1_symm_val dot_S2000x256_S256x1_S2000x1_1_0_0_1_n_n 256 rfl rfl k
  have el : dot_S2000x256_S256x1_S2000x1_1_0_0_1_n_n.lhsIdx (ix2 r c) ((ValueIdx.contrEquiv1 dot_S2000x256_S256x1_S2000x1_1_0_0_1_n_n 256 rfl rfl).symm k) = ix2 r k := funext fun a => Fin.ext (by
    match a with
    | ⟨0, _⟩ => exact unit_lhs_0 _ _
    | ⟨1, _⟩ => exact (unit_lhs_1 _ _).trans hk)
  have er : dot_S2000x256_S256x1_S2000x1_1_0_0_1_n_n.rhsIdx (ix2 r c) ((ValueIdx.contrEquiv1 dot_S2000x256_S256x1_S2000x1_1_0_0_1_n_n 256 rfl rfl).symm k) = ix2 k c := funext fun a => Fin.ext (by
    match a with
    | ⟨0, _⟩ => exact (unit_rhs_0 _ _).trans hk
    | ⟨1, _⟩ => exact unit_rhs_1 _ _)
  rw [el, er]

/-- The body's stored value at row p of the block is `headEntry` of the block's loads. -/
theorem headPay_apply (x : Vec Ideal S2000x256 .bf16) (w0 : Vec Ideal S256x256 .bf16) (b0 : Vec Ideal S1x256 .f32)
    (w1 : Vec Ideal S256x1 .bf16) (b1 : Vec Ideal S1x1 .f32) (p : Fin 2000) (q : Fin 1) :
    k3_pay1 (F := Ideal) x w0 b0 w1 b1 (ix2 p q)
      = headEntry (fun r j => x (ix2 r j)) (fun j k => w0 (ix2 j k)) (fun k => b0 (ix2 0 k)) (fun k => w1 (ix2 k 0))
          (b1 (ix2 0 0)) p := by
  obtain rfl : q = 0 := Subsingleton.elim _ _
  unfold k3_pay1 headEntry
  simp only [shapeCast_self]
  rw [addf_apply, unit_apply, broadcastTo_1b_ab_apply]
  refine congrArg (· + b1 (ix2 0 0)) (Finset.sum_congr rfl fun k _ => ?_)
  refine congrArg (· * w1 (ix2 k 0)) ?_
  rw [truncf_apply, maximumf_apply, addf_apply, hidden_apply, broadcastTo_1b_ab_apply, broadcast_apply]
  show max _ (Ideal.ofBits .f32 0x00000000#32) = _
  rw [Ideal.ofBits_zero_f32]

/-- The head over whole arrays: row r of the prediction from the feature array and the four parameter arrays. -/
def headLayer (x : Vec Ideal S100000x256 .bf16) (w0 : Vec Ideal S256x256 .bf16) (b0 : Vec Ideal S1x256 .f32)
    (w1 : Vec Ideal S256x1 .bf16) (b1 : Vec Ideal S1x1 .f32) : Vec Ideal S100000x1 .f32 := fun i =>
  headEntry (fun r j => x (ix2 r j)) (fun j k => w0 (ix2 j k)) (fun k => b0 (ix2 0 k)) (fun k => w1 (ix2 k 0))
    (b1 (ix2 0 0)) (i 0)

end Cert.KernelIdeal.HeadValue

end
-- ==== Proof.HeadRegion.lean ====
/-
  The prediction array. The last region runs the head's body at 50 grid points; point t loads rows
  2000·t … 2000·t + 1999 of the last layer's features and the whole of the four parameter arrays, and writes back rows
  2000·t … 2000·t + 1999 of the one-column prediction. The 50 row blocks tile the 100000 rows, so after the region the
  prediction array is the head's function of the five arrays the region found, at every row.

  The argument has three parts. (1) Each window's block read at a coordinate is its array read at block index × block
  size + that coordinate; the block indices are (t, 0) for the features and the prediction and (0, 0) for the
  parameters. (2) What point t writes back is the body's value on those blocks, which `headPay_apply` reads row by row
  as `headEntry`; since `headEntry` at a row sees only that row of the features, block row p of point t is array row
  2000·t + p of `headLayer`. (3) Row r lies in the block of point r / 2000, so every row is written.
-/
import proofs.«415851_j69784628626298_1_alg».proof.Proof.Gen.KernelIdeal.Frame
import proofs.«415851_j69784628626298_1_alg».proof.Proof.HeadBlock

set_option maxRecDepth 16384

noncomputable section

namespace Cert.KernelIdeal.HeadValue

open Idealize.ShloMosaic Idealize.ShloMosaic.TcCoe Idealize.SL.Sem Cert.KernelIdeal Cert.KernelIdeal.Gen ValueIdx
open Idealize.ShloMosaic.Pipeline (Dat)

-- the TensorCore's buffer contents when the region is entered (the parameter the generated region halves take)
variable (V : (c : Dev nD) → (b : Ref sig .tc) → Buf (Elt Ideal) ((c : Thread nD τ).loc b))

/-! ### The five arrays and their blocks, each at its own shape -/

/-- The last layer's features, 100000 rows of 256. -/
abbrev featArr (c : Dev nD) : Vec Ideal S100000x256 .bf16 := V c (Pipeline.arrRef spec3 0)
/-- The hidden layer's 256 x 256 weights. -/
abbrev w0Arr (c : Dev nD) : Vec Ideal S256x256 .bf16 := V c (Pipeline.arrRef spec3 1)
/-- The hidden layer's bias, one row of 256. -/
abbrev b0Arr (c : Dev nD) : Vec Ideal S1x256 .f32 := V c (Pipeline.arrRef spec3 2)
/-- The output unit's weights, one column of 256. -/
abbrev w1Arr (c : Dev nD) : Vec Ideal S256x1 .bf16 := V c (Pipeline.arrRef spec3 3)
/-- The output unit's bias, a single entry. -/
abbrev b1Arr (c : Dev nD) : Vec Ideal S1x1 .f32 := V c (Pipeline.arrRef spec3 4)

/-- The 2000 feature rows point t loads. -/
abbrev featBlk (c : Dev nD) (t : Fin cfg3.N) : Vec Ideal S2000x256 .bf16 := iblk3 V c 0 t
/-- The hidden weights as point t loads them. -/
abbrev w0Blk (c : Dev nD) (t : Fin cfg3.N) : Vec Ideal S256x256 .bf16 := iblk3 V c 1 t
/-- The hidden bias as point t loads it. -/
abbrev b0Blk (c : Dev nD) (t : Fin cfg3.N) : Vec Ideal S1x256 .f32 := iblk3 V c 2 t
/-- The output weights as point t loads them. -/
abbrev w1Blk (c : Dev nD) (t : Fin cfg3.N) : Vec Ideal S256x1 .bf16 := iblk3 V c 3 t
/-- The output bias as point t loads it. -/
abbrev b1Blk (c : Dev nD) (t : Fin cfg3.N) : Vec Ideal S1x1 .f32 := iblk3 V c 4 t

/-! ### Where the blocks sit -/

/-- Where each window's block sits, decided once over the 50 grid points: the feature window and the prediction window
    are at block (t, 0), the four parameter windows at block (0, 0). -/
theorem blockIndex3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Row r of point t's feature block is row 2000·t + r of the feature array (R names that row). -/
theorem featBlk_apply (c : Dev nD) (t : Fin cfg3.N) (r : Fin 2000) (j : Fin 256) (R : Fin 100000)
    (hR : R.val = t.val * 2000 + r.val) :
    featBlk V c t (ix2 r j) = featArr V c (ix2 R j) := by
  show featArr V c (((cfg3.win 0).blk t).view.emb (ix2 r j)) = featArr V c (ix2 R j)
  refine congrArg (featArr V c) (funext fun a => Fin.ext ?_)
  obtain ⟨e0, e1, -⟩ := blockIndex3 t
  match a with
  | ⟨0, _⟩ => show win3_0.index t (0 : Fin 2) * 2000 + 1 * r.val = R.val; omega
  | ⟨1, _⟩ => show win3_0.index t (1 : Fin 2) * 256 + 1 * j.val = j.val; omega

/-- Every point loads the whole of the hidden weights. -/
theorem w0Blk_apply (c : Dev nD) (t : Fin cfg3.N) (j : Fin 256) (k : Fin 256) :
    w0Blk V c t (ix2 j k) = w0Arr V c (ix2 j k) := by
  show w0Arr V c (((cfg3.win 1).blk t).view.emb (ix2 j k)) = w0Arr V c (ix2 j k)
  refine congrArg (w0Arr V c) (funext fun a => Fin.ext ?_)
  obtain ⟨-, -, e0, e1, -⟩ := blockIndex3 t
  match a with
  | ⟨0, _⟩ => show win3_1.index t (0 : Fin 2) * 256 + 1 * j.val = j.val; omega
  | ⟨1, _⟩ => show win3_1.index t (1 : Fin 2) * 256 + 1 * k.val = k.val; omega

/-- Every point loads the whole of the hidden bias. -/
theorem b0Blk_apply (c : Dev nD) (t : Fin cfg3.N) (z : Fin 1) (k : Fin 256) :
    b0Blk V c t (ix2 z k) = b0Arr V c (ix2 z k) := by
  show b0Arr V c (((cfg3.win 2).blk t).view.emb (ix2 z k)) = b0Arr V c (ix2 z k)
  refine congrArg (b0Arr V c) (funext fun a => Fin.ext ?_)
  obtain ⟨-, -, -, -, e0, e1, -⟩ := blockIndex3 t
  match a with
  | ⟨0, _⟩ => show win3_2.index t (0 : Fin 2) * 1 + 1 * z.val = z.val; omega
  | ⟨1, _⟩ => show win3_2.index t (1 : Fin 2) * 256 + 1 * k.val = k.val; omega

/-- Every point loads the whole of the output weights. -/
theorem w1Blk_apply (c : Dev nD) (t : Fin cfg3.N) (k : Fin 256) (z : Fin 1) :
    w1Blk V c t (ix2 k z) = w1Arr V c (ix2 k z) := by
  show w1Arr V c (((cfg3.win 3).blk t).view.emb (ix2 k z)) = w1Arr V c (ix2 k z)
  refine congrArg (w1Arr V c) (funext fun a => Fin.ext ?_)
  obtain ⟨-, -, -, -, -, -, e0, e1, -⟩ := blockIndex3 t
  match a with
  | ⟨0, _⟩ => show win3_3.index t (0 : Fin 2) * 256 + 1 * k.val = k.val; omega
  | ⟨1, _⟩ => show win3_3.index t (1 : Fin 2) * 1 + 1 * z.val = z.val; omega

/-- Every point loads the output bias. -/
theorem b1Blk_apply (c : Dev nD) (t : Fin cfg3.N) (y z : Fin 1) :
    b1Blk V c t (ix2 y z) = b1Arr V c (ix2 y z) := by
  show b1Arr V c (((cfg3.win 4).blk t).view.emb (ix2 y z)) = b1Arr V c (ix2 y z)
  refine congrArg (b1Arr V c) (funext fun a => Fin.ext ?_)
  obtain ⟨-, -, -, -, -, -, -, -, e0, e1, -⟩ := blockIndex3 t
  match a with
  | ⟨0, _⟩ => show win3_4.index t (0 : Fin 2) * 1 + 1 * y.val = y.val; omega
  | ⟨1, _⟩ => show win3_4.index t (1 : Fin 2) * 1 + 1 * z.val = z.val; omega

/-! ### What one point writes back -/

/-- The prediction at a row depends on the features through that row only, so two feature tables that agree on
    one row each, with entrywise equal parameters, give the same prediction at those rows. -/
theorem headEntry_congr {n m : ℕ} {x : Fin n → Fin 256 → EReal} {y : Fin m → Fin 256 → EReal}
    {w0 w0' : Fin 256 → Fin 256 → EReal} {b0 b0' : Fin 256 → EReal} {w1 w1' : Fin 256 → EReal} {b1 b1' : EReal}
    {p : Fin n} {P : Fin m} (hx : ∀ j, x p j = y P j) (hw0 : ∀ j k, w0 j k = w0' j k) (hb0 : ∀ k, b0 k = b0' k)
    (hw1 : ∀ k, w1 k = w1' k) (hb1 : b1 = b1') :
    headEntry x w0 b0 w1 b1 p = headEntry y w0' b0' w1' b1' P := by
  unfold headEntry
  simp only [hx, hw0, hb0, hw1, hb1]

/-- The body's loads and its store start at the corner of their buffers. -/
theorem zeroCorner : (![0, 0] : Fin 2 → Nat) = fun _ => 0 := funext fun a => by fin_cases a <;> rfl

/-- What point t writes back is block t of the head of the five arrays: the body stores its value over the whole
    output buffer; at block row p that value is `headEntry` of the loaded blocks at p, and the loaded blocks are the
    parameter arrays themselves and rows 2000·t … of the features, so it is `headLayer` at array row 2000·t + p. -/
theorem predBlock_eq (c : Dev nD) (t : Fin cfg3.N) :
    (dat3 (F := Ideal) V c).flushed 5 t
      = ((cfg3.win 5).blk t).view.read (Elt Ideal)
          (headLayer (featArr V c) (w0Arr V c) (b0Arr V c) (w1Arr V c) (b1Arr V c)) := by
  show (cfg3.win 5).cut (grid3.coords t) ((dat3 (F := Ideal) V c).after 5 t) = _
  rw [after3_5]
  unfold out3_5
  rw [View.canon_unit_zero zeroCorner]
  simp only [View.ld_unit_zero (S := S2000x256) zeroCorner, View.ld_unit_zero (S := S256x256) zeroCorner,
    View.ld_unit_zero (S := S1x256) zeroCorner, View.ld_unit_zero (S := S256x1) zeroCorner,
    View.ld_unit_zero (S := S1x1) zeroCorner]
  funext j
  obtain ⟨p, q, rfl⟩ : ∃ (p : Fin 2000) (q : Fin 1), j = ix2 p q := ⟨j 0, j 1, eq_ix2 j⟩
  refine (headPay_apply (featBlk V c t) (w0Blk V c t) (b0Blk V c t) (w1Blk V c t) (b1Blk V c t) p q).trans ?_
  show _ = headEntry (fun r j => featArr V c (ix2 r j)) (fun j k => w0Arr V c (ix2 j k)) (fun k => b0Arr V c (ix2 0 k))
      (fun k => w1Arr V c (ix2 k 0)) (b1Arr V c (ix2 0 0)) ((((cfg3.win 5).blk t).view.emb (ix2 p q)) 0)
  refine headEntry_congr (fun j => featBlk_apply V c t p j _ ?_) (fun j k => w0Blk_apply V c t j k)
    (fun k => b0Blk_apply V c t 0 k) (fun k => w1Blk_apply V c t k 0) (b1Blk_apply V c t 0 0)
  obtain ⟨-, -, -, -, -, -, -, -, -, -, e0, -⟩ := blockIndex3 t
  show win3_5.index t (0 : Fin 2) * 2000 + 1 * p.val = t.val * 2000 + p.val
  omega

/-! ### The blocks cover the array -/

/-- A row of the prediction is in point t's block iff each coordinate is in the block's range on its axis. -/
theorem mem_predBlock (t : Fin cfg3.N) (i : S100000x1.Idx) :
    i ∈ ((cfg3.win 5).blk t).view.set ↔ ∀ a : Fin 2, win3_5.index t a * S2000x1.size a ≤ (i a).val
      ∧ (i a).val < win3_5.index t a * S2000x1.size a + S2000x1.size a := by
  show i ∈ ((View.whole main_v120).slice (win3_5.rect t)).set ↔ _
  rw [View.set_slice_whole, Rect.mem_set_unit]
  exact Iff.rfl

/-- Row r is written by point r / 2000: 100000 = 50 · 2000, so that point exists, and r lies between
    2000·(r / 2000) and 2000·(r / 2000) + 1999. -/
theorem predRows_covered (i : S100000x1.Idx) :
    ∃ t : Fin cfg3.N, (cfg3.win 5).flush t = true ∧ i ∈ ((cfg3.win 5).blk t).view.set := by
  have hi0 : (i 0).val < 100000 := (i 0).isLt
  have hi1 : (i 1).val < 1 := (i 1).isLt
  have hN : cfg3.N = 50 := N_3
  have ht : (i 0).val / 2000 < cfg3.N := by omega
  obtain ⟨-, -, -, -, -, -, -, -, -, -, e0, e1⟩ := blockIndex3 ⟨(i 0).val / 2000, ht⟩
  have e0' : win3_5.index ⟨(i 0).val / 2000, ht⟩ (0 : Fin 2) = (i 0).val / 2000 := e0
  refine ⟨⟨(i 0).val / 2000, ht⟩, flush3_5 _, ?_⟩
  rw [mem_predBlock]
  intro a
  match a with
  | ⟨0, _⟩ =>
    show win3_5.index ⟨(i 0).val / 2000, ht⟩ (0 : Fin 2) * 2000 ≤ (i 0).val
      ∧ (i 0).val < win3_5.index ⟨(i 0).val / 2000, ht⟩ (0 : Fin 2) * 2000 + 2000
    omega
  | ⟨1, _⟩ =>
    show win3_5.index ⟨(i 0).val / 2000, ht⟩ (1 : Fin 2) * 1 ≤ (i 1).val
      ∧ (i 1).val < win3_5.index ⟨(i 0).val / 2000, ht⟩ (1 : Fin 2) * 1 + 1
    omega

/-! ### The array after the region -/

/-- After region 3 its output array holds the head of the five arrays the region found. -/
theorem arrAt3 (c : Dev nD) :
    (dat3 (F := Ideal) V c).arrAt 5 cfg3.N
      = headLayer (V c (Pipeline.arrRef spec3 0)) (V c (Pipeline.arrRef spec3 1)) (V c (Pipeline.arrRef spec3 2))
          (V c (Pipeline.arrRef spec3 3)) (V c (Pipeline.arrRef spec3 4)) :=
  (dat3 (F := Ideal) V c).arrAt_eq_of_cover 5
    (headLayer (featArr V c) (w0Arr V c) (b0Arr V c) (w1Arr V c) (b1Arr V c))
    (fun t _ => predBlock_eq V c t) predRows_covered

end Cert.KernelIdeal.HeadValue

end
-- ==== Proof.Law.lean ====
/-
  The one algebraic law this certificate needs. A SAGE layer adds three terms at every output entry: the product of
  the aggregated neighbours with the left weights, the product of the node features with the right weights, and the
  bias. The kernel adds the second product before the bias, the reference the bias before the second product. On
  the extended reals addition is commutative and associative at the infinities too, so the two orders agree with no
  finiteness assumption on any input.
-/
import Mathlib.Data.EReal.Basic

namespace Cert.SageLaw

/-- `(a + b) + c = (a + c) + b` on the extended reals: the bias `c` may be added before or after the second
    product `b`. -/
theorem add_bias_comm (a b c : EReal) : (a + b) + c = (a + c) + b := add_right_comm a b c

/-- The same under the layer's rectifier: `max ((a + b) + c) 0 = max ((a + c) + b) 0`. -/
theorem relu_add_bias_comm (a b c : EReal) : max ((a + b) + c) 0 = max ((a + c) + b) 0 := by
  rw [add_bias_comm]

end Cert.SageLaw
-- ==== Proof.LayerRef.lean ====
/-
  The reference's layers in the kernel's form. Each of the reference's three layers computes, from the neighbour mean
  `agg` and the features `x`,  max ((agg · Wl + bias) + x · Wr, 0);  the kernel's body computes
  max ((agg · Wl + x · Wr) + bias, 0). Read at an entry both are sums over the 256 shared coordinates plus the bias at
  the entry's column, and the two orders of adding the three terms agree on the extended reals. So the layer function
  the kernel's regions were shown to compute, applied to the reference's own intermediates, is the reference's next
  intermediate. The head is the same on both sides but for the layout of the two biases.
-/
import proofs.«415851_j69784628626298_1_alg».proof.Proof.Invariants
import proofs.«415851_j69784628626298_1_alg».proof.Proof.SageBlock
import proofs.«415851_j69784628626298_1_alg».proof.Proof.HeadBlock
import proofs.«415851_j69784628626298_1_alg».proof.Proof.Law

noncomputable section

namespace Cert.Bridge

open Idealize.ShloMosaic Idealize.ShloMosaic.TcCoe Idealize.SL.Sem Cert.KernelIdeal
open Cert.KernelIdeal.SageValue Cert.KernelIdeal.HeadValue

namespace LayerRef

open Idealize.ShloMosaic.ValueIdx Cert.ReferenceIdeal.Read

/-- A layer at entry (r, q) with the bias added before the second product, the order the reference adds in: the
    layer function adds the two products first, and on the extended reals the two orders agree. -/
theorem layer_apply (agg : Vec Ideal S100000x256 .f32) (x : Vec Ideal S100000x256 .bf16) (wl wr : Vec Ideal S256x256 .bf16)
    (b : Vec Ideal S1x256 .f32) (r : Fin 100000) (q : Fin 256) :
    layer agg x wl wr b (ix2 r q)
      = max (((∑ k : Fin 256, agg (ix2 r k) * wl (ix2 k q)) + b (ix2 0 q)) + (∑ k : Fin 256, x (ix2 r k) * wr (ix2 k q))) 0 :=
  Cert.SageLaw.relu_add_bias_comm _ _ _

/-! ### The first layer -/

/-- Row 0 of the bias matrix, cut out, flattened and laid out as a row again, holds at column q the matrix's entry
    (0, q). -/
theorem biasRow0_apply (x10 : (⟨S3x256, .f32⟩ : BufTy).Contents (Elt Ideal)) (q : Fin 256) :
    biasRow0 x10 (ix2 0 q) = x10 (ix2 0 q) := by
  unfold biasRow0
  refine (shapeCast_a_1a_apply _ _ 0 q).trans ?_
  refine (shapeCast_1a_a_apply _ _ q).trans ?_
  exact extractStridedSlice_apply ![0, 0] x10 _ (ix2 0 q) (ix2 0 q) (fun a => match a with
    | ⟨0, _⟩ => rfl
    | ⟨1, _⟩ => by show q.val = 0 + q.val; omega)

/-- The reference cuts out the same row, flattens it and broadcasts it over the 100000 rows: at entry (r, q) that is
    again the matrix's entry (0, q), whatever the row r. -/
theorem refBias0_apply (x10 : (⟨S3x256, .f32⟩ : BufTy).Contents (Elt Ideal)) (r : Fin 100000) (q : Fin 256) :
    val_main_v75 (F := Ideal) x10 (ix2 r q) = x10 (ix2 0 q) := by
  rw [val_main_v75_apply, val_main_v74_apply, val_main_v73_apply, val_main_v72_apply]
  refine congrArg x10 (funext fun a => Fin.ext ?_)
  match a with
  | ⟨0, _⟩ => rfl
  | ⟨1, _⟩ => exact Nat.mod_eq_of_lt q.isLt

/-- The first layer over the reference's own stages, as functions of any launch arrays: the layer function of the
    neighbour mean, the features, the two weight matrices and the bias row is the stage that rectifies the reference's
    sum. At entry (r, q) the reference's two products are the sums over the 256 shared coordinates, read at (r, k)
    and (k, q); its bias is the matrix's entry (0, q), as the row's is; its zero is the real 0; and the order in which
    the three terms are added does not matter. -/
theorem layer0_gen (x0 : (⟨S100000x17, .f32⟩ : BufTy).Contents (Elt Ideal)) (x2 : (⟨S4x128, .f32⟩ : BufTy).Contents (Elt Ideal)) (x4 : (⟨S17x128, .f32⟩ : BufTy).Contents (Elt Ideal)) (x5 : (⟨S128, .f32⟩ : BufTy).Contents (Elt Ideal)) (x6 : (⟨S17x128, .f32⟩ : BufTy).Contents (Elt Ideal)) (x7 : (⟨S128, .f32⟩ : BufTy).Contents (Elt Ideal)) (x8 : (⟨S17x128, .f32⟩ : BufTy).Contents (Elt Ideal)) (x9 : (⟨S3x256x256, .f32⟩ : BufTy).Contents (Elt Ideal)) (x10 : (⟨S3x256, .f32⟩ : BufTy).Contents (Elt Ideal)) (x11 : (⟨S3x256x256, .f32⟩ : BufTy).Contents (Elt Ideal)) (x16 : (⟨S100000, .i32⟩ : BufTy).Contents (Elt Ideal)) (x18 : (⟨S2x320000, .i32⟩ : BufTy).Contents (Elt Ideal)) :
    layer (val_main_v68 (F := Ideal) x0 x2 x4 x5 x6 x7 x8 x16 x18) (val_main_v45 (F := Ideal) x0 x2 x4 x5 x6 x7 x8 x16)
      (val_main_v70 (F := Ideal) x9) (val_main_v78 (F := Ideal) x11) (biasRow0 x10)
    = val_main_v81 (F := Ideal) x0 x2 x4 x5 x6 x7 x8 x9 x10 x11 x16 x18 := by
  funext i
  obtain ⟨r, q, rfl⟩ : ∃ (r : Fin 100000) (q : Fin 256), i = ix2 r q := ⟨i 0, i 1, eq_ix2 i⟩
  refine (layer_apply _ _ _ _ _ r q).trans ?_
  rw [val_main_v81_apply, val_main_v80_apply, val_main_v76_apply, val_main_v71_apply, val_main_v79_apply,
    refBias0_apply, val_main_call3_v0_apply, val_main_call3_cst_apply, biasRow0_apply]
  have el : ∀ k : Fin 256, lidx_main_v71 (ix2 r q) k = ix2 r k := fun k => funext fun a => Fin.ext (by match a with | ⟨0, _⟩ => rfl | ⟨1, _⟩ => rfl)
  have er : ∀ k : Fin 256, ridx_main_v71 (ix2 r q) k = ix2 k q := fun k => funext fun a => Fin.ext (by match a with | ⟨0, _⟩ => rfl | ⟨1, _⟩ => rfl)
  have el' : ∀ k : Fin 256, lidx_main_v79 (ix2 r q) k = ix2 r k := fun k => funext fun a => Fin.ext (by match a with | ⟨0, _⟩ => rfl | ⟨1, _⟩ => rfl)
  have er' : ∀ k : Fin 256, ridx_main_v79 (ix2 r q) k = ix2 k q := fun k => funext fun a => Fin.ext (by match a with | ⟨0, _⟩ => rfl | ⟨1, _⟩ => rfl)
  simp only [el, er, el', er']
  exact congrArg (max _) Ideal.ofBits_zero_f32.symm

/-! ### The second layer -/

/-- Row 1 of the bias matrix, cut out, flattened and laid out as a row again, holds at column q the matrix's entry
    (1, q). -/
theorem biasRow1_apply (x10 : (⟨S3x256, .f32⟩ : BufTy).Contents (Elt Ideal)) (q : Fin 256) :
    biasRow1 x10 (ix2 0 q) = x10 (ix2 1 q) := by
  unfold biasRow1
  refine (shapeCast_a_1a_apply _ _ 0 q).trans ?_
  refine (shapeCast_1a_a_apply _ _ q).trans ?_
  exact extractStridedSlice_apply ![1, 0] x10 _ (ix2 0 q) (ix2 1 q) (fun a => match a with
    | ⟨0, _⟩ => rfl
    | ⟨1, _⟩ => by show q.val = 0 + q.val; omega)

/-- The reference cuts out the same row, flattens it and broadcasts it over the 100000 rows: at entry (r, q) that is
    again the matrix's entry (1, q), whatever the row r. -/
theorem refBias1_apply (x10 : (⟨S3x256, .f32⟩ : BufTy).Contents (Elt Ideal)) (r : Fin 100000) (q : Fin 256) :
    val_main_v100 (F := Ideal) x10 (ix2 r q) = x10 (ix2 1 q) := by
  rw [val_main_v100_apply, val_main_v99_apply, val_main_v98_apply, val_main_v97_apply]
  refine congrArg x10 (funext fun a => Fin.ext ?_)
  match a with
  | ⟨0, _⟩ => rfl
  | ⟨1, _⟩ => exact Nat.mod_eq_of_lt q.isLt

/-- The second layer over the reference's own stages, as functions of any launch arrays: the layer function of the
    neighbour mean, the features, the two weight matrices and the bias row is the stage that rectifies the reference's
    sum. At entry (r, q) the reference's two products are the sums over the 256 shared coordinates, read at (r, k)
    and (k, q); its bias is the matrix's entry (1, q), as the row's is; its zero is the real 0; and the order in which
    the three terms are added does not matter. -/
theorem layer1_gen (x0 : (⟨S100000x17, .f32⟩ : BufTy).Contents (Elt Ideal)) (x2 : (⟨S4x128, .f32⟩ : BufTy).Contents (Elt Ideal)) (x4 : (⟨S17x128, .f32⟩ : BufTy).Contents (Elt Ideal)) (x5 : (⟨S128, .f32⟩ : BufTy).Contents (Elt Ideal)) (x6 : (⟨S17x128, .f32⟩ : BufTy).Contents (Elt Ideal)) (x7 : (⟨S128, .f32⟩ : BufTy).Contents (Elt Ideal)) (x8 : (⟨S17x128, .f32⟩ : BufTy).Contents (Elt Ideal)) (x9 : (⟨S3x256x256, .f32⟩ : BufTy).Contents (Elt Ideal)) (x10 : (⟨S3x256, .f32⟩ : BufTy).Contents (Elt Ideal)) (x11 : (⟨S3x256x256, .f32⟩ : BufTy).Contents (Elt Ideal)) (x16 : (⟨S100000, .i32⟩ : BufTy).Contents (Elt Ideal)) (x18 : (⟨S2x320000, .i32⟩ : BufTy).Contents (Elt Ideal)) :
    layer (val_main_v93 (F := Ideal) x0 x2 x4 x5 x6 x7 x8 x9 x10 x11 x16 x18) (val_main_v81 (F := Ideal) x0 x2 x4 x5 x6 x7 x8 x9 x10 x11 x16 x18)
      (val_main_v95 (F := Ideal) x9) (val_main_v103 (F := Ideal) x11) (biasRow1 x10)
    = val_main_v106 (F := Ideal) x0 x2 x4 x5 x6 x7 x8 x9 x10 x11 x16 x18 := by
  funext i
  obtain ⟨r, q, rfl⟩ : ∃ (r : Fin 100000) (q : Fin 256), i = ix2 r q := ⟨i 0, i 1, eq_ix2 i⟩
  refine (layer_apply _ _ _ _ _ r q).trans ?_
  rw [val_main_v106_apply, val_main_v105_apply, val_main_v101_apply, val_main_v96_apply, val_main_v104_apply,
    refBias1_apply, val_main_call4_v0_apply, val_main_call4_cst_apply, biasRow1_apply]
  have el : ∀ k : Fin 256, lidx_main_v96 (ix2 r q) k = ix2 r k := fun k => funext fun a => Fin.ext (by match a with | ⟨0, _⟩ => rfl | ⟨1, _⟩ => rfl)
  have er : ∀ k : Fin 256, ridx_main_v96 (ix2 r q) k = ix2 k q := fun k => funext fun a => Fin.ext (by match a with | ⟨0, _⟩ => rfl | ⟨1, _⟩ => rfl)
  have el' : ∀ k : Fin 256, lidx_main_v104 (ix2 r q) k = ix2 r k := fun k => funext fun a => Fin.ext (by match a with | ⟨0, _⟩ => rfl | ⟨1, _⟩ => rfl)
  have er' : ∀ k : Fin 256, ridx_main_v104 (ix2 r q) k = ix2 k q := fun k => funext fun a => Fin.ext (by match a with | ⟨0, _⟩ => rfl | ⟨1, _⟩ => rfl)
  simp only [el, er, el', er']
  exact congrArg (max _) Ideal.ofBits_zero_f32.symm

/-! ### The third layer -/

/-- Row 2 of the bias matrix, cut out, flattened and laid out as a row again, holds at column q the matrix's entry
    (2, q). -/
theorem biasRow2_apply (x10 : (⟨S3x256, .f32⟩ : BufTy).Contents (Elt Ideal)) (q : Fin 256) :
    biasRow2 x10 (ix2 0 q) = x10 (ix2 2 q) := by
  unfold biasRow2
  refine (shapeCast_a_1a_apply _ _ 0 q).trans ?_
  refine (shapeCast_1a_a_apply _ _ q).trans ?_
  exact extractStridedSlice_apply ![2, 0] x10 _ (ix2 0 q) (ix2 2 q) (fun a => match a with
    | ⟨0, _⟩ => rfl
    | ⟨1, _⟩ => by show q.val = 0 + q.val; omega)

/-- The reference cuts out the same row, flattens it and broadcasts it over the 100000 rows: at entry (r, q) that is
    again the matrix's entry (2, q), whatever the row r. -/
theorem refBias2_apply (x10 : (⟨S3x256, .f32⟩ : BufTy).Contents (Elt Ideal)) (r : Fin 100000) (q : Fin 256) :
    val_main_v125 (F := Ideal) x10 (ix2 r q) = x10 (ix2 2 q) := by
  rw [val_main_v125_apply, val_main_v124_apply, val_main_v123_apply, val_main_v122_apply]
  refine congrArg x10 (funext fun a => Fin.ext ?_)
  match a with
  | ⟨0, _⟩ => rfl
  | ⟨1, _⟩ => exact Nat.mod_eq_of_lt q.isLt

/-- The third layer over the reference's own stages, as functions of any launch arrays: the layer function of the
    neighbour mean, the features, the two weight matrices and the bias row is the stage that rectifies the reference's
    sum. At entry (r, q) the reference's two products are the sums over the 256 shared coordinates, read at (r, k)
    and (k, q); its bias is the matrix's entry (2, q), as the row's is; its zero is the real 0; and the order in which
    the three terms are added does not matter. -/
theorem layer2_gen (x0 : (⟨S100000x17, .f32⟩ : BufTy).Contents (Elt Ideal)) (x2 : (⟨S4x128, .f32⟩ : BufTy).Contents (Elt Ideal)) (x4 : (⟨S17x128, .f32⟩ : BufTy).Contents (Elt Ideal)) (x5 : (⟨S128, .f32⟩ : BufTy).Contents (Elt Ideal)) (x6 : (⟨S17x128, .f32⟩ : BufTy).Contents (Elt Ideal)) (x7 : (⟨S128, .f32⟩ : BufTy).Contents (Elt Ideal)) (x8 : (⟨S17x128, .f32⟩ : BufTy).Contents (Elt Ideal)) (x9 : (⟨S3x256x256, .f32⟩ : BufTy).Contents (Elt Ideal)) (x10 : (⟨S3x256, .f32⟩ : BufTy).Contents (Elt Ideal)) (x11 : (⟨S3x256x256, .f32⟩ : BufTy).Contents (Elt Ideal)) (x16 : (⟨S100000, .i32⟩ : BufTy).Contents (Elt Ideal)) (x18 : (⟨S2x320000, .i32⟩ : BufTy).Contents (Elt Ideal)) :
    layer (val_main_v118 (F := Ideal) x0 x2 x4 x5 x6 x7 x8 x9 x10 x11 x16 x18) (val_main_v106 (F := Ideal) x0 x2 x4 x5 x6 x7 x8 x9 x10 x11 x16 x18)
      (val_main_v120 (F := Ideal) x9) (val_main_v128 (F := Ideal) x11) (biasRow2 x10)
    = val_main_v131 (F := Ideal) x0 x2 x4 x5 x6 x7 x8 x9 x10 x11 x16 x18 := by
  funext i
  obtain ⟨r, q, rfl⟩ : ∃ (r : Fin 100000) (q : Fin 256), i = ix2 r q := ⟨i 0, i 1, eq_ix2 i⟩
  refine (layer_apply _ _ _ _ _ r q).trans ?_
  rw [val_main_v131_apply, val_main_v130_apply, val_main_v126_apply, val_main_v121_apply, val_main_v129_apply,
    refBias2_apply, val_main_call5_v0_apply, val_main_call5_cst_apply, biasRow2_apply]
  have el : ∀ k : Fin 256, lidx_main_v121 (ix2 r q) k = ix2 r k := fun k => funext fun a => Fin.ext (by match a with | ⟨0, _⟩ => rfl | ⟨1, _⟩ => rfl)
  have er : ∀ k : Fin 256, ridx_main_v121 (ix2 r q) k = ix2 k q := fun k => funext fun a => Fin.ext (by match a with | ⟨0, _⟩ => rfl | ⟨1, _⟩ => rfl)
  have el' : ∀ k : Fin 256, lidx_main_v129 (ix2 r q) k = ix2 r k := fun k => funext fun a => Fin.ext (by match a with | ⟨0, _⟩ => rfl | ⟨1, _⟩ => rfl)
  have er' : ∀ k : Fin 256, ridx_main_v129 (ix2 r q) k = ix2 k q := fun k => funext fun a => Fin.ext (by match a with | ⟨0, _⟩ => rfl | ⟨1, _⟩ => rfl)
  simp only [el, er, el', er']
  exact congrArg (max _) Ideal.ofBits_zero_f32.symm

/-! ### The head -/

/-- The head at row r, written out: for each hidden unit k the rectified sum of row r against column k of the first
    weights plus the hidden bias at k; these against the weight column; plus the output bias. -/
theorem head_apply (x : Vec Ideal S100000x256 .bf16) (w0 : Vec Ideal S256x256 .bf16) (b0 : Vec Ideal S1x256 .f32)
    (w1 : Vec Ideal S256x1 .bf16) (b1 : Vec Ideal S1x1 .f32) (r : Fin 100000) (u : Fin 1) :
    headLayer x w0 b0 w1 b1 (ix2 r u)
      = (∑ k : Fin 256, max ((∑ j : Fin 256, x (ix2 r j) * w0 (ix2 j k)) + b0 (ix2 0 k)) 0 * w1 (ix2 k 0)) + b1 (ix2 0 0) :=
  rfl

/-- The hidden bias laid out as a row holds at column k the vector's entry k. -/
theorem headBias0_apply (x13 : (⟨S256, .f32⟩ : BufTy).Contents (Elt Ideal)) (k : Fin 256) :
    headBias0 x13 (ix2 0 k) = x13 (ix1 k) := by
  unfold headBias0
  exact shapeCast_a_1a_apply _ _ 0 k

/-- The reference broadcasts the hidden bias over the 100000 rows: at entry (r, k) the vector's entry k. -/
theorem refHeadBias0_apply (x13 : (⟨S256, .f32⟩ : BufTy).Contents (Elt Ideal)) (r : Fin 100000) (k : Fin 256) :
    val_main_v134 (F := Ideal) x13 (ix2 r k) = x13 (ix1 k) := by
  rw [val_main_v134_apply, val_main_v133_apply]
  exact congrArg x13 (funext fun a => Fin.ext (by match a with | ⟨0, _⟩ => rfl))

/-- The output bias laid out as a 1 x 1 array holds the vector's one entry. -/
theorem headBias1_apply (x15 : (⟨S1, .f32⟩ : BufTy).Contents (Elt Ideal)) :
    headBias1 x15 (ix2 0 0) = x15 (ix1 0) := by
  unfold headBias1
  exact shapeCast_a_1a_apply _ _ 0 0

/-- The reference broadcasts the output bias over the 100000 rows: at every row the vector's one entry. -/
theorem refHeadBias1_apply (x15 : (⟨S1, .f32⟩ : BufTy).Contents (Elt Ideal)) (r : Fin 100000) :
    val_main_v139 (F := Ideal) x15 (ix2 r 0) = x15 (ix1 0) := by
  rw [val_main_v139_apply, val_main_v138_apply]
  exact congrArg x15 (funext fun a => Fin.ext (by match a with | ⟨0, _⟩ => rfl))

/-- The head over the reference's own stages, as functions of any launch arrays. The reference computes the hidden
    activations, rectifies them, takes their product with the weight column and adds the output bias, in the head
    function's own order: entry by entry the two products are the sums over the 256 shared coordinates, the biases are
    the vectors' entries on both sides, and the rectifier's zero is the real 0. -/
theorem head_gen (x0 : (⟨S100000x17, .f32⟩ : BufTy).Contents (Elt Ideal)) (x2 : (⟨S4x128, .f32⟩ : BufTy).Contents (Elt Ideal)) (x4 : (⟨S17x128, .f32⟩ : BufTy).Contents (Elt Ideal)) (x5 : (⟨S128, .f32⟩ : BufTy).Contents (Elt Ideal)) (x6 : (⟨S17x128, .f32⟩ : BufTy).Contents (Elt Ideal)) (x7 : (⟨S128, .f32⟩ : BufTy).Contents (Elt Ideal)) (x8 : (⟨S17x128, .f32⟩ : BufTy).Contents (Elt Ideal)) (x9 : (⟨S3x256x256, .f32⟩ : BufTy).Contents (Elt Ideal)) (x10 : (⟨S3x256, .f32⟩ : BufTy).Contents (Elt Ideal)) (x11 : (⟨S3x256x256, .f32⟩ : BufTy).Contents (Elt Ideal)) (x12 : (⟨S256x256, .f32⟩ : BufTy).Contents (Elt Ideal)) (x13 : (⟨S256, .f32⟩ : BufTy).Contents (Elt Ideal)) (x14 : (⟨S256x1, .f32⟩ : BufTy).Contents (Elt Ideal)) (x15 : (⟨S1, .f32⟩ : BufTy).Contents (Elt Ideal)) (x16 : (⟨S100000, .i32⟩ : BufTy).Contents (Elt Ideal)) (x18 : (⟨S2x320000, .i32⟩ : BufTy).Contents (Elt Ideal)) :
    headLayer (val_main_v131 (F := Ideal) x0 x2 x4 x5 x6 x7 x8 x9 x10 x11 x16 x18) x12 (headBias0 x13) x14 (headBias1 x15)
    = val_main_v140 (F := Ideal) x0 x2 x4 x5 x6 x7 x8 x9 x10 x11 x12 x13 x14 x15 x16 x18 := by
  funext i
  obtain ⟨r, u, rfl⟩ : ∃ (r : Fin 100000) (u : Fin 1), i = ix2 r u := ⟨i 0, i 1, eq_ix2 i⟩
  obtain rfl : u = 0 := Subsingleton.elim _ _
  refine (head_apply _ _ _ _ _ r 0).trans ?_
  rw [val_main_v140_apply, val_main_v137_apply, refHeadBias1_apply, headBias1_apply]
  refine congrArg (· + x15 (ix1 0)) (Finset.sum_congr rfl fun k _ => ?_)
  have el : lidx_main_v137 (ix2 r 0) k = ix2 r k := funext fun a => Fin.ext (by match a with | ⟨0, _⟩ => rfl | ⟨1, _⟩ => rfl)
  have er : ridx_main_v137 (ix2 r 0) k = ix2 k 0 := funext fun a => Fin.ext (by match a with | ⟨0, _⟩ => rfl | ⟨1, _⟩ => rfl)
  rw [el, er, val_main_v136_apply, val_main_v135_apply, val_main_v132_apply, refHeadBias0_apply, headBias0_apply,
    val_main_call6_v0_apply, val_main_call6_cst_apply]
  have el' : ∀ j : Fin 256, lidx_main_v132 (ix2 r k) j = ix2 r j := fun j => funext fun a => Fin.ext (by match a with | ⟨0, _⟩ => rfl | ⟨1, _⟩ => rfl)
  have er' : ∀ j : Fin 256, ridx_main_v132 (ix2 r k) j = ix2 j k := fun j => funext fun a => Fin.ext (by match a with | ⟨0, _⟩ => rfl | ⟨1, _⟩ => rfl)
  simp only [el', er']
  exact congrArg (· * x14 (ix2 k 0)) (congrArg (max _) Ideal.ofBits_zero_f32.symm)

end LayerRef

variable (m : (ℓ : Loc nD τ sig) → Buf (Elt Ideal) ℓ) (c : Dev nD)

/-- The first layer: the layer function of the reference's mean, features, weights and the bias row is the
    reference's first-layer output. -/
theorem layer0_ref : layer (Ragg0 m c) (Rx0 m c) (Rwl0 m c) (Rwr0 m c) (biasRow0 (a10 m c)) = Rx1 m c :=
  LayerRef.layer0_gen (a0 m c) (a2 m c) (a4 m c) (a5 m c) (a6 m c) (a7 m c) (a8 m c) (a9 m c) (a10 m c) (a11 m c) (a16 m c) (a18 m c)
/-- The second layer. -/
theorem layer1_ref : layer (Ragg1 m c) (Rx1 m c) (Rwl1 m c) (Rwr1 m c) (biasRow1 (a10 m c)) = Rx2 m c :=
  LayerRef.layer1_gen (a0 m c) (a2 m c) (a4 m c) (a5 m c) (a6 m c) (a7 m c) (a8 m c) (a9 m c) (a10 m c) (a11 m c) (a16 m c) (a18 m c)
/-- The third layer. -/
theorem layer2_ref : layer (Ragg2 m c) (Rx2 m c) (Rwl2 m c) (Rwr2 m c) (biasRow2 (a10 m c)) = Rx3 m c :=
  LayerRef.layer2_gen (a0 m c) (a2 m c) (a4 m c) (a5 m c) (a6 m c) (a7 m c) (a8 m c) (a9 m c) (a10 m c) (a11 m c) (a16 m c) (a18 m c)
/-- The head: the head function of the last layer's output and the head's parameters is the reference's prediction. -/
theorem head_ref : headLayer (Rx3 m c) (a12 m c) (headBias0 (a13 m c)) (a14 m c) (headBias1 (a15 m c)) = Rpred m c :=
  LayerRef.head_gen (a0 m c) (a2 m c) (a4 m c) (a5 m c) (a6 m c) (a7 m c) (a8 m c) (a9 m c) (a10 m c) (a11 m c) (a12 m c) (a13 m c) (a14 m c) (a15 m c) (a16 m c) (a18 m c)

end Cert.Bridge

end
-- ==== Proof.Regions.lean ====
/-
  The four regions. A region changes only its own arrays: its inputs end as it found them and its output array ends
  holding the layer function (for the last region, the head function) of the five arrays it found. Those five are the
  reference's intermediates, so the output is the layer function of the reference's intermediates, which is the
  reference's next intermediate. Every other array the program holds is carried through the region unchanged.
-/
import proofs.«415851_j69784628626298_1_alg».proof.Proof.Invariants
import proofs.«415851_j69784628626298_1_alg».proof.Proof.SageRegion0
import proofs.«415851_j69784628626298_1_alg».proof.Proof.SageRegion1
import proofs.«415851_j69784628626298_1_alg».proof.Proof.SageRegion2
import proofs.«415851_j69784628626298_1_alg».proof.Proof.HeadRegion
import proofs.«415851_j69784628626298_1_alg».proof.Proof.LayerRef
import Idealize.ShloMosaic.Lib.StableHlo.Run

noncomputable section

namespace Cert.Bridge

open Idealize.ShloMosaic Idealize.ShloMosaic.TcCoe Idealize.SL.Sem Idealize.ShloMosaic.StableHlo Cert.KernelIdeal Cert.KernelIdeal.Gen

variable (m : (ℓ : Loc nD τ sig) → Buf (Elt Ideal) ℓ) (ρ : Dev nD → PrngReg) (c : Dev nD)

namespace Regions

open Cert.KernelIdeal.SageValue Cert.KernelIdeal.HeadValue

/-- The layer function of equal arrays is the same array: the step from "the five arrays the region found" to "the
    reference's five intermediates", which the entry invariant says are equal one by one. -/
theorem layer_congr {a a' : Vec Ideal S100000x256 .f32} {x x' : Vec Ideal S100000x256 .bf16}
    {wl wl' wr wr' : Vec Ideal S256x256 .bf16} {b b' : Vec Ideal S1x256 .f32}
    (ha : a = a') (hx : x = x') (hwl : wl = wl') (hwr : wr = wr') (hb : b = b') :
    layer a x wl wr b = layer a' x' wl' wr' b' := by subst ha hx hwl hwr hb; rfl

/-- The same for the head function. -/
theorem head_congr {x x' : Vec Ideal S100000x256 .bf16} {w0 w0' : Vec Ideal S256x256 .bf16}
    {b0 b0' : Vec Ideal S1x256 .f32} {w1 w1' : Vec Ideal S256x1 .bf16} {b1 b1' : Vec Ideal S1x1 .f32}
    (hx : x = x') (hw0 : w0 = w0') (hb0 : b0 = b0') (hw1 : w1 = w1') (hb1 : b1 = b1') :
    headLayer x w0 b0 w1 b1 = headLayer x' w0' b0' w1' b1' := by subst hx hw0 hb0 hw1 hb1; rfl

/-! ### What a layer's region leaves alone

The arrays carried from boundary to boundary — the edges' endpoints, the in-degree column, the two weight stacks, the
bias matrix, the head's parameters, the labels — are none of the six arrays a layer's region works on (its five inputs
and its output), so at the region's exit each holds what it held at the entry. -/

/-- Through the first layer's region. -/
theorem carried0 (h : Carried m c (W5 (F := Ideal) m ρ c)) : Carried m c (W6 (F := Ideal) m ρ c) where
  src := (W6_of_ne m ρ c main_v41 (by decide)).trans h.src
  dst := (W6_of_ne m ρ c main_v43 (by decide)).trans h.dst
  den := (W6_of_ne m ρ c main_v50 (by decide)).trans h.den
  wlAll := (W6_of_ne m ρ c main_v51 (by decide)).trans h.wlAll
  wrAll := (W6_of_ne m ρ c main_v52 (by decide)).trans h.wrAll
  bias := (W6_of_ne m ρ c main_arg10 (by decide)).trans h.bias
  w0 := (W6_of_ne m ρ c main_arg12 (by decide)).trans h.w0
  b0 := (W6_of_ne m ρ c main_arg13 (by decide)).trans h.b0
  w1 := (W6_of_ne m ρ c main_arg14 (by decide)).trans h.w1
  b1 := (W6_of_ne m ρ c main_arg15 (by decide)).trans h.b1
  y := (W6_of_ne m ρ c main_arg1 (by decide)).trans h.y

/-- Through the second layer's region. -/
theorem carried1 (h : Carried m c (W7 (F := Ideal) m ρ c)) : Carried m c (W8 (F := Ideal) m ρ c) where
  src := (W8_of_ne m ρ c main_v41 (by decide)).trans h.src
  dst := (W8_of_ne m ρ c main_v43 (by decide)).trans h.dst
  den := (W8_of_ne m ρ c main_v50 (by decide)).trans h.den
  wlAll := (W8_of_ne m ρ c main_v51 (by decide)).trans h.wlAll
  wrAll := (W8_of_ne m ρ c main_v52 (by decide)).trans h.wrAll
  bias := (W8_of_ne m ρ c main_arg10 (by decide)).trans h.bias
  w0 := (W8_of_ne m ρ c main_arg12 (by decide)).trans h.w0
  b0 := (W8_of_ne m ρ c main_arg13 (by decide)).trans h.b0
  w1 := (W8_of_ne m ρ c main_arg14 (by decide)).trans h.w1
  b1 := (W8_of_ne m ρ c main_arg15 (by decide)).trans h.b1
  y := (W8_of_ne m ρ c main_arg1 (by decide)).trans h.y

/-- Through the third layer's region. -/
theorem carried2 (h : Carried m c (W9 (F := Ideal) m ρ c)) : Carried m c (W10 (F := Ideal) m ρ c) where
  src := (W10_of_ne m ρ c main_v41 (by decide)).trans h.src
  dst := (W10_of_ne m ρ c main_v43 (by decide)).trans h.dst
  den := (W10_of_ne m ρ c main_v50 (by decide)).trans h.den
  wlAll := (W10_of_ne m ρ c main_v51 (by decide)).trans h.wlAll
  wrAll := (W10_of_ne m ρ c main_v52 (by decide)).trans h.wrAll
  bias := (W10_of_ne m ρ c main_arg10 (by decide)).trans h.bias
  w0 := (W10_of_ne m ρ c main_arg12 (by decide)).trans h.w0
  b0 := (W10_of_ne m ρ c main_arg13 (by decide)).trans h.b0
  w1 := (W10_of_ne m ρ c main_arg14 (by decide)).trans h.w1
  b1 := (W10_of_ne m ρ c main_arg15 (by decide)).trans h.b1
  y := (W10_of_ne m ρ c main_arg1 (by decide)).trans h.y

end Regions

open Regions Cert.KernelIdeal.SageValue Cert.KernelIdeal.HeadValue

/-- The first layer's region. Its output array is the sixth of the region's arrays, so at the exit it holds what the
    region's write-backs leave: the layer of the five arrays found at the entry. Those are the reference's neighbour
    mean, features, left and right weights and the bias row, so this is the reference's first-layer output. -/
theorem exit0 (h : Entry0 m c (W5 (F := Ideal) m ρ c)) : Exit0 m c (W6 (F := Ideal) m ρ c) where
  x := ((W6_arr m ρ c 5).trans (arrAt0 (V5 m ρ) c)).trans
    ((layer_congr h.agg h.x h.wl h.wr h.bl).trans (layer0_ref m c))
  carried := carried0 m ρ c h.carried
/-- The second layer's region: the same, from the first layer's output and the second layer's mean and parameters. -/
theorem exit1 (h : Entry1 m c (W7 (F := Ideal) m ρ c)) : Exit1 m c (W8 (F := Ideal) m ρ c) where
  x := ((W8_arr m ρ c 5).trans (arrAt1 (V7 m ρ) c)).trans
    ((layer_congr h.agg h.x h.wl h.wr h.bl).trans (layer1_ref m c))
  carried := carried1 m ρ c h.carried
/-- The third layer's region: the same, from the second layer's output and the third layer's mean and parameters. -/
theorem exit2 (h : Entry2 m c (W9 (F := Ideal) m ρ c)) : Exit2 m c (W10 (F := Ideal) m ρ c) where
  x := ((W10_arr m ρ c 5).trans (arrAt2 (V9 m ρ) c)).trans
    ((layer_congr h.agg h.x h.wl h.wr h.bl).trans (layer2_ref m c))
  carried := carried2 m ρ c h.carried
/-- The head's region. Its output array ends holding the head function of the five arrays found at the entry: the
    third layer's output, the two weight matrices and the two biases as the head reads them, which makes it the
    reference's prediction. The labels are none of the region's arrays and stay as launched. -/
theorem exit3 (h : Entry3 m c (W11 (F := Ideal) m ρ c)) : Exit3 m c (W12 (F := Ideal) m ρ c) where
  pred := ((W12_arr m ρ c 5).trans (arrAt3 (V11 m ρ) c)).trans
    ((head_congr h.x h.w0 h.b0 h.w1 h.b1).trans (head_ref m c))
  y := (W12_of_ne m ρ c main_arg1 (by decide)).trans h.y

end Cert.Bridge

end
-- ==== Proof.Stretch1.lean ====
/-
  What the second region finds. The stretch after the first region gathers the first layer's output at the edges'
  sources, sums it into the edges' destinations and divides by the in-degree — the second layer's mean of the
  in-neighbours' features — and cuts the second layer's weights and bias row out of the parameter arrays: the same
  host operations as the reference's, applied to the first layer's output, which is the reference's.
-/
import proofs.«415851_j69784628626298_1_alg».proof.Proof.Invariants
import Idealize.ShloMosaic.Lib.StableHlo.Run

noncomputable section

namespace Cert.Bridge

open Idealize.ShloMosaic Idealize.ShloMosaic.TcCoe Idealize.SL.Sem Idealize.ShloMosaic.StableHlo Cert.KernelIdeal Cert.KernelIdeal.Gen

variable (m : (ℓ : Loc nD τ sig) → Buf (Elt Ideal) ℓ) (ρ : Dev nD → PrngReg) (c : Dev nD)

namespace Stretch1

/-! ## What the stretch computes, as functions of what it finds -/

/-- The edges' sources as a column of row numbers: a negative entry counts from the end, so the number of nodes is
    added to it; the others are kept. -/
def srcCol (s : (⟨S320000, .i32⟩ : BufTy).Contents (Elt Ideal)) : (⟨S320000x1, .i32⟩ : BufTy).Contents (Elt Ideal) :=
  broadcastInDim S320000x1 ![0] bcast_S320000_S320000x1_0
    (select
      (cmpi .slt s (broadcastInDim S320000 ![] bcast_S_S320000 (constantI S_ 32 0#32 : (⟨S_, .i32⟩ : BufTy).Contents (Elt Ideal))))
      (addi s (broadcastInDim S320000 ![] bcast_S_S320000 (constantI S_ 32 100000#32 : (⟨S_, .i32⟩ : BufTy).Contents (Elt Ideal))))
      s)

/-- The mean of the in-neighbours' features, of the features `x`, the edges' sources `s` and destinations `d` and
    the in-degree column `den`: row `s e` of `x` is added into row `d e` of a zero array for every edge `e`, and each
    row of the sum is divided by its node's in-degree. -/
def meanOf (x : (⟨S100000x256, .bf16⟩ : BufTy).Contents (Elt Ideal))
    (s d : (⟨S320000, .i32⟩ : BufTy).Contents (Elt Ideal))
    (den : (⟨S100000x1, .f32⟩ : BufTy).Contents (Elt Ideal)) : (⟨S100000x256, .f32⟩ : BufTy).Contents (Elt Ideal) :=
  Host.divf (F := Ideal)
    (Host.scatterAdd (F := Ideal) scatter_S100000x256_S320000x1_S320000x256_1_0_0_1
      (broadcastInDim S100000x256 ![] bcast_S_S100000x256 (constant (F := Ideal) S_ .f32 0x00000000#32))
      (broadcastInDim S320000x1 ![0] bcast_S320000_S320000x1_0 d)
      (extf (F := Ideal) .f32 (Host.gather gather_S100000x256_S320000x1_S320000x256_1_0_n_n_0_1_1256 x (srcCol s)) bitsLt_bf16_f32))
    (broadcastInDim S100000x256 ![0, 1] bcast_S100000x1_S100000x256_0_1 den)

/-- The second of the three 256 x 256 matrices stacked in `w`. -/
def secondMat (w : (⟨S3x256x256, .bf16⟩ : BufTy).Contents (Elt Ideal)) : (⟨S256x256, .bf16⟩ : BufTy).Contents (Elt Ideal) :=
  shapeCast _ (extractStridedSlice S1x256x256 ![1, 0, 0] w slices_S3x256x256_S1x256x256_1_0_0) shapeCasts_S1x256x256_S256x256

/-! ## They are the reference's next stages

The reference forms its second layer's neighbour mean by the same operations from its own first layer's output, edge
endpoints and in-degree column, and its second layer's matrices by the same slice of the two weight stacks: each pair
of terms unfolds to one. The first layer's output stays a name on both sides. -/

theorem meanOf_ref : meanOf (Rx1 m c) (Rsrc m c) (Rdst m c) (Rden m c) = Ragg1 m c := rfl
theorem secondMat_left : secondMat (a9 m c) = Rwl1 m c := rfl
theorem secondMat_right : secondMat (a11 m c) = Rwr1 m c := rfl

/-! ## What the stretch leaves, whatever contents `W` it finds -/

section Reads
variable (W : Valuation τ sig (Elt Ideal))

theorem agg_read :
    StableHlo.after (hostOps1 (F := Ideal)) W (Proc.devRef .tc main_v86)
      = meanOf (W (Proc.devRef .tc main_v73)) (W (Proc.devRef .tc main_v41)) (W (Proc.devRef .tc main_v43))
          (W (Proc.devRef .tc main_v50)) := by
  dsimp only [hostOps1]
  after_results_simp <;> rfl

theorem wl_read :
    StableHlo.after (hostOps1 (F := Ideal)) W (Proc.devRef .tc main_v91) = secondMat (W (Proc.devRef .tc main_v51)) := by
  dsimp only [hostOps1]
  after_results_simp <;> rfl

theorem wr_read :
    StableHlo.after (hostOps1 (F := Ideal)) W (Proc.devRef .tc main_v93) = secondMat (W (Proc.devRef .tc main_v52)) := by
  dsimp only [hostOps1]
  after_results_simp <;> rfl

theorem bl_read :
    StableHlo.after (hostOps1 (F := Ideal)) W (Proc.devRef .tc main_v89) = biasRow1 (W (Proc.devRef .tc main_arg10)) := by
  dsimp only [hostOps1]
  after_results_simp <;> rfl

/-- The first layer's output is not written. -/
theorem x_kept :
    StableHlo.after (hostOps1 (F := Ideal)) W (Proc.devRef .tc main_v73) = W (Proc.devRef .tc main_v73) := by
  dsimp only [hostOps1]
  after_results_simp

/-! None of the arrays carried along is written by the stretch: each holds what it held. -/

theorem src_kept :
    StableHlo.after (hostOps1 (F := Ideal)) W (Proc.devRef .tc main_v41) = W (Proc.devRef .tc main_v41) := by
  dsimp only [hostOps1]
  after_results_simp

theorem dst_kept :
    StableHlo.after (hostOps1 (F := Ideal)) W (Proc.devRef .tc main_v43) = W (Proc.devRef .tc main_v43) := by
  dsimp only [hostOps1]
  after_results_simp

theorem den_kept :
    StableHlo.after (hostOps1 (F := Ideal)) W (Proc.devRef .tc main_v50) = W (Proc.devRef .tc main_v50) := by
  dsimp only [hostOps1]
  after_results_simp

theorem wlAll_kept :
    StableHlo.after (hostOps1 (F := Ideal)) W (Proc.devRef .tc main_v51) = W (Proc.devRef .tc main_v51) := by
  dsimp only [hostOps1]
  after_results_simp

theorem wrAll_kept :
    StableHlo.after (hostOps1 (F := Ideal)) W (Proc.devRef .tc main_v52) = W (Proc.devRef .tc main_v52) := by
  dsimp only [hostOps1]
  after_results_simp

theorem bias_kept :
    StableHlo.after (hostOps1 (F := Ideal)) W (Proc.devRef .tc main_arg10) = W (Proc.devRef .tc main_arg10) := by
  dsimp only [hostOps1]
  after_results_simp

theorem w0_kept :
    StableHlo.after (hostOps1 (F := Ideal)) W (Proc.devRef .tc main_arg12) = W (Proc.devRef .tc main_arg12) := by
  dsimp only [hostOps1]
  after_results_simp

theorem b0_kept :
    StableHlo.after (hostOps1 (F := Ideal)) W (Proc.devRef .tc main_arg13) = W (Proc.devRef .tc main_arg13) := by
  dsimp only [hostOps1]
  after_results_simp

theorem w1_kept :
    StableHlo.after (hostOps1 (F := Ideal)) W (Proc.devRef .tc main_arg14) = W (Proc.devRef .tc main_arg14) := by
  dsimp only [hostOps1]
  after_results_simp

theorem b1_kept :
    StableHlo.after (hostOps1 (F := Ideal)) W (Proc.devRef .tc main_arg15) = W (Proc.devRef .tc main_arg15) := by
  dsimp only [hostOps1]
  after_results_simp

theorem y_kept :
    StableHlo.after (hostOps1 (F := Ideal)) W (Proc.devRef .tc main_arg1) = W (Proc.devRef .tc main_arg1) := by
  dsimp only [hostOps1]
  after_results_simp

theorem carried_kept (h : Carried m c W) : Carried m c (StableHlo.after (hostOps1 (F := Ideal)) W) where
  src := (src_kept W).trans h.src
  dst := (dst_kept W).trans h.dst
  den := (den_kept W).trans h.den
  wlAll := (wlAll_kept W).trans h.wlAll
  wrAll := (wrAll_kept W).trans h.wrAll
  bias := (bias_kept W).trans h.bias
  w0 := (w0_kept W).trans h.w0
  b0 := (b0_kept W).trans h.b0
  w1 := (w1_kept W).trans h.w1
  b1 := (b1_kept W).trans h.b1
  y := (y_kept W).trans h.y

/-! ## What the second region finds, of what the first left -/

/-- If the stretch finds the first layer's output and the carried arrays at the reference's values, it leaves the
    second layer's neighbour mean, matrices and bias row at the reference's. -/
theorem found (h : Exit0 m c W) : Entry1 m c (StableHlo.after (hostOps1 (F := Ideal)) W) where
  agg := by
    rw [agg_read, h.x, h.carried.src, h.carried.dst, h.carried.den]
    exact meanOf_ref m c
  x := by
    rw [x_kept]
    exact h.x
  wl := by
    rw [wl_read, h.carried.wlAll]
    exact secondMat_left m c
  wr := by
    rw [wr_read, h.carried.wrAll]
    exact secondMat_right m c
  bl := by
    rw [bl_read, h.carried.bias]
  carried := carried_kept m c W h.carried

end Reads

end Stretch1

/-- The stretch between the first region and the second. -/
theorem entry1 (h : Exit0 m c (W6 (F := Ideal) m ρ c)) : Entry1 m c (W7 (F := Ideal) m ρ c) :=
  Stretch1.found m c (W6 (F := Ideal) m ρ c) h

end Cert.Bridge

end
-- ==== Proof.Stretch2.lean ====
/- What the third region finds. The stretch after the second region gathers the second layer's output at the edges'
  sources, sums it into the edges' destinations and divides by the in-degree — the third layer's mean of the
  in-neighbours' features — and cuts the third layer's weights and bias row out of the parameter arrays: the same
  host operations as the reference's, applied to the second layer's output, which is the reference's.
-/
import proofs.«415851_j69784628626298_1_alg».proof.Proof.Invariants
import Idealize.ShloMosaic.Lib.StableHlo.Run

noncomputable section

namespace Cert.Bridge

open Idealize.ShloMosaic Idealize.ShloMosaic.TcCoe Idealize.SL.Sem Idealize.ShloMosaic.StableHlo Cert.KernelIdeal Cert.KernelIdeal.Gen

variable (m : (ℓ : Loc nD τ sig) → Buf (Elt Ideal) ℓ) (ρ : Dev nD → PrngReg) (c : Dev nD)

namespace Stretch2

/-! ## What the stretch computes, as functions of what it finds -/

/-- The edges' sources as a column of row numbers: a negative entry counts from the end, so the number of nodes is
    added to it; the others are kept. -/
def srcCol (s : (⟨S320000, .i32⟩ : BufTy).Contents (Elt Ideal)) : (⟨S320000x1, .i32⟩ : BufTy).Contents (Elt Ideal) :=
  broadcastInDim S320000x1 ![0] bcast_S320000_S320000x1_0
    (select
      (cmpi .slt s (broadcastInDim S320000 ![] bcast_S_S320000 (constantI S_ 32 0#32 : (⟨S_, .i32⟩ : BufTy).Contents (Elt Ideal))))
      (addi s (broadcastInDim S320000 ![] bcast_S_S320000 (constantI S_ 32 100000#32 : (⟨S_, .i32⟩ : BufTy).Contents (Elt Ideal))))
      s)

/-- The mean of the in-neighbours' features, of the features `x`, the edges' sources `s` and destinations `d` and
    the in-degree column `den`: row `s e` of `x` is added into row `d e` of a zero array for every edge `e`, and each
    row of the sum is divided by its node's in-degree. -/
def meanOf (x : (⟨S100000x256, .bf16⟩ : BufTy).Contents (Elt Ideal))
    (s d : (⟨S320000, .i32⟩ : BufTy).Contents (Elt Ideal))
    (den : (⟨S100000x1, .f32⟩ : BufTy).Contents (Elt Ideal)) : (⟨S100000x256, .f32⟩ : BufTy).Contents (Elt Ideal) :=
  Host.divf (F := Ideal)
    (Host.scatterAdd (F := Ideal) scatter_S100000x256_S320000x1_S320000x256_1_0_0_1
      (broadcastInDim S100000x256 ![] bcast_S_S100000x256 (constant (F := Ideal) S_ .f32 0x00000000#32))
      (broadcastInDim S320000x1 ![0] bcast_S320000_S320000x1_0 d)
      (extf (F := Ideal) .f32 (Host.gather gather_S100000x256_S320000x1_S320000x256_1_0_n_n_0_1_1256 x (srcCol s)) bitsLt_bf16_f32))
    (broadcastInDim S100000x256 ![0, 1] bcast_S100000x1_S100000x256_0_1 den)

/-- The third of the three 256 x 256 matrices stacked in `w`. -/
def thirdMat (w : (⟨S3x256x256, .bf16⟩ : BufTy).Contents (Elt Ideal)) : (⟨S256x256, .bf16⟩ : BufTy).Contents (Elt Ideal) :=
  shapeCast _ (extractStridedSlice S1x256x256 ![2, 0, 0] w slices_S3x256x256_S1x256x256_2_0_0) shapeCasts_S1x256x256_S256x256

/-! ## They are the reference's next stages

The reference forms its third layer's neighbour mean by the same operations from its own second layer's output, edge
endpoints and in-degree column, and its third layer's matrices by the same slice of the two weight stacks: each pair
of terms unfolds to one. The second layer's output stays a name on both sides. -/

theorem meanOf_ref : meanOf (Rx2 m c) (Rsrc m c) (Rdst m c) (Rden m c) = Ragg2 m c := rfl
theorem thirdMat_left : thirdMat (a9 m c) = Rwl2 m c := rfl
theorem thirdMat_right : thirdMat (a11 m c) = Rwr2 m c := rfl

/-! ## What the stretch leaves, whatever contents `W` it finds -/

section Reads
variable (W : Valuation τ sig (Elt Ideal))

theorem agg_read :
    StableHlo.after (hostOps2 (F := Ideal)) W (Proc.devRef .tc main_v107)
      = meanOf (W (Proc.devRef .tc main_v94)) (W (Proc.devRef .tc main_v41)) (W (Proc.devRef .tc main_v43))
          (W (Proc.devRef .tc main_v50)) := by
  dsimp only [hostOps2]
  after_results_simp <;> rfl

theorem wl_read :
    StableHlo.after (hostOps2 (F := Ideal)) W (Proc.devRef .tc main_v112) = thirdMat (W (Proc.devRef .tc main_v51)) := by
  dsimp only [hostOps2]
  after_results_simp <;> rfl

theorem wr_read :
    StableHlo.after (hostOps2 (F := Ideal)) W (Proc.devRef .tc main_v114) = thirdMat (W (Proc.devRef .tc main_v52)) := by
  dsimp only [hostOps2]
  after_results_simp <;> rfl

theorem bl_read :
    StableHlo.after (hostOps2 (F := Ideal)) W (Proc.devRef .tc main_v110) = biasRow2 (W (Proc.devRef .tc main_arg10)) := by
  dsimp only [hostOps2]
  after_results_simp <;> rfl

/-- The second layer's output is not written. -/
theorem x_kept :
    StableHlo.after (hostOps2 (F := Ideal)) W (Proc.devRef .tc main_v94) = W (Proc.devRef .tc main_v94) := by
  dsimp only [hostOps2]
  after_results_simp

/-! None of the arrays carried along is written by the stretch: each holds what it held. -/

theorem src_kept :
    StableHlo.after (hostOps2 (F := Ideal)) W (Proc.devRef .tc main_v41) = W (Proc.devRef .tc main_v41) := by
  dsimp only [hostOps2]
  after_results_simp

theorem dst_kept :
    StableHlo.after (hostOps2 (F := Ideal)) W (Proc.devRef .tc main_v43) = W (Proc.devRef .tc main_v43) := by
  dsimp only [hostOps2]
  after_results_simp

theorem den_kept :
    StableHlo.after (hostOps2 (F := Ideal)) W (Proc.devRef .tc main_v50) = W (Proc.devRef .tc main_v50) := by
  dsimp only [hostOps2]
  after_results_simp

theorem wlAll_kept :
    StableHlo.after (hostOps2 (F := Ideal)) W (Proc.devRef .tc main_v51) = W (Proc.devRef .tc main_v51) := by
  dsimp only [hostOps2]
  after_results_simp

theorem wrAll_kept :
    StableHlo.after (hostOps2 (F := Ideal)) W (Proc.devRef .tc main_v52) = W (Proc.devRef .tc main_v52) := by
  dsimp only [hostOps2]
  after_results_simp

theorem bias_kept :
    StableHlo.after (hostOps2 (F := Ideal)) W (Proc.devRef .tc main_arg10) = W (Proc.devRef .tc main_arg10) := by
  dsimp only [hostOps2]
  after_results_simp

theorem w0_kept :
    StableHlo.after (hostOps2 (F := Ideal)) W (Proc.devRef .tc main_arg12) = W (Proc.devRef .tc main_arg12) := by
  dsimp only [hostOps2]
  after_results_simp

theorem b0_kept :
    StableHlo.after (hostOps2 (F := Ideal)) W (Proc.devRef .tc main_arg13) = W (Proc.devRef .tc main_arg13) := by
  dsimp only [hostOps2]
  after_results_simp

theorem w1_kept :
    StableHlo.after (hostOps2 (F := Ideal)) W (Proc.devRef .tc main_arg14) = W (Proc.devRef .tc main_arg14) := by
  dsimp only [hostOps2]
  after_results_simp

theorem b1_kept :
    StableHlo.after (hostOps2 (F := Ideal)) W (Proc.devRef .tc main_arg15) = W (Proc.devRef .tc main_arg15) := by
  dsimp only [hostOps2]
  after_results_simp

theorem y_kept :
    StableHlo.after (hostOps2 (F := Ideal)) W (Proc.devRef .tc main_arg1) = W (Proc.devRef .tc main_arg1) := by
  dsimp only [hostOps2]
  after_results_simp

theorem carried_kept (h : Carried m c W) : Carried m c (StableHlo.after (hostOps2 (F := Ideal)) W) where
  src := (src_kept W).trans h.src
  dst := (dst_kept W).trans h.dst
  den := (den_kept W).trans h.den
  wlAll := (wlAll_kept W).trans h.wlAll
  wrAll := (wrAll_kept W).trans h.wrAll
  bias := (bias_kept W).trans h.bias
  w0 := (w0_kept W).trans h.w0
  b0 := (b0_kept W).trans h.b0
  w1 := (w1_kept W).trans h.w1
  b1 := (b1_kept W).trans h.b1
  y := (y_kept W).trans h.y

/-! ## What the third region finds, of what the second left -/

/-- If the stretch finds the second layer's output and the carried arrays at the reference's values, it leaves the
    third layer's neighbour mean, matrices and bias row at the reference's. -/
theorem found (h : Exit1 m c W) : Entry2 m c (StableHlo.after (hostOps2 (F := Ideal)) W) where
  agg := by
    rw [agg_read, h.x, h.carried.src, h.carried.dst, h.carried.den]
    exact meanOf_ref m c
  x := by
    rw [x_kept]
    exact h.x
  wl := by
    rw [wl_read, h.carried.wlAll]
    exact thirdMat_left m c
  wr := by
    rw [wr_read, h.carried.wrAll]
    exact thirdMat_right m c
  bl := by
    rw [bl_read, h.carried.bias]
  carried := carried_kept m c W h.carried

end Reads

end Stretch2

/-- The stretch between the second region and the third. -/
theorem entry2 (h : Exit1 m c (W8 (F := Ideal) m ρ c)) : Entry2 m c (W9 (F := Ideal) m ρ c) :=
  Stretch2.found m c (W8 (F := Ideal) m ρ c) h

end Cert.Bridge

end
-- ==== Proof.Tail.lean ====
/-
  The two short stretches at the end. Before the head's region the program converts the head's two weight matrices
  to the format the region reads (the identity at the ideal values) and lays its two biases out as a row and as a
  1 x 1 array. After it, the program cuts the class column out of the labels and converts it to integers, exactly as
  the reference does.
-/
import proofs.«415851_j69784628626298_1_alg».proof.Proof.Invariants
import Idealize.ShloMosaic.Lib.StableHlo.Run

noncomputable section

namespace Cert.Bridge

open Idealize.ShloMosaic Idealize.ShloMosaic.TcCoe Idealize.SL.Sem Idealize.ShloMosaic.StableHlo Cert.KernelIdeal Cert.KernelIdeal.Gen

variable (m : (ℓ : Loc nD τ sig) → Buf (Elt Ideal) ℓ) (ρ : Dev nD → PrngReg) (c : Dev nD)

namespace Tail

/-- A 256 x 256 matrix in the format the head's region reads: the same entries. -/
def asRead256x256 (x : (⟨S256x256, .f32⟩ : BufTy).Contents (Elt Ideal)) : (⟨S256x256, .bf16⟩ : BufTy).Contents (Elt Ideal) :=
  truncf (F := Ideal) .bf16 x bitsLt_bf16_f32
/-- A 256 x 1 column in the format the head's region reads: the same entries. -/
def asRead256x1 (x : (⟨S256x1, .f32⟩ : BufTy).Contents (Elt Ideal)) : (⟨S256x1, .bf16⟩ : BufTy).Contents (Elt Ideal) :=
  truncf (F := Ideal) .bf16 x bitsLt_bf16_f32
/-- The class column of the labels as integers: column 1, flattened, each entry converted. -/
def classOf (x1 : (⟨S100000x2, .f32⟩ : BufTy).Contents (Elt Ideal)) : (⟨S100000, .i32⟩ : BufTy).Contents (Elt Ideal) :=
  fptosi (F := Ideal) (φ := .f32) 32
    (shapeCast S100000 (extractStridedSlice (α := Ideal .f32) S100000x1 ![0, 1] x1 slices_S100000x2_S100000x1_0_1) shapeCasts_S100000x1_S100000)

/-- At the ideal values the change of format keeps every entry. -/
theorem asRead256x256_eq (x : (⟨S256x256, .f32⟩ : BufTy).Contents (Elt Ideal)) : asRead256x256 x = x := rfl
theorem asRead256x1_eq (x : (⟨S256x1, .f32⟩ : BufTy).Contents (Elt Ideal)) : asRead256x1 x = x := rfl
/-- The class column built this way is the reference's. -/
theorem classOf_eq : classOf (a1 m c) = Rcls m c := rfl

/-! ### The stretch before the head's region, buffer by buffer -/

theorem feat_kept : W11 (F := Ideal) m ρ c (Proc.devRef .tc main_v115) = W10 (F := Ideal) m ρ c (Proc.devRef .tc main_v115) := by
    unfold W11
    generalize W10 (F := Ideal) m ρ c = W
    dsimp only [hostOps3]
    after_results_simp <;> rfl
theorem labels_kept11 : W11 (F := Ideal) m ρ c (Proc.devRef .tc main_arg1) = W10 (F := Ideal) m ρ c (Proc.devRef .tc main_arg1) := by
    unfold W11
    generalize W10 (F := Ideal) m ρ c = W
    dsimp only [hostOps3]
    after_results_simp <;> rfl
theorem w0_read : W11 (F := Ideal) m ρ c (Proc.devRef .tc main_v116) = asRead256x256 (W10 (F := Ideal) m ρ c (Proc.devRef .tc main_arg12)) := by
    unfold W11
    generalize W10 (F := Ideal) m ρ c = W
    dsimp only [hostOps3]
    after_results_simp <;> rfl
theorem w1_read : W11 (F := Ideal) m ρ c (Proc.devRef .tc main_v117) = asRead256x1 (W10 (F := Ideal) m ρ c (Proc.devRef .tc main_arg14)) := by
    unfold W11
    generalize W10 (F := Ideal) m ρ c = W
    dsimp only [hostOps3]
    after_results_simp <;> rfl
theorem b0_read : W11 (F := Ideal) m ρ c (Proc.devRef .tc main_v118) = headBias0 (W10 (F := Ideal) m ρ c (Proc.devRef .tc main_arg13)) := by
    unfold W11
    generalize W10 (F := Ideal) m ρ c = W
    dsimp only [hostOps3]
    after_results_simp <;> rfl
theorem b1_read : W11 (F := Ideal) m ρ c (Proc.devRef .tc main_v119) = headBias1 (W10 (F := Ideal) m ρ c (Proc.devRef .tc main_arg15)) := by
    unfold W11
    generalize W10 (F := Ideal) m ρ c = W
    dsimp only [hostOps3]
    after_results_simp <;> rfl

/-! ### The stretch after it -/

theorem pred_kept : W13 (F := Ideal) m ρ c (Proc.devRef .tc main_v120) = W12 (F := Ideal) m ρ c (Proc.devRef .tc main_v120) := by
    unfold W13
    generalize W12 (F := Ideal) m ρ c = W
    dsimp only [hostOps4]
    after_results_simp <;> rfl
theorem labels_kept13 : W13 (F := Ideal) m ρ c (Proc.devRef .tc main_arg1) = W12 (F := Ideal) m ρ c (Proc.devRef .tc main_arg1) := by
    unfold W13
    generalize W12 (F := Ideal) m ρ c = W
    dsimp only [hostOps4]
    after_results_simp <;> rfl
theorem class_read : W13 (F := Ideal) m ρ c (Proc.devRef .tc main_v123) = classOf (W12 (F := Ideal) m ρ c (Proc.devRef .tc main_arg1)) := by
    unfold W13
    generalize W12 (F := Ideal) m ρ c = W
    dsimp only [hostOps4]
    after_results_simp <;> rfl

end Tail

open Tail

/-- The stretch before the head's region. -/
theorem entry3 (h : Exit2 m c (W10 (F := Ideal) m ρ c)) : Entry3 m c (W11 (F := Ideal) m ρ c) where
  x := (feat_kept m ρ c).trans h.x
  w0 := by rw [w0_read, h.carried.w0]; exact asRead256x256_eq _
  b0 := by rw [b0_read, h.carried.b0]
  w1 := by rw [w1_read, h.carried.w1]; exact asRead256x1_eq _
  b1 := by rw [b1_read, h.carried.b1]
  y := (labels_kept11 m ρ c).trans h.carried.y
/-- The stretch after it: the three results. -/
theorem final (h : Exit3 m c (W12 (F := Ideal) m ρ c)) : Final m c (W13 (F := Ideal) m ρ c) where
  pred := (pred_kept m ρ c).trans h.pred
  cls := by rw [class_read, h.y]; exact classOf_eq m c
  y := (labels_kept13 m ρ c).trans h.y

end Cert.Bridge

end
-- ==== Proof.Chain.lean ====
/-
  The chain of invariants, composed. The prelude establishes what the first region finds; each region turns its entry
  invariant into its exit invariant; each stretch between regions turns an exit invariant into the next entry
  invariant; the last stretch adds the class column. So at the end of @main the kernel's three results are the
  reference's prediction and class column of the kernel's own launch arrays, and the labels as launched.
-/
import proofs.«415851_j69784628626298_1_alg».proof.Proof.Prelude4
import proofs.«415851_j69784628626298_1_alg».proof.Proof.Prelude5
import proofs.«415851_j69784628626298_1_alg».proof.Proof.Regions
import proofs.«415851_j69784628626298_1_alg».proof.Proof.Stretch1
import proofs.«415851_j69784628626298_1_alg».proof.Proof.Stretch2
import proofs.«415851_j69784628626298_1_alg».proof.Proof.Tail

noncomputable section

namespace Cert.Bridge

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg) (c : Dev nD)

/-- The three results at the end of @main. -/
theorem results : Final m c (W13 (F := Ideal) m ρ c) :=
  final m ρ c (exit3 m ρ c (entry3 m ρ c (exit2 m ρ c (entry2 m ρ c (exit1 m ρ c (entry1 m ρ c (exit0 m ρ c
    (entry0 m ρ c (pre4 m ρ c)))))))))

end Cert.Bridge

end
-- ==== Proof.lean ====
/- The proof of `Cert.Claim`: a three-layer graph network (mean aggregation over in-edges, then two 256 x 256 products,
   a bias and a rectifier per layer) with a two-layer head, whose dense layers run as four tiled TensorCore regions in
   the kernel's program and as plain host operations in the reference.
   Both programs run the same host computation around the layers (the embeddings, the edges' endpoints, the in-degree,
   the gather and scatter-add of each layer's mean); at the ideal values every change of float format is the identity.
   Per layer the kernel adds the second product before the bias and the reference the bias before the second product:
   equal on the extended reals, infinities included, so no finiteness of any input is needed.
   The modules: Law (that reordering), SageBlock / HeadBlock (a region's body read at an entry), SageRegion0/1/2 /
   HeadRegion (a region's output array as one function of the arrays it found), LayerRef (that function of the
   reference's intermediates is the reference's next intermediate), BridgeDefs / Invariants (the vocabulary: the
   reference's intermediates as functions of a memory's launch arrays, and what holds at each boundary of @main),
   Prelude4 / Prelude5 / Stretch1 / Stretch2 / Tail (the host stretches), Regions (the regions), Chain (composed),
   KernelIdealRun (the kernel program's run with its results kept), Assemble (the five claims). -/
import proofs.«415851_j69784628626298_1_alg».proof.Defs
import proofs.«415851_j69784628626298_1_alg».proof.Proof.Gen.Kernel
import proofs.«415851_j69784628626298_1_alg».proof.Proof.Gen.KernelIdeal
import proofs.«415851_j69784628626298_1_alg».proof.Proof.Gen.ReferenceIdeal
import proofs.«415851_j69784628626298_1_alg».proof.Proof.Gen.Pre_finite_inputs
import proofs.«415851_j69784628626298_1_alg».proof.Proof.Assemble
import proofs.«415851_j69784628626298_1_alg».proof.Proof.Chain
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves,
    Claims.algebraic_of_results fun m ρ c => Cert.Bridge.results m ρ c⟩

end Cert.Proof

end
